-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S256x256 : Shape := ⟨2, ![256, 256]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg16 : FVec F S256 .f32) (main_arg17 : FVec F S256x256 .f32) (main_arg18 : FVec F S256 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg17
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  main_v83

def fn_part3 {F : FTy → Type} [FloatOps F] (main_arg13 : FVec F S256x256 .f32) (main_arg14 : FVec F S256 .f32) (main_arg15 : FVec F S256x256 .f32) (main_arg16 : FVec F S256 .f32) (main_arg17 : FVec F S256x256 .f32) (main_arg18 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_v63 main_v67

def fn_part2 {F : FTy → Type} [FloatOps F] (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S262144x256 .f32) (main_arg1 : IVec S262144 32) (main_arg2 : IVec S262144 32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S262144x256 : Shape := ⟨2, ![262144, 256]⟩
abbrev S262144 : Shape := ⟨1, ![262144]⟩
abbrev S256x256 : Shape := ⟨2, ![256, 256]⟩
abbrev S256 : Shape := ⟨1, ![256]⟩
abbrev S262144x1 : Shape := ⟨2, ![262144, 1]⟩
abbrev S256x1 : Shape := ⟨2, ![256, 1]⟩
abbrev S1x256 : Shape := ⟨2, ![1, 256]⟩
abbrev S4096x256 : Shape := ⟨2, ![4096, 256]⟩
abbrev S4096x1 : Shape := ⟨2, ![4096, 1]⟩
abbrev S4096 : Shape := ⟨1, ![4096]⟩
abbrev S_ : Shape := ⟨0, ![]⟩
abbrev S8192x256 : Shape := ⟨2, ![8192, 256]⟩
abbrev S8192x1 : Shape := ⟨2, ![8192, 1]⟩
abbrev S256x8192 : Shape := ⟨2, ![256, 8192]⟩

abbrev nBuf : Space → Nat
  | .hbm => 119
  | .vmem => 23
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S262144, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S262144x1, .i32⟩
  | .hbm, ⟨20, _⟩ => ⟨S256x256, .f32⟩
  | .hbm, ⟨21, _⟩ => ⟨S256x1, .f32⟩
  | .hbm, ⟨22, _⟩ => ⟨S1x256, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S8192x256, .f32⟩
  | .hbm, ⟨36, _⟩ => ⟨S262144x1, .i32⟩
  | .hbm, ⟨37, _⟩ => ⟨S8192x256, .f32⟩
  | .hbm, ⟨38, _⟩ => ⟨S_, .f32⟩
  | .hbm, ⟨39, _⟩ => ⟨S262144x1, .f32⟩
  | .hbm, ⟨40, _⟩ => ⟨S_, .f32⟩
  | .hbm, ⟨41, _⟩ => ⟨S8192x1, .f32⟩
  | .hbm, ⟨42, _⟩ => ⟨S262144x1, .i32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x256, .f32⟩
  | .hbm, ⟨48, _⟩ => ⟨S8192x256, .f32⟩
  | .hbm, ⟨49, _⟩ => ⟨S8192x256, .f32⟩
  | .hbm, ⟨50, _⟩ => ⟨S1x256, .f32⟩
  | .hbm, ⟨51, _⟩ => ⟨S8192x256, .f32⟩
  | .hbm, ⟨52, _⟩ => ⟨S8192x256, .f32⟩
  | .hbm, ⟨53, _⟩ => ⟨S8192x256, .f32⟩
  | .hbm, ⟨54, _⟩ => ⟨S1x256, .f32⟩
  | .hbm, ⟨55, _⟩ => ⟨S8192x256, .f32⟩
  | .hbm, ⟨56, _⟩ => ⟨S8192x256, .f32⟩
  | .hbm, ⟨57, _⟩ => ⟨S8192x256, .f32⟩
  | .hbm, ⟨58, _⟩ => ⟨S1x256, .f32⟩
  | .hbm, ⟨59, _⟩ => ⟨S8192x256, .f32⟩
  | .hbm, ⟨60, _⟩ => ⟨S8192x256, .f32⟩
  | .hbm, ⟨61, _⟩ => ⟨S8192x256, .f32⟩
  | .hbm, ⟨62, _⟩ => ⟨S256x256, .f32⟩
  | .hbm, ⟨63, _⟩ => ⟨S1x256, .f32⟩
  | .hbm, ⟨64, _⟩ => ⟨S256x256, .f32⟩
  | .hbm, ⟨65, _⟩ => ⟨S256x256, .f32⟩
  | .hbm, ⟨66, _⟩ => ⟨S256x256, .f32⟩
  | .hbm, ⟨67, _⟩ => ⟨S1x256, .f32⟩
  | .hbm, ⟨68, _⟩ => ⟨S256x256, .f32⟩
  | .hbm, ⟨69, _⟩ => ⟨S256x256, .f32⟩
  | .hbm, ⟨70, _⟩ => ⟨S256x256, .f32⟩
  | .hbm, ⟨71, _⟩ => ⟨S1x256, .f32⟩
  | .hbm, ⟨72, _⟩ => ⟨S256x256, .f32⟩
  | .hbm, ⟨73, _⟩ => ⟨S256x256, .f32⟩
  | .hbm, ⟨74, _⟩ => ⟨S256x256, .f32⟩
  | .hbm, ⟨75, _⟩ => ⟨S256x256, .f32⟩
  | .hbm, ⟨76, _⟩ => ⟨S_, .f32⟩
  | .hbm, ⟨77, _⟩ => ⟨S256x256, .f32⟩
  | .hbm, ⟨78, _⟩ => ⟨S256x256, .f32⟩
  | .hbm, ⟨79, _⟩ => ⟨S_, .f32⟩
  | .hbm, ⟨80, _⟩ => ⟨S256, .f32⟩
  | .hbm, ⟨81, _⟩ => ⟨S_, .f32⟩
  | .hbm, ⟨82, _⟩ => ⟨S256, .f32⟩
  | .hbm, ⟨83, _⟩ => ⟨S256, .f32⟩
  | .hbm, ⟨84, _⟩ => ⟨S256x1, .f32⟩
  | .hbm, ⟨85, _⟩ => ⟨S256x256, .f32⟩
  | .hbm, ⟨86, _⟩ => ⟨S256x256, .f32⟩
  | .hbm, ⟨87, _⟩ => ⟨S256x256, .f32⟩
  | .hbm, ⟨88, _⟩ => ⟨S_, .f32⟩
  | .hbm, ⟨89, _⟩ => ⟨S256, .f32⟩
  | .hbm, ⟨90, _⟩ => ⟨S256x1, .f32⟩
  | .hbm, ⟨91, _⟩ => ⟨S256x256, .f32⟩
  | .hbm, ⟨92, _⟩ => ⟨S256x256, .f32⟩
  | .hbm, ⟨93, _⟩ => ⟨S256x256, .f32⟩
  | .hbm, ⟨94, _⟩ => ⟨S1x256, .f32⟩
  | .hbm, ⟨95, _⟩ => ⟨S262144x256, .f32⟩
  | .hbm, ⟨96, _⟩ => ⟨S_, .i32⟩
  | .hbm, ⟨97, _⟩ => ⟨S262144, .i32⟩
  | .hbm, ⟨98, _⟩ => ⟨S262144, .i1⟩
  | .hbm, ⟨99, _⟩ => ⟨S_, .i32⟩
  | .hbm, ⟨100, _⟩ => ⟨S262144, .i32⟩
  | .hbm, ⟨101, _⟩ => ⟨S262144, .i32⟩
  | .hbm, ⟨102, _⟩ => ⟨S262144, .i32⟩
  | .hbm, ⟨103, _⟩ => ⟨S262144x1, .i32⟩
  | .hbm, ⟨104, _⟩ => ⟨S262144x256, .f32⟩
  | .hbm, ⟨105, _⟩ => ⟨S262144x256, .f32⟩
  | .hbm, ⟨106, _⟩ => ⟨S_, .i32⟩
  | .hbm, ⟨107, _⟩ => ⟨S262144, .i32⟩
  | .hbm, ⟨108, _⟩ => ⟨S262144, .i1⟩
  | .hbm, ⟨109, _⟩ => ⟨S_, .i32⟩
  | .hbm, ⟨110, _⟩ => ⟨S262144, .i32⟩
  | .hbm, ⟨111, _⟩ => ⟨S262144, .i32⟩
  | .hbm, ⟨112, _⟩ => ⟨S262144, .i32⟩
  | .hbm, ⟨113, _⟩ => ⟨S262144x1, .i32⟩
  | .hbm, ⟨114, _⟩ => ⟨S262144x256, .f32⟩
  | .hbm, ⟨115, _⟩ => ⟨S262144x256, .f32⟩
  | .hbm, ⟨116, _⟩ => ⟨S_, .f32⟩
  | .hbm, ⟨117, _⟩ => ⟨S262144x256, .f32⟩
  | .hbm, ⟨118, _⟩ => ⟨S262144x256, .f32⟩
  | .local _ .vmem, ⟨0, _⟩ => ⟨S4096x256, .f32⟩
  | .local _ .vmem, ⟨1, _⟩ => ⟨S4096x256, .f32⟩
  | .local _ .vmem, ⟨2, _⟩ => ⟨S4096x1, .i32⟩
  | .local _ .vmem, ⟨3, _⟩ => ⟨S4096x1, .i32⟩
  | .local _ .vmem, ⟨4, _⟩ => ⟨S256x256, .f32⟩
  | .local _ .vmem, ⟨5, _⟩ => ⟨S256x1, .f32⟩
  | .local _ .vmem, ⟨6, _⟩ => ⟨S1x256, .f32⟩
  | .local _ .vmem, ⟨7, _⟩ => ⟨S256x256, .f32⟩
  | .local _ .vmem, ⟨8, _⟩ => ⟨S256x1, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S8192x256, .f32⟩
  | .local _ .vmem, ⟨13, _⟩ => ⟨S8192x256, .f32⟩
  | .local _ .vmem, ⟨14, _⟩ => ⟨S256x256, .f32⟩
  | .local _ .vmem, ⟨15, _⟩ => ⟨S256x256, .f32⟩
  | .local _ .vmem, ⟨16, _⟩ => ⟨S8192x256, .f32⟩
  | .local _ .vmem, ⟨17, _⟩ => ⟨S8192x256, .f32⟩
  | .local _ .vmem, ⟨18, _⟩ => ⟨S256x256, .f32⟩
  | .local _ .vmem, ⟨19, _⟩ => ⟨S1x256, .f32⟩
  | .local _ .vmem, ⟨20, _⟩ => ⟨S1x256, .f32⟩
  | .local _ .vmem, ⟨21, _⟩ => ⟨S8192x256, .f32⟩
  | .local _ .vmem, ⟨22, _⟩ => ⟨S8192x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1_0 : Ref sig .tc := ⟨.hbm, 20, rfl⟩
abbrev main_v1_1 : Ref sig .tc := ⟨.hbm, 21, rfl⟩
abbrev main_v1_2 : Ref sig .tc := ⟨.hbm, 22, rfl⟩
abbrev main_cst : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_2 : Ref sig .tc := ⟨.hbm, 38, rfl⟩
abbrev main_v14 : Ref sig .tc := ⟨.hbm, 39, rfl⟩
abbrev main_cst_3 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c : Ref sig .tc := ⟨.hbm, 96, rfl⟩
abbrev main_v65 : Ref sig .tc := ⟨.hbm, 97, rfl⟩
abbrev main_v66 : Ref sig .tc := ⟨.hbm, 98, rfl⟩
abbrev main_c_9 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_10 : Ref sig .tc := ⟨.hbm, 106, rfl⟩
abbrev main_v73 : Ref sig .tc := ⟨.hbm, 107, rfl⟩
abbrev main_v74 : Ref sig .tc := ⟨.hbm, 108, rfl⟩
abbrev main_c_11 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_12 : Ref sig .tc := ⟨.hbm, 116, rfl⟩
abbrev main_v81 : Ref sig .tc := ⟨.hbm, 117, rfl⟩
abbrev main_v82 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8192x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S262144_S262144x1 : S262144.ShapeCasts S262144x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4096x256_S4096x256_0_0 : ∀ a, (![0, 0] : Fin 2 → Nat) a + S4096x256.size a ≤ S4096x256.size a
  h_S4096x256 : 0 < S4096x256.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  shapeCasts_S4096x1_S4096 : S4096x1.ShapeCasts S4096
  shapeCasts_S4096_S4096x1 : S4096.ShapeCasts S4096x1
  iota_S4096x256_d1_w32 : S4096x256.Iotas .tc 32 [1]
  broadcasts_S4096x1_S4096x256 : S4096x1.Broadcasts S4096x256
  natLt_1_32 : 1 < 32
  reduces_S4096x256_S256 : S4096x256.Reduces [0] S256
  shapeCasts_S256_S256x1 : S256.ShapeCasts S256x1
  shapeCasts_S256_S1x256 : S256.ShapeCasts S1x256
  bcast_S_S256x1 : S_.BroadcastsInDim S256x1 (![] : Fin 0 → Fin S256x1.rank)
  bcast_S256x1_S256x256_0_1 : S256x1.BroadcastsInDim S256x256 (![0, 1] : Fin 2 → Fin S256x256.rank)
  bcast_S_S1x256 : S_.BroadcastsInDim S1x256 (![] : Fin 0 → Fin S1x256.rank)
  bcast_S256_S1x256_1 : S256.BroadcastsInDim S1x256 (![1] : Fin 1 → Fin S1x256.rank)
  bcast_S_S8192x256 : S_.BroadcastsInDim S8192x256 (![] : Fin 0 → Fin S8192x256.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S1x256_S8192x256_0_1 : S1x256.BroadcastsInDim S8192x256 (![0, 1] : Fin 2 → Fin S8192x256.rank)
  bitsLt_bf16_f32 : FTy.bits .bf16 < FTy.bits .f32
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  transposes_S8192x256_p1_0_S256x8192 : S8192x256.Transposes [1, 0] S256x8192
  reduces_S256x8192_S256 : S256x8192.Reduces [1] S256
  broadcasts_S256x1_S256x8192 : S256x1.Broadcasts S256x8192
  bcast_S1x256_S256x256_0_1 : S1x256.BroadcastsInDim S256x256 (![0, 1] : Fin 2 → Fin S256x256.rank)
  transposes_S256x256_S256x256_1_0 : S256x256.Transposes [1, 0] S256x256
  bcast_S_S256x256 : S_.BroadcastsInDim S256x256 (![] : Fin 0 → Fin S256x256.rank)
  reducesTo_S256x256_S256_d1 : S256x256.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  broadcasts_S1x256_S8192x256 : S1x256.Broadcasts S8192x256
  bcast_S_S262144 : S_.BroadcastsInDim S262144 (![] : Fin 0 → Fin S262144.rank)
  bcast_S_S262144x256 : S_.BroadcastsInDim S262144x256 (![] : Fin 0 → Fin S262144x256.rank)
  dot_S4096x256_S4096x256_S256x256_0_0_1_1_n_n_wf : DotDims.WF S4096x256 S4096x256 S256x256 [0] [0] [1] [1] [] []
  dot_S1x256_S256x256_S1x256_1_0_0_1_n_n_wf : DotDims.WF S1x256 S256x256 S1x256 [1] [0] [0] [1] [] []
  scatter_S8192x256_S262144x1_S262144x256_1_0_0_1_wf : ScatterDims.WF S8192x256 S262144x1 S262144x256 [1] [0] [0] 1
  scatter_S8192x1_S262144x1_S262144x1_1_0_0_1_wf : ScatterDims.WF S8192x1 S262144x1 S262144x1 [1] [0] [0] 1
  dot_S8192x256_S256x256_S8192x256_1_0_0_1_n_n_wf : DotDims.WF S8192x256 S256x256 S8192x256 [1] [0] [0] [1] [] []
  dot_S256x256_S256x8192_S256x8192_1_0_0_1_n_n_wf : DotDims.WF S256x256 S256x8192 S256x8192 [1] [0] [0] [1] [] []
  dot_S256x8192_S8192x256_S256x256_1_0_0_1_n_n_wf : DotDims.WF S256x8192 S8192x256 S256x256 [1] [0] [0] [1] [] []
  dot_S256x256_S256x256_S256x256_1_0_0_1_n_n_wf : DotDims.WF S256x256 S256x256 S256x256 [1] [0] [0] [1] [] []
  gather_S8192x256_S262144x1_S262144x256_1_0_n_n_0_1_1256_wf : GatherDims.WF S8192x256 S262144x1 S262144x256 [1] [0] [] [0] [] 1 ![1, 256]
  gather_S256x256_S262144x1_S262144x256_1_0_n_n_0_1_1256_wf : GatherDims.WF S256x256 S262144x1 S262144x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .i32 = 32 ∨ (Rect.block (s := S262144x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S8192x256.size a
  hwx1_0 : ∀ i : grid1.Coords, EltTy.bits .f32 = 32 ∨ (Rect.block (s := S8192x256) S256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x256.size a ≤ S8192x256.size a
  hwx1_2 : ∀ i : grid1.Coords, EltTy.bits .f32 = 32 ∨ (Rect.block (s := S8192x256) S8192x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S8192x256.size a
  hwx1_3 : ∀ i : grid1.Coords, EltTy.bits .f32 = 32 ∨ (Rect.block (s := S8192x256) S256x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x256.size a ≤ S262144x256.size a
  hwx2_0 : ∀ i : grid2.Coords, EltTy.bits .f32 = 32 ∨ (Rect.block (s := S262144x256) S8192x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8192x256.size a ≤ S262144x256.size a
  hwx2_4 : ∀ i : grid2.Coords, EltTy.bits .f32 = 32 ∨ (Rect.block (s := S262144x256) S8192x256.size (cc2_transform_4 i) (hinb2_4 i)).WholeWords (EltTy.packing .f32)

variable [Facts₀]

def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def scatter_S8192x1_S262144x1_S262144x1_1_0_0_1 : ScatterDims S8192x1 S262144x1 S262144x1 where
  updateWindowDims := [1]
  insertedWindowDims := [0]
  scatterDimsToOperandDims := [0]
  indexVectorDim := 1
  wf := scatter_S8192x1_S262144x1_S262144x1_1_0_0_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def gather_S256x256_S262144x1_S262144x256_1_0_n_n_0_1_1256 : GatherDims S256x256 S262144x1 S262144x256 where
  offsetDims := [1]
  collapsedSliceDims := [0]
  operandBatchingDims := []
  startIndicesBatchingDims := []
  startIndexMap := [0]
  indexVectorDim := 1
  sliceSizes := ![1, 256]
  wf := gather_S256x256_S262144x1_S262144x256_1_0_n_n_0_1_1256_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S256x256.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S256x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S8192x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S8192x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S8192x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S262144x256 : Shape := ⟨2, ![262144, 256]⟩
abbrev S262144 : Shape := ⟨1, ![262144]⟩
abbrev S256x256 : Shape := ⟨2, ![256, 256]⟩
abbrev S256 : Shape := ⟨1, ![256]⟩
abbrev S1x256 : Shape := ⟨2, ![1, 256]⟩
abbrev S_ : Shape := ⟨0, ![]⟩
abbrev S8192x256 : Shape := ⟨2, ![8192, 256]⟩
abbrev S262144x1 : Shape := ⟨2, ![262144, 1]⟩
abbrev S8192x1 : Shape := ⟨2, ![8192, 1]⟩
abbrev S256x8192 : Shape := ⟨2, ![256, 8192]⟩
abbrev S8192x8192 : Shape := ⟨2, ![8192, 8192]⟩
abbrev S8192 : Shape := ⟨1, ![8192]⟩
abbrev S256x1 : Shape := ⟨2, ![256, 1]⟩

abbrev nBuf : Space → Nat
  | .hbm => 151
  | .vmem => 0
  | .smem => 0
  | _ => 0

abbrev hbmTy0_0 (i : Nat) : BufTy := match i % 128 with
  | 0 => ⟨S262144x256, .f32⟩
  | 1 => ⟨S262144, .i32⟩
  | 2 => ⟨S262144, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S256x256, .f32⟩
  | 18 => ⟨S256, .f32⟩
  | 19 => ⟨S262144x256, .f32⟩
  | 20 => ⟨S1x256, .f32⟩
  | 21 => ⟨S262144x256, .f32⟩
  | 22 => ⟨S262144x256, .f32⟩
  | 23 => ⟨S_, .f32⟩
  | 24 => ⟨S8192x256, .f32⟩
  | 25 => ⟨S262144x1, .i32⟩
  | 26 => ⟨S8192x256, .f32⟩
  | 27 => ⟨S_, .f32⟩
  | 28 => ⟨S262144x1, .f32⟩
  | 29 => ⟨S_, .f32⟩
  | 30 => ⟨S8192x1, .f32⟩
  | 31 => ⟨S262144x1, .i32⟩
  | 32 => ⟨S8192x1, .f32⟩
  | 33 => ⟨S_, .f32⟩
  | 34 => ⟨S8192x1, .f32⟩
  | 35 => ⟨S8192x1, .f32⟩
  | 36 => ⟨S8192x256, .f32⟩
  | 37 => ⟨S8192x256, .f32⟩
  | 38 => ⟨S8192x256, .f32⟩
  | 39 => ⟨S1x256, .f32⟩
  | 40 => ⟨S8192x256, .f32⟩
  | 41 => ⟨S8192x256, .f32⟩
  | 42 => ⟨S8192x256, .f32⟩
  | 43 => ⟨S1x256, .f32⟩
  | 44 => ⟨S8192x256, .f32⟩
  | 45 => ⟨S8192x256, .f32⟩
  | 46 => ⟨S8192x256, .f32⟩
  | 47 => ⟨S1x256, .f32⟩
  | 48 => ⟨S8192x256, .f32⟩
  | 49 => ⟨S8192x256, .f32⟩
  | 50 => ⟨S256x8192, .f32⟩
  | 51 => ⟨S8192x8192, .f32⟩
  | 52 => ⟨S_, .f32⟩
  | 53 => ⟨S8192x8192, .f32⟩
  | 54 => ⟨S8192x8192, .f32⟩
  | 55 => ⟨S_, .f32⟩
  | 56 => ⟨S8192, .f32⟩
  | 57 => ⟨S_, .f32⟩
  | 58 => ⟨S8192, .f32⟩
  | 59 => ⟨S8192, .f32⟩
  | 60 => ⟨S8192x1, .f32⟩
  | 61 => ⟨S8192x8192, .f32⟩
  | 62 => ⟨S8192x8192, .f32⟩
  | 63 => ⟨S8192x8192, .f32⟩
  | 64 => ⟨S_, .f32⟩
  | 65 => ⟨S8192, .f32⟩
  | 66 => ⟨S8192x1, .f32⟩
  | 67 => ⟨S8192x8192, .f32⟩
  | 68 => ⟨S8192x8192, .f32⟩
  | 69 => ⟨S8192x256, .f32⟩
  | 70 => ⟨S_, .f32⟩
  | 71 => ⟨S256x256, .f32⟩
  | 72 => ⟨S262144x1, .i32⟩
  | 73 => ⟨S256x256, .f32⟩
  | 74 => ⟨S_, .f32⟩
  | 75 => ⟨S262144x1, .f32⟩
  | 76 => ⟨S_, .f32⟩
  | 77 => ⟨S256x1, .f32⟩
  | 78 => ⟨S262144x1, .i32⟩
  | 79 => ⟨S256x1, .f32⟩
  | 80 => ⟨S_, .f32⟩
  | 81 => ⟨S256x1, .f32⟩
  | 82 => ⟨S256x1, .f32⟩
  | 83 => ⟨S256x256, .f32⟩
  | 84 => ⟨S256x256, .f32⟩
  | 85 => ⟨S256x256, .f32⟩
  | 86 => ⟨S1x256, .f32⟩
  | 87 => ⟨S256x256, .f32⟩
  | 88 => ⟨S256x256, .f32⟩
  | 89 => ⟨S256x256, .f32⟩
  | 90 => ⟨S1x256, .f32⟩
  | 91 => ⟨S256x256, .f32⟩
  | 92 => ⟨S256x256, .f32⟩
  | 93 => ⟨S256x256, .f32⟩
  | 94 => ⟨S1x256, .f32⟩
  | 95 => ⟨S256x256, .f32⟩
  | 96 => ⟨S256x256, .f32⟩
  | 97 => ⟨S256x256, .f32⟩
  | 98 => ⟨S256x256, .f32⟩
  | 99 => ⟨S_, .f32⟩
  | 100 => ⟨S256x256, .f32⟩
  | 101 => ⟨S256x256, .f32⟩
  | 102 => ⟨S_, .f32⟩
  | 103 => ⟨S256, .f32⟩
  | 104 => ⟨S_, .f32⟩
  | 105 => ⟨S256, .f32⟩
  | 106 => ⟨S256, .f32⟩
  | 107 => ⟨S256x1, .f32⟩
  | 108 => ⟨S256x256, .f32⟩
  | 109 => ⟨S256x256, .f32⟩
  | 110 => ⟨S256x256, .f32⟩
  | 111 => ⟨S_, .f32⟩
  | 112 => ⟨S256, .f32⟩
  | 113 => ⟨S256x1, .f32⟩
  | 114 => ⟨S256x256, .f32⟩
  | 115 => ⟨S256x256, .f32⟩
  | 116 => ⟨S256x256, .f32⟩
  | 117 => ⟨S_, .f32⟩
  | 118 => ⟨S256, .f32⟩
  | 119 => ⟨S1x256, .f32⟩
  | 120 => ⟨S_, .f32⟩
  | 121 => ⟨S1x256, .f32⟩
  | 122 => ⟨S1x256, .f32⟩
  | 123 => ⟨S1x256, .f32⟩
  | 124 => ⟨S1x256, .f32⟩
  | 125 => ⟨S1x256, .f32⟩
  | 126 => ⟨S_, .i32⟩
  | 127 => ⟨S262144, .i32⟩
  | _ => ⟨S262144x256, .f32⟩

abbrev hbmTy0_1 (i : Nat) : BufTy := match i % 128 with
  | 0 => ⟨S262144, .i1⟩
  | 1 => ⟨S_, .i32⟩
  | 2 => ⟨S262144, .i32⟩
  | 3 => ⟨S262144, .i32⟩
  | 4 => ⟨S262144, .i32⟩
  | 5 => ⟨S262144x1, .i32⟩
  | 6 => ⟨S262144x256, .f32⟩
  | 7 => ⟨S262144x256, .f32⟩
  | 8 => ⟨S_, .i32⟩
  | 9 => ⟨S262144, .i32⟩
  | 10 => ⟨S262144, .i1⟩
  | 11 => ⟨S_, .i32⟩
  | 12 => ⟨S262144, .i32⟩
  | 13 => ⟨S262144, .i32⟩
  | 14 => ⟨S262144, .i32⟩
  | 15 => ⟨S262144x1, .i32⟩
  | 16 => ⟨S262144x256, .f32⟩
  | 17 => ⟨S262144x256, .f32⟩
  | 18 => ⟨S262144x256, .f32⟩
  | 19 => ⟨S262144x256, .f32⟩
  | 20 => ⟨S_, .f32⟩
  | 21 => ⟨S262144x256, .f32⟩
  | 22 => ⟨S262144x256, .f32⟩
  | _ => ⟨S262144x256, .f32⟩

abbrev hbmTy (i : Nat) : BufTy := match i / 128 with
  | 0 => hbmTy0_0 i
  | 1 => hbmTy0_1 i
  | _ => ⟨S262144x256, .f32⟩

abbrev bufTy : (tb : Table) → Fin (tcTables nBuf tb) → BufTy
  | .hbm, ⟨i, _⟩ => hbmTy i
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_11 : Ref sig .tc := ⟨.hbm, 99, rfl⟩
abbrev main_v68 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_14 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_15 : Ref sig .tc := ⟨.hbm, 117, rfl⟩
abbrev main_v82 : Ref sig .tc := ⟨.hbm, 118, rfl⟩
abbrev main_v83 : Ref sig .tc := ⟨.hbm, 119, rfl⟩
abbrev main_cst_16 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c : Ref sig .tc := ⟨.hbm, 126, rfl⟩
abbrev main_v89 : Ref sig .tc := ⟨.hbm, 127, rfl⟩
abbrev main_v90 : Ref sig .tc := ⟨.hbm, 128, rfl⟩
abbrev main_c_17 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_18 : Ref sig .tc := ⟨.hbm, 136, rfl⟩
abbrev main_v97 : Ref sig .tc := ⟨.hbm, 137, rfl⟩
abbrev main_v98 : Ref sig .tc := ⟨.hbm, 138, rfl⟩
abbrev main_c_19 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_20 : Ref sig .tc := ⟨.hbm, 148, rfl⟩
abbrev main_v107 : Ref sig .tc := ⟨.hbm, 149, rfl⟩
abbrev main_v108 : Ref sig .tc := ⟨.hbm, 150, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S8192x256 : S_.BroadcastsInDim S8192x256 (![] : Fin 0 → Fin S8192x256.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S1x256_S8192x256_0_1 : S1x256.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S256x256 : S_.BroadcastsInDim S256x256 (![] : Fin 0 → Fin S256x256.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  transposes_S256x256_S256x256_1_0 : S256x256.Transposes [1, 0] S256x256
  reducesTo_S256x256_S256_d1 : S256x256.ReducesTo [1] S256
  bcast_S_S256 : S_.BroadcastsInDim S256 (![] : Fin 0 → Fin S256.rank)
  bcast_S256_S256x1_0 : S256.BroadcastsInDim S256x1 (![0] : Fin 1 → Fin S256x1.rank)
  reducesTo_S262144x256_S256_d0 : S262144x256.ReducesTo [0] S256
  bcast_S_S1x256 : S_.BroadcastsInDim S1x256 (![] : Fin 0 → Fin S1x256.rank)
  bcast_S_S262144 : S_.BroadcastsInDim S262144 (![] : Fin 0 → Fin S262144.rank)
  bcast_S_S262144x256 : S_.BroadcastsInDim S262144x256 (![] : Fin 0 → Fin S262144x256.rank)
  dot_S262144x256_S256x256_S262144x256_1_0_0_1_n_n_wf : DotDims.WF S262144x256 S256x256 S262144x256 [1] [0] [0] [1] [] []
  scatter_S8192x256_S262144x1_S262144x256_1_0_0_1_wf : ScatterDims.WF S8192x256 S262144x1 S262144x256 [1] [0] [0] 1
  scatter_S8192x1_S262144x1_S262144x1_1_0_0_1_wf : ScatterDims.WF S8192x1 S262144x1 S262144x1 [1] [0] [0] 1
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  scatter_S256x256_S262144x1_S262144x256_1_0_0_1_wf : ScatterDims.WF S256x256 S262144x1 S262144x256 [1] [0] [0] 1
  scatter_S256x1_S262144x1_S262144x1_1_0_0_1_wf : ScatterDims.WF S256x1 S262144x1 S262144x1 [1] [0] [0] 1
  dot_S256x256_S256x256_S256x256_1_0_0_1_n_n_wf : DotDims.WF S256x256 S256x256 S256x256 [1] [0] [0] [1] [] []
  dot_S1x256_S256x256_S1x256_1_0_0_1_n_n_wf : DotDims.WF S1x256 S256x256 S1x256 [1] [0] [0] [1] [] []
  gather_S8192x256_S262144x1_S262144x256_1_0_n_n_0_1_1256_wf : GatherDims.WF S8192x256 S262144x1 S262144x256 [1] [0] [] [0] [] 1 ![1, 256]
  gather_S256x256_S262144x1_S262144x256_1_0_n_n_0_1_1256_wf : GatherDims.WF S256x256 S262144x1 S262144x256 [1] [0] [] [0] [] 1 ![1, 256]

variable [Facts₀]

def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def scatter_S8192x1_S262144x1_S262144x1_1_0_0_1 : ScatterDims S8192x1 S262144x1 S262144x1 where
  updateWindowDims := [1]
  insertedWindowDims := [0]
  scatterDimsToOperandDims := [0]
  indexVectorDim := 1
  wf := scatter_S8192x1_S262144x1_S262144x1_1_0_0_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def scatter_S256x256_S262144x1_S262144x256_1_0_0_1 : ScatterDims S256x256 S262144x1 S262144x256 where
  updateWindowDims := [1]
  insertedWindowDims := [0]
  scatterDimsToOperandDims := [0]
  indexVectorDim := 1
  wf := scatter_S256x256_S262144x1_S262144x256_1_0_0_1_wf
def scatter_S256x1_S262144x1_S262144x1_1_0_0_1 : ScatterDims S256x1 S262144x1 S262144x1 where
  updateWindowDims := [1]
  insertedWindowDims := [0]
  scatterDimsToOperandDims := [0]
  indexVectorDim := 1
  wf := scatter_S256x1_S262144x1_S262144x1_1_0_0_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def gather_S256x256_S262144x1_S262144x256_1_0_n_n_0_1_1256 : GatherDims S256x256 S262144x1 S262144x256 where
  offsetDims := [1]
  collapsedSliceDims := [0]
  operandBatchingDims := []
  startIndicesBatchingDims := []
  startIndexMap := [0]
  indexVectorDim := 1
  sliceSizes := ![1, 256]
  wf := gather_S256x256_S262144x1_S262144x256_1_0_n_n_0_1_1256_wf

class Facts : Prop extends Facts₀ where

variable [Facts]
-- ==== Proof.K.Frame0.lean ====
/-
  The first pallas_call (the statistics pass over the values), at any float instance. Its grid has 64 points; point t
  reads rows 4096 t … 4096 t + 4095 of the values and of the row indices. Three scratch buffers are carried from
  point to point: the per-camera sums (256 × 256), the per-camera counts (256 × 1) and the column sums (1 × 256).
  At point 0 they are first reset to zero; at every point the tile's contribution is added, and the three output
  windows are overwritten with the scratch contents.
-/
import proofs.«427711_j70531952934916_2_alg».proof.Proof.Gen.Kernel.Launch
import proofs.«427711_j70531952934916_2_alg».proof.Proof.Gen.Kernel.Skeleton
import proofs.«427711_j70531952934916_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A whole-shape store, LAST, read back through the view leaves its payload. -/
theorem read_store_unit {κ : Kind} {sp : Space} {S : Shape} {e : EltTy} (v : View sig κ sp S e) {off : Fin S.rank → Nat} (hz : off = fun _ => 0)
    (inb : ∀ a, off a + S.size a ≤ S.size a) (f : v.ty.Contents (Elt F)) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., View.mem_set_unit_zero hz inb y⟩), View.canon_cons_unit_zero hz]

/-- A whole-shape load after a whole-shape store reads the store's payload. -/
theorem readCov_unit {κ : Kind} {sp : Space} {S : Shape} {e : EltTy} (v : View sig κ sp S e) {off : Fin S.rank → Nat} (hz : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self .., View.mem_set_unit_zero hz inb y⟩), View.canon_cons_unit_zero hz, View.ld_unit_zero hz]

/-- A whole-shape load of a whole memref at named contents reads them. -/
theorem readAt_unit {sp : Space} {S : Shape} {e : EltTy} (m : Memref sig .tc sp S e) (h : m.IsWhole) {off : Fin S.rank → Nat} (hz : off = fun _ => 0)
    (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-- The condition of the body's branch on the grid coordinate: the coordinate is zero. -/
abbrev cond0 (i : grid0.Coords) : Prop :=
  (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

set_option maxHeartbeats 4000000 in
/-- The body at a point that is not the first, on any whole buffers: the inputs at x0 and x1, the carried buffers at s0,
    s1, s2, the output windows' buffers at anything. The branch is not taken; the body ends with each carried buffer at
    one update of what it held, each output buffer at the same contents, and the inputs as they were. -/
theorem run_later (c : Dev nD) (i : grid0.Coords) (hc : ¬cond0 i)
    (arg1 : Memref sig .tc .vmem S4096x256 .f32) (harg1 : arg1.IsWhole) (arg2 : Memref sig .tc .vmem S4096x1 .i32) (harg2 : arg2.IsWhole)
    (arg3 : Memref sig .tc .vmem S256x256 .f32) (harg3 : arg3.IsWhole) (arg4 : Memref sig .tc .vmem S256x1 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S256x1 .f32) (harg7 : arg7.IsWhole) (arg8 : Memref sig .tc .vmem S1x256 .f32) (harg8 : arg8.IsWhole)
    (x0 : Vec F S4096x256 .f32) (x1 : Vec F S4096x1 .i32)
    (s0 : Vec F S256x256 .f32) (s1 : Vec F S256x1 .f32) (s2 : Vec F S1x256 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare s0 ∗ owns (c : Thread nD τ) arg7 fullShare s1 ∗ owns (c : Thread nD τ) arg8 fullShare s2
        ∗ (iprop(owns (c : Thread nD τ) arg1 fullShare x0 ∗ owns (c : Thread nD τ) arg2 fullShare x1
            ∗ owns (c : Thread nD τ) arg3 fullShare (k0_pay5 x0 x1 s0) ∗ owns (c : Thread nD τ) arg4 fullShare (k0_pay6 x1 s1) ∗ owns (c : Thread nD τ) arg5 fullShare (k0_pay7 x0 s2)
            ∗ owns (c : Thread nD τ) arg6 fullShare (k0_pay5 x0 x1 s0) ∗ owns (c : Thread nD τ) arg7 fullShare (k0_pay6 x1 s1) ∗ owns (c : Thread nD τ) arg8 fullShare (k0_pay7 x0 s2)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]; unfold k0_part1_skel
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, ⟨%f8, %hf8, H8⟩, Hk⟩
  obtain rfl := harg1.eq_unread hf1; obtain rfl := harg2.eq_unread hf2
  obtain rfl := harg6.eq_unread hf6; obtain rfl := harg7.eq_unread hf7; obtain rfl := harg8.eq_unread hf8
  sl_exec (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  isplitl [H4]
  · iexists _; isplitr
    swap; · iexact H4
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  isplitl [H5]
  · iexists _; isplitr
    swap; · iexact H5
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  isplitl [H6]
  · iexists _; isplitr
    swap; · iexact H6
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  isplitl [H7]
  · iexists _; isplitr
    swap; · iexact H7
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  iexists _; isplitr
  swap; · iexact H8
  ipureintro; sl_unfold_words
  simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]

set_option maxHeartbeats 4000000 in
/-- The body at the first point, the carried buffers at anything: it first resets them to the zero values, then adds the
    tile, and ends with each carried buffer at one update of the zero values and each output buffer at the same. -/
theorem run_first (c : Dev nD) (i : grid0.Coords) (hc : cond0 i)
    (arg1 : Memref sig .tc .vmem S4096x256 .f32) (harg1 : arg1.IsWhole) (arg2 : Memref sig .tc .vmem S4096x1 .i32) (harg2 : arg2.IsWhole)
    (arg3 : Memref sig .tc .vmem S256x256 .f32) (harg3 : arg3.IsWhole) (arg4 : Memref sig .tc .vmem S256x1 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S256x1 .f32) (harg7 : arg7.IsWhole) (arg8 : Memref sig .tc .vmem S1x256 .f32) (harg8 : arg8.IsWhole)
    (x0 : Vec F S4096x256 .f32) (x1 : Vec F S4096x1 .i32)

    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare (k0_pay5 x0 x1 k0_pay1) ∗ owns (c : Thread nD τ) arg4 fullShare (k0_pay6 x1 k0_pay2) ∗ owns (c : Thread nD τ) arg5 fullShare (k0_pay7 x0 k0_pay3)
            ∗ owns (c : Thread nD τ) arg6 fullShare (k0_pay5 x0 x1 k0_pay1) ∗ owns (c : Thread nD τ) arg7 fullShare (k0_pay6 x1 k0_pay2) ∗ owns (c : Thread nD τ) arg8 fullShare (k0_pay7 x0 k0_pay3)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]; unfold k0_part1_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread hf1; obtain rfl := harg2.eq_unread hf2
  sl_exec (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  isplitl [H4]
  · iexists _; isplitr
    swap; · iexact H4
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  isplitl [H5]
  · iexists _; isplitr
    swap; · iexact H5
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  isplitl [H6]
  · iexists _; isplitr
    swap; · iexact H6
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  isplitl [H7]
  · iexists _; isplitr
    swap; · iexact H7
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  iexists _; isplitr
  swap; · iexact H8
  ipureintro; sl_unfold_words
  simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of the three carried buffers from the tile of values x0 and the tile of row indices x1. -/
def step0 (x0 : Vec F S4096x256 .f32) (x1 : Vec F S4096x1 .i32)
    (s : Vec F S256x256 .f32 × Vec F S256x1 .f32 × Vec F S1x256 .f32) :
    Vec F S256x256 .f32 × Vec F S256x1 .f32 × Vec F S1x256 .f32 :=
  (k0_pay5 x0 x1 s.1, k0_pay6 x1 s.2.1, k0_pay7 x0 s.2.2)

/-- The three carried buffers after the first n points: the reset values, then one update per point. -/
def acc0 (c : Dev nD) : ℕ → Vec F S256x256 .f32 × Vec F S256x1 .f32 × Vec F S1x256 .f32
  | 0 => (k0_pay1, k0_pay2, k0_pay3)
  | n + 1 => if h : n < cfg0.N then step0 (iblk0 V c 0 ⟨n, h⟩) (iblk0 V c 1 ⟨n, h⟩) (acc0 c n) else acc0 c n

theorem acc0_zero (c : Dev nD) : acc0 V c 0 = (k0_pay1, k0_pay2, k0_pay3) := rfl
theorem acc0_succ (c : Dev nD) (t : Fin cfg0.N) :
    acc0 V c (t.val + 1) = step0 (iblk0 V c 0 t) (iblk0 V c 1 t) (acc0 V c t.val) := by
  show (if h : t.val < cfg0.N then _ else _) = _
  rw [dif_pos t.isLt]

/-- The region invariant before point n: before the first point the scoped rest at anything; afterwards the three
    carried buffers at their contents after n points, the other scoped buffers at anything, and the generator
    register at some state. -/
def Phi0 (c : Dev nD) : ℕ → sProp 𝕄
  | 0 => Pipeline.ΦA spec0 c
  | n + 1 => iprop((owns (c : Thread nD τ) (Memref.whole cc0_scratch0) fullShare (acc0 V c (n + 1)).1
        ∗ owns (c : Thread nD τ) (Memref.whole cc0_scratch1) fullShare (acc0 V c (n + 1)).2.1
        ∗ owns (c : Thread nD τ) (Memref.whole cc0_scratch2) fullShare (acc0 V c (n + 1)).2.2)
      ∗ Pipeline.scopedRestBut (Ix := Unit) (Name := ℕ) (U := UR sig nD τ) (Lvl := ℕ) (Val := Elt F) spec0 c [cc0_scratch0, cc0_scratch1, cc0_scratch2]
      ∗ ∃ r, prngReg c r)

/-- The proof data of the statistics call on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c (t.val + 1)).1
    | ⟨3, _⟩ => (acc0 V c (t.val + 1)).2.1
    | ⟨4, _⟩ => (acc0 V c (t.val + 1)).2.2
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c (t.val + 1)).1 := by dsimp only [dat0]
theorem after0_3 (c : Dev nD) (t : Fin cfg0.N) : (dat0 V c).after 3 t = (acc0 V c (t.val + 1)).2.1 := by dsimp only [dat0]
theorem after0_4 (c : Dev nD) (t : Fin cfg0.N) : (dat0 V c).after 4 t = (acc0 V c (t.val + 1)).2.2 := by dsimp only [dat0]

/-- Before the first point the invariant is the class's. -/
theorem Phi0_first (c : Dev nD) : (dat0 V c).Φ 0 = Pipeline.ΦA spec0 c := rfl

/-- Each input's current staging buffer holds its block at every point (both are fetched at every point; the
    windows are uncut and never idle). -/
theorem before0_0 (c : Dev nD) (t : Fin cfg0.N) (d) : (dat0 V c).before 0 t d = iblk0 V c 0 t := by
  rw [(dat0 V c).before_fetched 0 t (fetch0_0 t) d]
  unfold Dat.fetched Dat.blockOf iblk0
  rw [A_eq0]
  rfl
theorem before0_1 (c : Dev nD) (t : Fin cfg0.N) (d) : (dat0 V c).before 1 t d = iblk0 V c 1 t := by
  rw [(dat0 V c).before_fetched 1 t (fetch0_1 t) d]
  unfold Dat.fetched Dat.blockOf iblk0
  rw [A_eq0]
  rfl

/-- The scoped rest split at the three carried buffers, each whole at some contents; the remainder unopened. -/
theorem scopedRest0_split (c : Dev nD) :
    (Pipeline.scopedRest (Ix := Unit) (Name := ℕ) (U := UR sig nD τ) (Lvl := ℕ) (Val := Elt F) spec0 c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f))
          ∗ Pipeline.scopedRestBut (Ix := Unit) (Name := ℕ) (U := UR sig nD τ) (Lvl := ℕ) (Val := Elt F) spec0 c [cc0_scratch0, cc0_scratch1, cc0_scratch2]) :=
  Pipeline.scopedRest_split_of_list spec0 c [cc0_scratch0, cc0_scratch1, cc0_scratch2] (by decide) (by decide)

/-- The class's invariant with the three carried buffers taken out of the scoped rest, each at some contents. -/
theorem PhiA0_open (c : Dev nD) :
    (Pipeline.ΦA spec0 c : sProp 𝕄) ⊢ iprop(((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d))
      ∗ Pipeline.scopedRestBut (Ix := Unit) (Name := ℕ) (U := UR sig nD τ) (Lvl := ℕ) (Val := Elt F) spec0 c [cc0_scratch0, cc0_scratch1, cc0_scratch2]
      ∗ ∃ r, prngReg c r) := by
  unfold Pipeline.ΦA
  rw [scopedRest0_split]
  simp only [owns_whole]
  iintro ⟨⟨⟨H0, H1, H2⟩, HR⟩, Hg⟩
  isplitl [H0 H1 H2]
  · isplitl [H0]; · iexact H0
    isplitl [H1]; · iexact H1
    iexact H2
  isplitl [HR]; · iexact HR
  iexact Hg

/-- And put back. -/
theorem PhiA0_close (c : Dev nD) :
    iprop(((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d))
      ∗ Pipeline.scopedRestBut (Ix := Unit) (Name := ℕ) (U := UR sig nD τ) (Lvl := ℕ) (Val := Elt F) spec0 c [cc0_scratch0, cc0_scratch1, cc0_scratch2]
      ∗ ∃ r, prngReg c r) ⊢ (Pipeline.ΦA spec0 c : sProp 𝕄) := by
  unfold Pipeline.ΦA
  rw [scopedRest0_split]
  simp only [owns_whole]
  iintro ⟨⟨H0, H1, H2⟩, HR, Hg⟩
  isplitr [Hg]
  · isplitr [HR]
    · isplitl [H0]; · iexact H0
      isplitl [H1]; · iexact H1
      iexact H2
    iexact HR
  iexact Hg

/-- After a point: the carried buffers at that point's contents. -/
theorem Phi0_succ (c : Dev nD) (n : ℕ) :
    Phi0 V c (n + 1) = iprop((owns (c : Thread nD τ) (Memref.whole cc0_scratch0) fullShare (acc0 V c (n + 1)).1
        ∗ owns (c : Thread nD τ) (Memref.whole cc0_scratch1) fullShare (acc0 V c (n + 1)).2.1
        ∗ owns (c : Thread nD τ) (Memref.whole cc0_scratch2) fullShare (acc0 V c (n + 1)).2.2)
      ∗ Pipeline.scopedRestBut (Ix := Unit) (Name := ℕ) (U := UR sig nD τ) (Lvl := ℕ) (Val := Elt F) spec0 c [cc0_scratch0, cc0_scratch1, cc0_scratch2]
      ∗ ∃ r, prngReg c r) := rfl

/-- Before a point that is not the first: the carried buffers at what the point before left. -/
theorem Phi0_pos (c : Dev nD) (n : ℕ) (hn : n ≠ 0) :
    Phi0 V c n = iprop((owns (c : Thread nD τ) (Memref.whole cc0_scratch0) fullShare (acc0 V c n).1
        ∗ owns (c : Thread nD τ) (Memref.whole cc0_scratch1) fullShare (acc0 V c n).2.1
        ∗ owns (c : Thread nD τ) (Memref.whole cc0_scratch2) fullShare (acc0 V c n).2.2)
      ∗ Pipeline.scopedRestBut (Ix := Unit) (Name := ℕ) (U := UR sig nD τ) (Lvl := ℕ) (Val := Elt F) spec0 c [cc0_scratch0, cc0_scratch1, cc0_scratch2]
      ∗ ∃ r, prngReg c r) := by
  cases n with
  | zero => exact absurd rfl hn
  | succ n => rfl

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
/-- The body at any point. The inputs' buffers hold their blocks. At the first point the invariant is the class's: the
    carried buffers at anything, and the body resets them before it adds the tile; at a later point they hold what the
    point before left, and the branch is not taken. Either way they end at one update of what they held after the reset
    or the point before, and the output windows' buffers at the same. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [after0_0, after0_1, after0_2, after0_3, after0_4]
  rw [show (dat0 V c).Φ t.succ = Phi0 V c (t.val + 1) from rfl, show (dat0 V c).Φ t.castSucc = Phi0 V c t.val from rfl]
  rw [Phi0_succ, acc0_succ V c t]
  dsimp only [step0]
  by_cases hz : t.val = 0
  · rw [show Phi0 V c t.val = Pipeline.ΦA spec0 c from by rw [hz]; rfl,
      show acc0 V c t.val = (k0_pay1, k0_pay2, k0_pay3) from by rw [hz]; rfl]
    dsimp only
    iintro ⟨HΦ, Ho, ⟨%d0, H0⟩, ⟨%d1, H1⟩, ⟨%d2, H2⟩, ⟨%d3, H3⟩, ⟨%d4, H4⟩⟩
    icases (PhiA0_open c) $$ HΦ with ⟨⟨HS0, HS1, HS2⟩, HR, Hg⟩
    iapply (run_first c (grid0.coords t) ((hcond0 t).mpr hz) _ _ _ _ _ _ _ _ _ _ _ _ _ _ _ _ (iblk0 V c 0 t) (iblk0 V c 1 t) Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 HR Hg]
    · isplitl [HS0 HS1 HS2]
      · isplitl [HS0]; · iexact HS0
        isplitl [HS1]; · iexact HS1
        iexact HS2
      isplitl [HR]; · iexact HR
      iexact Hg
    isplitl [Ho]; · iexact Ho
    isplitl [H0]; · iexact H0
    isplitl [H1]; · iexact H1
    isplitl [H2]; · iexact H2
    isplitl [H3]; · iexact H3
    iexact H4
  · rw [Phi0_pos V c t.val hz]
    iintro ⟨⟨⟨HS0, HS1, HS2⟩, HR, Hg⟩, Ho, ⟨%d0, H0⟩, ⟨%d1, H1⟩, ⟨%d2, H2⟩, ⟨%d3, H3⟩, ⟨%d4, H4⟩⟩
    iapply (run_later c (grid0.coords t) (fun h => hz ((hcond0 t).mp h)) _ _ _ _ _ _ _ _ _ _ _ _ _ _ _ _ (iblk0 V c 0 t) (iblk0 V c 1 t)
      (acc0 V c t.val).1 (acc0 V c t.val).2.1 (acc0 V c t.val).2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 HR Hg]
    · isplitl [HS0 HS1 HS2]
      · isplitl [HS0]; · iexact HS0
        isplitl [HS1]; · iexact HS1
        iexact HS2
      isplitl [HR]; · iexact HR
      iexact Hg
    isplitl [Ho]; · iexact Ho
    isplitl [H0]; · iexact H0
    isplitl [H1]; · iexact H1
    isplitl [H2]; · iexact H2
    isplitl [H3]; · iexact H3
    iexact H4

/-- After the last point the invariant gives the scoped rest and the generator register back. -/
theorem Phi0_last (c : Dev nD) : (dat0 V c).Φ (Fin.last _) ⊢ Pipeline.ΦA (U := UR sig nD τ) (Val := Elt F) spec0 c := by
  have hN : (Fin.last cfg0.N).val = 63 + 1 := by rw [Fin.val_last]; exact N_0
  rw [show (dat0 V c).Φ (Fin.last cfg0.N) = Phi0 V c (Fin.last cfg0.N).val from rfl, hN, Phi0_succ]
  refine BIBase.Entails.trans ?_ (PhiA0_close c)
  iintro ⟨⟨H0, H1, H2⟩, HR, Hg⟩
  isplitl [H0 H1 H2]
  · isplitl [H0]; · iexists _; iexact H0
    isplitl [H1]; · iexists _; iexact H1
    iexists _; iexact H2
  isplitl [HR]; · iexact HR
  iexact Hg

/-- The body obligation of the statistics call, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Frame1.lean ====
/-
  The second pallas_call (dense attention over the 8192 point means), at any float instance: what each window's
  staging buffer holds after the body at a grid point, and that the body does what this says. The grid has 32
  points; point t reads rows 256 t … 256 t + 255 of the queries, all keys and all values, and writes the same
  rows of the result.
-/
import proofs.«427711_j70531952934916_2_alg».proof.Proof.Gen.Kernel.Launch
import proofs.«427711_j70531952934916_2_alg».proof.Proof.Gen.Kernel.Skeleton
import proofs.«427711_j70531952934916_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched,
    its block index has not moved), for any proof data over the arrays V whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched,
    its block index has not moved), for any proof data over the arrays V whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched,
    its block index has not moved), for any proof data over the arrays V whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 256 × 256 buffer as one rectangle. -/
abbrev rq : Rect S256x256 := Rect.unit (s := S256x256) ![0, 0] S256x256.size inb_S256x256_S256x256_0_0
/-- The whole 8192 × 256 buffer as one rectangle. -/
abbrev rk : Rect S8192x256 := Rect.unit (s := S8192x256) ![0, 0] S8192x256.size inb_S8192x256_S8192x256_0_0

/-- The result window's staging buffer after the body: one whole-buffer store of the attention payload of the
    three input blocks. -/
def out1_3 (x0 : Vec F S256x256 .f32) (x1 x2 : Vec F S8192x256 .f32) : Vec F S256x256 .f32 :=
  View.canon [⟨rq, k1_pay1 (View.ld x0 rq) (View.ld x1 rk) (View.ld x2 rk)⟩]

/-- The one store is over the whole buffer, so it covers it. -/
theorem cover1_3 (p0 : Vec F S256x256 .f32) (y : S256x256.Idx) :
    ∃ pc ∈ ([⟨rq, p0⟩] : List (View.Piece (Elt F) S256x256 .f32)), y ∈ pc.1.set :=
  View.cover_of_tiled [⟨rq, p0⟩] S256x256.size (by rfl) y

set_option maxHeartbeats 1000000 in
/-- The attention kernel on whole staging buffers, the three inputs' at read contents and the result's at anything,
    runs to the continuation holding the inputs' as they were and the result's at out1_3 of the inputs'. -/
theorem sound_kernel1 (c : Dev nD) (E : Set ℕ) (i : grid1.Coords)
    (arg0 : Memref sig .tc .vmem S256x256 .f32) (harg0 : arg0.IsWhole)
    (arg1 : Memref sig .tc .vmem S8192x256 .f32) (harg1 : arg1.IsWhole)
    (arg2 : Memref sig .tc .vmem S8192x256 .f32) (harg2 : arg2.IsWhole)
    (arg3 : Memref sig .tc .vmem S256x256 .f32) (harg3 : arg3.IsWhole)
    (x0 : Vec F S256x256 .f32) (x1 x2 : Vec F S8192x256 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the attention call on core c: arrays as the region finds them; inputs stay at their blocks,
    the output block is the payload of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the kernel's triple applies; the invariant and
    the core's owed tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the attention call, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Frame2.lean ====
/-
  The third pallas_call (values times a weight matrix, plus two bias rows), at any float instance: what each
  window's staging buffer holds after the body at a grid point, and that the body does what this says. The grid
  has 32 points; point t reads rows 8192 t … 8192 t + 8191 of the values and writes the same rows of the result.
-/
import proofs.«427711_j70531952934916_2_alg».proof.Proof.Gen.Kernel.Launch
import proofs.«427711_j70531952934916_2_alg».proof.Proof.Gen.Kernel.Skeleton
import proofs.«427711_j70531952934916_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched,
    its block index has not moved), for any proof data over the arrays V whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched,
    its block index has not moved), for any proof data over the arrays V whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched,
    its block index has not moved), for any proof data over the arrays V whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched,
    its block index has not moved), for any proof data over the arrays V whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole 8192 × 256 buffer as one rectangle. -/
abbrev rv : Rect S8192x256 := Rect.unit (s := S8192x256) ![0, 0] S8192x256.size inb_S8192x256_S8192x256_0_0
/-- The whole 256 × 256 buffer as one rectangle. -/
abbrev rw2 : Rect S256x256 := Rect.unit (s := S256x256) ![0, 0] S256x256.size inb_S256x256_S256x256_0_0
/-- The whole 1 × 256 buffer as one rectangle. -/
abbrev rb : Rect S1x256 := Rect.unit (s := S1x256) ![0, 0] S1x256.size inb_S1x256_S1x256_0_0

/-- The result window's staging buffer after the body: one whole-buffer store of the payload of the four input
    blocks. -/
def out2_4 (x0 : Vec F S8192x256 .f32) (x1 : Vec F S256x256 .f32) (x2 x3 : Vec F S1x256 .f32) : Vec F S8192x256 .f32 :=
  View.canon [⟨rv, k2_pay1 (View.ld x0 rv) (View.ld x1 rw2) (View.ld x2 rb) (View.ld x3 rb)⟩]

/-- The one store is over the whole buffer, so it covers it. -/
theorem cover2_4 (p0 : Vec F S8192x256 .f32) (y : S8192x256.Idx) :
    ∃ pc ∈ ([⟨rv, p0⟩] : List (View.Piece (Elt F) S8192x256 .f32)), y ∈ pc.1.set :=
  View.cover_of_tiled [⟨rv, p0⟩] S8192x256.size (by rfl) y

set_option maxHeartbeats 1000000 in
/-- The combine kernel on whole staging buffers, the four inputs' at read contents and the result's at anything,
    runs to the continuation holding the inputs' as they were and the result's at out2_4 of the inputs'. -/
theorem sound_kernel2 (c : Dev nD) (E : Set ℕ) (i : grid2.Coords)
    (arg0 : Memref sig .tc .vmem S8192x256 .f32) (harg0 : arg0.IsWhole)
    (arg1 : Memref sig .tc .vmem S256x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S8192x256 .f32) (harg4 : arg4.IsWhole)
    (x0 : Vec F S8192x256 .f32) (x1 : Vec F S256x256 .f32) (x2 x3 : Vec F S1x256 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out2_4 x0 x1 x2 x3)) -∗ K ⟨⟩))
      ⊢ wp frame (wpE (defs₀ (F := F)) Variants.none c none) E (cc2__combine_kernel i arg0 harg0 arg1 harg1 arg2 harg2 arg3 harg3 arg4 harg4) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of the third call on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the kernel's triple applies; the invariant and
    the core's owed tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the third call, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The whole program as a run, at any float instance: the contents of every unscoped buffer at each boundary between
  the items of the main function (a stretch of host operations, or one of the three pallas_calls), the three calls
  as segments over those contents, and the launch: every weakly fair execution ends, and at the end every unscoped
  buffer holds the last boundary's contents.
-/
import proofs.«427711_j70531952934916_2_alg».proof.Proof.Gen.Kernel.Launch
import proofs.«427711_j70531952934916_2_alg».proof.Proof.Gen.Kernel.Skeleton
import proofs.«427711_j70531952934916_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«427711_j70531952934916_2_alg».proof.Proof.Gen.Kernel.Regions
import proofs.«427711_j70531952934916_2_alg».proof.Proof.K.Frame0
import proofs.«427711_j70531952934916_2_alg».proof.Proof.K.Frame1
import proofs.«427711_j70531952934916_2_alg».proof.Proof.K.Frame2
import Idealize.ShloMosaic.Lib.Pipeline.Regions
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m ((c : Dev nD), b)
/-- After the first host stretch (the first call's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (the second call's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b

/-- At region 1's exit: its arrays at what the pipeline leaves, every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the third host stretch (the third call's entry). -/
abbrev W5 : Dev nD → Valuation τ sig (Elt F) := fun c => StableHlo.after hostOps2 (W4 m c)
abbrev E5 : (c : Dev nD) → (b : Ref sig .tc) → Buf (Elt F) ((c : Thread nD τ).loc b) := fun c b => W5 m c b

/-- At region 2's exit: its arrays at what the pipeline leaves, every other buffer as entered. -/
def W6 (c : Dev nD) : Valuation τ sig (Elt F) :=
  Pipeline.withArrays spec2 c (W5 m c) fun w => (dat2 (E5 m) c).arrAt w cfg2.N
theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev E6 : (c : Dev nD) → (b : Ref sig .tc) → Buf (Elt F) ((c : Thread nD τ).loc b) := fun c b => W6 m c b
theorem hF2 (c : Dev nD) (w : Fin cfg2.W) : (dat2 (E5 m) c).arrAt w cfg2.N = E6 m c (Pipeline.arrRef spec2 w) :=
  (W6_arr m c w).symm
theorem hrest2 (c : Dev nD) : ∀ b, b ∉ Finset.univ.image (Pipeline.arrRef spec2) → E6 m c b = E5 m c b :=
  fun b hb => W6_of_ne m c b fun w e => hb (Finset.mem_image.mpr ⟨w, Finset.mem_univ _, e⟩)

/-- After the last host stretch: the end. -/
abbrev W7 : Dev nD → Valuation τ sig (Elt F) := fun c => StableHlo.after hostOps3 (W6 m c)

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱₀ : Variants := Variants.none
abbrev L : GSem nD τ sig → Finset Unit := fun _ => ∅
abbrev lv : GSem nD τ sig → Unit → ℕ := fun _ _ => 0
/-- What rides beside the buffers through every item: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the owing part. -/
abbrev Tₙ (c : Dev nD) : sProp 𝕄 := iprop(StableHlo.held (c : Thread nD τ) (Pipeline.ucRefs τ sig) (W7 m c) ∗ ∃ r, prngReg c r)

/-! ## The calls as segments -/

set_option backward.isDefEq.respectTransparency.types false in
/-- Region 0 over the thread state: entered with every unscoped buffer at the contents before it, left with them at
    the contents after it; its arrays are split out of the unscoped buffers at entry and put back at exit; the
    generator register goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]; refine (Phi0_last (E1 m) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it; its arrays are split out of the unscoped buffers at entry and put back at exit; the
    generator register goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at
    the contents after it; its arrays are split out of the unscoped buffers at entry and put back at exit; the
    generator register goes into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

variable (ρ : Dev nD → PrngReg)

set_option backward.isDefEq.respectTransparency.types false in
/-- THE RUN: from any memory with zero counters every weakly fair execution of the main function ends, nothing
    faulting, and at the end every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.Kernel.Hand

end
-- ==== Proof.K.Keep.lean ====
/-
  Which buffers each item of the main function leaves alone: a stretch of host operations changes only the buffers
  its operations write; a pallas_call changes only its output windows' arrays (an input window's array comes back
  as it was found). Hence every argument array holds its launch contents at the end.
-/
import proofs.«427711_j70531952934916_2_alg».proof.Proof.Gen.Kernel.Launch
import proofs.«427711_j70531952934916_2_alg».proof.Proof.Gen.Kernel.Skeleton
import proofs.«427711_j70531952934916_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«427711_j70531952934916_2_alg».proof.Proof.K.Run
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W1_keep (c : Dev nD) (b : Ref sig .tc) (h : b ∉ hostOps0_W) : W1 m c b = W0 m c b :=
  StableHlo.after_of_writes_sub hostOps0 _ hostOps0_writes h
theorem W3_keep (c : Dev nD) (b : Ref sig .tc) (h : b ∉ hostOps1_W) : W3 m c b = W2 m c b :=
  StableHlo.after_of_writes_sub hostOps1 _ hostOps1_writes h
theorem W5_keep (c : Dev nD) (b : Ref sig .tc) (h : b ∉ hostOps2_W) : W5 m c b = W4 m c b :=
  StableHlo.after_of_writes_sub hostOps2 _ hostOps2_writes h
theorem W7_keep (c : Dev nD) (b : Ref sig .tc) (h : b ∉ hostOps3_W) : W7 m c b = W6 m c b :=
  StableHlo.after_of_writes_sub hostOps3 _ hostOps3_writes h

/-- The first call changes only its three result arrays. -/
theorem W2_keep (c : Dev nD) (b : Ref sig .tc) (hb : b ∉ ([main_v1_0, main_v1_1, main_v1_2] : List (Ref sig .tc))) :
    W2 m c b = W1 m c b := by
  by_cases h : ∃ w, Pipeline.arrRef spec0 w = b
  · obtain ⟨w, rfl⟩ := h
    refine (W2_arr m c w).trans ?_
    match w with
    | ⟨0, _⟩ => exact ((dat0 (E1 m) c).arrAt_in 0 rfl _).trans (A_eq0 (E1 m) c 0)
    | ⟨1, _⟩ => exact ((dat0 (E1 m) c).arrAt_in 1 rfl _).trans (A_eq0 (E1 m) c 1)
    | ⟨2, _⟩ => exact absurd (List.mem_cons_self ..) hb
    | ⟨3, _⟩ => exact absurd (List.mem_cons_of_mem _ (List.mem_cons_self ..)) hb
    | ⟨4, _⟩ => exact absurd (List.mem_cons_of_mem _ (List.mem_cons_of_mem _ (List.mem_cons_self ..))) hb
  · exact W2_of_ne m c b fun w e => h ⟨w, e⟩

/-- The second call changes only its result array. -/
theorem W4_keep (c : Dev nD) (b : Ref sig .tc) (hb : b ≠ main_v34) : W4 m c b = W3 m c b := by
  by_cases h : ∃ w, Pipeline.arrRef spec1 w = b
  · obtain ⟨w, rfl⟩ := h
    refine (W4_arr m c w).trans ?_
    match w with
    | ⟨0, _⟩ => exact ((dat1 (E3 m) c).arrAt_in 0 rfl _).trans (A_eq1 (E3 m) c 0)
    | ⟨1, _⟩ => exact ((dat1 (E3 m) c).arrAt_in 1 rfl _).trans (A_eq1 (E3 m) c 1)
    | ⟨2, _⟩ => exact ((dat1 (E3 m) c).arrAt_in 2 rfl _).trans (A_eq1 (E3 m) c 2)
    | ⟨3, _⟩ => exact absurd rfl hb
  · exact W4_of_ne m c b fun w e => h ⟨w, e⟩

/-- The third call changes only its result array. -/
theorem W6_keep (c : Dev nD) (b : Ref sig .tc) (hb : b ≠ main_v64) : W6 m c b = W5 m c b := by
  by_cases h : ∃ w, Pipeline.arrRef spec2 w = b
  · obtain ⟨w, rfl⟩ := h
    refine (W6_arr m c w).trans ?_
    match w with
    | ⟨0, _⟩ => exact ((dat2 (E5 m) c).arrAt_in 0 rfl _).trans (A_eq2 (E5 m) c 0)
    | ⟨1, _⟩ => exact ((dat2 (E5 m) c).arrAt_in 1 rfl _).trans (A_eq2 (E5 m) c 1)
    | ⟨2, _⟩ => exact ((dat2 (E5 m) c).arrAt_in 2 rfl _).trans (A_eq2 (E5 m) c 2)
    | ⟨3, _⟩ => exact ((dat2 (E5 m) c).arrAt_in 3 rfl _).trans (A_eq2 (E5 m) c 3)
    | ⟨4, _⟩ => exact absurd rfl hb
  · exact W6_of_ne m c b fun w e => h ⟨w, e⟩

/-- A buffer no item writes holds its launch contents at the end. -/
theorem W7_launch (c : Dev nD) (b : Ref sig .tc) (h0 : b ∉ hostOps0_W)
    (h1 : b ∉ ([main_v1_0, main_v1_1, main_v1_2] : List (Ref sig .tc))) (h2 : b ∉ hostOps1_W) (h3 : b ≠ main_v34)
    (h4 : b ∉ hostOps2_W) (h5 : b ≠ main_v64) (h6 : b ∉ hostOps3_W) :
    W7 m c b = m ((c : Thread nD τ).loc b) :=
  (W7_keep m c b h6).trans <| (W6_keep m c b h5).trans <| (W5_keep m c b h4).trans <| (W4_keep m c b h3).trans <|
    (W3_keep m c b h2).trans <| (W2_keep m c b h1).trans <| (W1_keep m c b h0).trans rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

/-- THE FRAME at any float instance: the run ends and every argument array is as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_arg0 (by decide))).trans (W7_launch m c main_arg0 (by decide) (by decide) (by decide) (by decide) (by decide) (by decide) (by decide)),
    (h c _ (mem_uc main_arg1 (by decide))).trans (W7_launch m c main_arg1 (by decide) (by decide) (by decide) (by decide) (by decide) (by decide) (by decide)),
    (h c _ (mem_uc main_arg2 (by decide))).trans (W7_launch m c main_arg2 (by decide) (by decide) (by decide) (by decide) (by decide) (by decide) (by decide)),
    (h c _ (mem_uc main_arg3 (by decide))).trans (W7_launch m c main_arg3 (by decide) (by decide) (by decide) (by decide) (by decide) (by decide) (by decide)),
    (h c _ (mem_uc main_arg4 (by decide))).trans (W7_launch m c main_arg4 (by decide) (by decide) (by decide) (by decide) (by decide) (by decide) (by decide)),
    (h c _ (mem_uc main_arg5 (by decide))).trans (W7_launch m c main_arg5 (by decide) (by decide) (by decide) (by decide) (by decide) (by decide) (by decide)),
    (h c _ (mem_uc main_arg6 (by decide))).trans (W7_launch m c main_arg6 (by decide) (by decide) (by decide) (by decide) (by decide) (by decide) (by decide)),
    (h c _ (mem_uc main_arg7 (by decide))).trans (W7_launch m c main_arg7 (by decide) (by decide) (by decide) (by decide) (by decide) (by decide) (by decide)),
    (h c _ (mem_uc main_arg8 (by decide))).trans (W7_launch m c main_arg8 (by decide) (by decide) (by decide) (by decide) (by decide) (by decide) (by decide)),
    (h c _ (mem_uc main_arg9 (by decide))).trans (W7_launch m c main_arg9 (by decide) (by decide) (by decide) (by decide) (by decide) (by decide) (by decide)),
    (h c _ (mem_uc main_arg10 (by decide))).trans (W7_launch m c main_arg10 (by decide) (by decide) (by decide) (by decide) (by decide) (by decide) (by decide)),
    (h c _ (mem_uc main_arg11 (by decide))).trans (W7_launch m c main_arg11 (by decide) (by decide) (by decide) (by decide) (by decide) (by decide) (by decide)),
    (h c _ (mem_uc main_arg12 (by decide))).trans (W7_launch m c main_arg12 (by decide) (by decide) (by decide) (by decide) (by decide) (by decide) (by decide)),
    (h c _ (mem_uc main_arg13 (by decide))).trans (W7_launch m c main_arg13 (by decide) (by decide) (by decide) (by decide) (by decide) (by decide) (by decide)),
    (h c _ (mem_uc main_arg14 (by decide))).trans (W7_launch m c main_arg14 (by decide) (by decide) (by decide) (by decide) (by decide) (by decide) (by decide)),
    (h c _ (mem_uc main_arg15 (by decide))).trans (W7_launch m c main_arg15 (by decide) (by decide) (by decide) (by decide) (by decide) (by decide) (by decide)),
    (h c _ (mem_uc main_arg16 (by decide))).trans (W7_launch m c main_arg16 (by decide) (by decide) (by decide) (by decide) (by decide) (by decide) (by decide)),
    (h c _ (mem_uc main_arg17 (by decide))).trans (W7_launch m c main_arg17 (by decide) (by decide) (by decide) (by decide) (by decide) (by decide) (by decide)),
    (h c _ (mem_uc main_arg18 (by decide))).trans (W7_launch m c main_arg18 (by decide) (by decide) (by decide) (by decide) (by decide) (by decide) (by decide))⟩)
    (run_all m ρ)

/-- THE RUN WITH ITS RESULT at any float instance: the run ends, the result buffer holds the last boundary's
    contents, and every argument array is as launched. -/
theorem value_all : θ_run defs (onTc (τ := τ) (main (F := F))) ⟨m, fun _ => 0, ρ⟩ (fun r => ∀ c : Dev nD,
      r.2.mem ((c.tc : Thread nD τ).loc main_v82) = W7 m c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨h c _ (mem_uc main_v82 (by decide)),
    (h c _ (mem_uc main_arg0 (by decide))).trans (W7_launch m c main_arg0 (by decide) (by decide) (by decide) (by decide) (by decide) (by decide) (by decide)),
    (h c _ (mem_uc main_arg1 (by decide))).trans (W7_launch m c main_arg1 (by decide) (by decide) (by decide) (by decide) (by decide) (by decide) (by decide)),
    (h c _ (mem_uc main_arg2 (by decide))).trans (W7_launch m c main_arg2 (by decide) (by decide) (by decide) (by decide) (by decide) (by decide) (by decide)),
    (h c _ (mem_uc main_arg3 (by decide))).trans (W7_launch m c main_arg3 (by decide) (by decide) (by decide) (by decide) (by decide) (by decide) (by decide)),
    (h c _ (mem_uc main_arg4 (by decide))).trans (W7_launch m c main_arg4 (by decide) (by decide) (by decide) (by decide) (by decide) (by decide) (by decide)),
    (h c _ (mem_uc main_arg5 (by decide))).trans (W7_launch m c main_arg5 (by decide) (by decide) (by decide) (by decide) (by decide) (by decide) (by decide)),
    (h c _ (mem_uc main_arg6 (by decide))).trans (W7_launch m c main_arg6 (by decide) (by decide) (by decide) (by decide) (by decide) (by decide) (by decide)),
    (h c _ (mem_uc main_arg7 (by decide))).trans (W7_launch m c main_arg7 (by decide) (by decide) (by decide) (by decide) (by decide) (by decide) (by decide)),
    (h c _ (mem_uc main_arg8 (by decide))).trans (W7_launch m c main_arg8 (by decide) (by decide) (by decide) (by decide) (by decide) (by decide) (by decide)),
    (h c _ (mem_uc main_arg9 (by decide))).trans (W7_launch m c main_arg9 (by decide) (by decide) (by decide) (by decide) (by decide) (by decide) (by decide)),
    (h c _ (mem_uc main_arg10 (by decide))).trans (W7_launch m c main_arg10 (by decide) (by decide) (by decide) (by decide) (by decide) (by decide) (by decide)),
    (h c _ (mem_uc main_arg11 (by decide))).trans (W7_launch m c main_arg11 (by decide) (by decide) (by decide) (by decide) (by decide) (by decide) (by decide)),
    (h c _ (mem_uc main_arg12 (by decide))).trans (W7_launch m c main_arg12 (by decide) (by decide) (by decide) (by decide) (by decide) (by decide) (by decide)),
    (h c _ (mem_uc main_arg13 (by decide))).trans (W7_launch m c main_arg13 (by decide) (by decide) (by decide) (by decide) (by decide) (by decide) (by decide)),
    (h c _ (mem_uc main_arg14 (by decide))).trans (W7_launch m c main_arg14 (by decide) (by decide) (by decide) (by decide) (by decide) (by decide) (by decide)),
    (h c _ (mem_uc main_arg15 (by decide))).trans (W7_launch m c main_arg15 (by decide) (by decide) (by decide) (by decide) (by decide) (by decide) (by decide)),
    (h c _ (mem_uc main_arg16 (by decide))).trans (W7_launch m c main_arg16 (by decide) (by decide) (by decide) (by decide) (by decide) (by decide) (by decide)),
    (h c _ (mem_uc main_arg17 (by decide))).trans (W7_launch m c main_arg17 (by decide) (by decide) (by decide) (by decide) (by decide) (by decide) (by decide)),
    (h c _ (mem_uc main_arg18 (by decide))).trans (W7_launch m c main_arg18 (by decide) (by decide) (by decide) (by decide) (by decide) (by decide) (by decide))⟩)
    (run_all m ρ)

end Cert.Kernel.Hand

end
-- ==== Proof.KI.Frame0.lean ====
/-
  The first pallas_call (the statistics pass over the values), at any float instance. Its grid has 64 points; point t
  reads rows 4096 t … 4096 t + 4095 of the values and of the row indices. Three scratch buffers are carried from
  point to point: the per-camera sums (256 × 256), the per-camera counts (256 × 1) and the column sums (1 × 256).
  At point 0 they are first reset to zero; at every point the tile's contribution is added, and the three output
  windows are overwritten with the scratch contents.
-/
import proofs.«427711_j70531952934916_2_alg».proof.Proof.Gen.KernelIdeal.Launch
import proofs.«427711_j70531952934916_2_alg».proof.Proof.Gen.KernelIdeal.Skeleton
import proofs.«427711_j70531952934916_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A whole-shape store, LAST, read back through the view leaves its payload. -/
theorem read_store_unit {κ : Kind} {sp : Space} {S : Shape} {e : EltTy} (v : View sig κ sp S e) {off : Fin S.rank → Nat} (hz : off = fun _ => 0)
    (inb : ∀ a, off a + S.size a ≤ S.size a) (f : v.ty.Contents (Elt F)) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., View.mem_set_unit_zero hz inb y⟩), View.canon_cons_unit_zero hz]

/-- A whole-shape load after a whole-shape store reads the store's payload. -/
theorem readCov_unit {κ : Kind} {sp : Space} {S : Shape} {e : EltTy} (v : View sig κ sp S e) {off : Fin S.rank → Nat} (hz : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self .., View.mem_set_unit_zero hz inb y⟩), View.canon_cons_unit_zero hz, View.ld_unit_zero hz]

/-- A whole-shape load of a whole memref at named contents reads them. -/
theorem readAt_unit {sp : Space} {S : Shape} {e : EltTy} (m : Memref sig .tc sp S e) (h : m.IsWhole) {off : Fin S.rank → Nat} (hz : off = fun _ => 0)
    (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-- The condition of the body's branch on the grid coordinate: the coordinate is zero. -/
abbrev cond0 (i : grid0.Coords) : Prop :=
  (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

set_option maxHeartbeats 4000000 in
/-- The body at a point that is not the first, on any whole buffers: the inputs at x0 and x1, the carried buffers at s0,
    s1, s2, the output windows' buffers at anything. The branch is not taken; the body ends with each carried buffer at
    one update of what it held, each output buffer at the same contents, and the inputs as they were. -/
theorem run_later (c : Dev nD) (i : grid0.Coords) (hc : ¬cond0 i)
    (arg1 : Memref sig .tc .vmem S4096x256 .f32) (harg1 : arg1.IsWhole) (arg2 : Memref sig .tc .vmem S4096x1 .i32) (harg2 : arg2.IsWhole)
    (arg3 : Memref sig .tc .vmem S256x256 .f32) (harg3 : arg3.IsWhole) (arg4 : Memref sig .tc .vmem S256x1 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S256x1 .f32) (harg7 : arg7.IsWhole) (arg8 : Memref sig .tc .vmem S1x256 .f32) (harg8 : arg8.IsWhole)
    (x0 : Vec F S4096x256 .f32) (x1 : Vec F S4096x1 .i32)
    (s0 : Vec F S256x256 .f32) (s1 : Vec F S256x1 .f32) (s2 : Vec F S1x256 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare s0 ∗ owns (c : Thread nD τ) arg7 fullShare s1 ∗ owns (c : Thread nD τ) arg8 fullShare s2
        ∗ (iprop(owns (c : Thread nD τ) arg1 fullShare x0 ∗ owns (c : Thread nD τ) arg2 fullShare x1
            ∗ owns (c : Thread nD τ) arg3 fullShare (k0_pay5 x0 x1 s0) ∗ owns (c : Thread nD τ) arg4 fullShare (k0_pay6 x1 s1) ∗ owns (c : Thread nD τ) arg5 fullShare (k0_pay7 x0 s2)
            ∗ owns (c : Thread nD τ) arg6 fullShare (k0_pay5 x0 x1 s0) ∗ owns (c : Thread nD τ) arg7 fullShare (k0_pay6 x1 s1) ∗ owns (c : Thread nD τ) arg8 fullShare (k0_pay7 x0 s2)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]; unfold k0_part1_skel
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, ⟨%f8, %hf8, H8⟩, Hk⟩
  obtain rfl := harg1.eq_unread hf1; obtain rfl := harg2.eq_unread hf2
  obtain rfl := harg6.eq_unread hf6; obtain rfl := harg7.eq_unread hf7; obtain rfl := harg8.eq_unread hf8
  sl_exec (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  isplitl [H4]
  · iexists _; isplitr
    swap; · iexact H4
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  isplitl [H5]
  · iexists _; isplitr
    swap; · iexact H5
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  isplitl [H6]
  · iexists _; isplitr
    swap; · iexact H6
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  isplitl [H7]
  · iexists _; isplitr
    swap; · iexact H7
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  iexists _; isplitr
  swap; · iexact H8
  ipureintro; sl_unfold_words
  simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]

set_option maxHeartbeats 4000000 in
/-- The body at the first point, the carried buffers at anything: it first resets them to the zero values, then adds the
    tile, and ends with each carried buffer at one update of the zero values and each output buffer at the same. -/
theorem run_first (c : Dev nD) (i : grid0.Coords) (hc : cond0 i)
    (arg1 : Memref sig .tc .vmem S4096x256 .f32) (harg1 : arg1.IsWhole) (arg2 : Memref sig .tc .vmem S4096x1 .i32) (harg2 : arg2.IsWhole)
    (arg3 : Memref sig .tc .vmem S256x256 .f32) (harg3 : arg3.IsWhole) (arg4 : Memref sig .tc .vmem S256x1 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S256x1 .f32) (harg7 : arg7.IsWhole) (arg8 : Memref sig .tc .vmem S1x256 .f32) (harg8 : arg8.IsWhole)
    (x0 : Vec F S4096x256 .f32) (x1 : Vec F S4096x1 .i32)

    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare (k0_pay5 x0 x1 k0_pay1) ∗ owns (c : Thread nD τ) arg4 fullShare (k0_pay6 x1 k0_pay2) ∗ owns (c : Thread nD τ) arg5 fullShare (k0_pay7 x0 k0_pay3)
            ∗ owns (c : Thread nD τ) arg6 fullShare (k0_pay5 x0 x1 k0_pay1) ∗ owns (c : Thread nD τ) arg7 fullShare (k0_pay6 x1 k0_pay2) ∗ owns (c : Thread nD τ) arg8 fullShare (k0_pay7 x0 k0_pay3)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]; unfold k0_part1_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread hf1; obtain rfl := harg2.eq_unread hf2
  sl_exec (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  isplitl [H4]
  · iexists _; isplitr
    swap; · iexact H4
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  isplitl [H5]
  · iexists _; isplitr
    swap; · iexact H5
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  isplitl [H6]
  · iexists _; isplitr
    swap; · iexact H6
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  isplitl [H7]
  · iexists _; isplitr
    swap; · iexact H7
    ipureintro; sl_unfold_words
    simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]
  iexists _; isplitr
  swap; · iexact H8
  ipureintro; sl_unfold_words
  simp only [read_store_unit (F := F) (S := S256x256) _ hz2, read_store_unit (F := F) (S := S256x1) _ hz2, read_store_unit (F := F) (S := S1x256) _ hz2,
      readCov_unit (F := F) (S := S256x256) _ hz2, readCov_unit (F := F) (S := S256x1) _ hz2, readCov_unit (F := F) (S := S1x256) _ hz2,
      readAt_unit (F := F) (S := S4096x256) _ _ hz2, readAt_unit (F := F) (S := S4096x1) _ _ hz2,
      readAt_unit (F := F) (S := S256x256) _ _ hz2, readAt_unit (F := F) (S := S256x1) _ _ hz2, readAt_unit (F := F) (S := S1x256) _ _ hz2]

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of the three carried buffers from the tile of values x0 and the tile of row indices x1. -/
def step0 (x0 : Vec F S4096x256 .f32) (x1 : Vec F S4096x1 .i32)
    (s : Vec F S256x256 .f32 × Vec F S256x1 .f32 × Vec F S1x256 .f32) :
    Vec F S256x256 .f32 × Vec F S256x1 .f32 × Vec F S1x256 .f32 :=
  (k0_pay5 x0 x1 s.1, k0_pay6 x1 s.2.1, k0_pay7 x0 s.2.2)

/-- The three carried buffers after the first n points: the reset values, then one update per point. -/
def acc0 (c : Dev nD) : ℕ → Vec F S256x256 .f32 × Vec F S256x1 .f32 × Vec F S1x256 .f32
  | 0 => (k0_pay1, k0_pay2, k0_pay3)
  | n + 1 => if h : n < cfg0.N then step0 (iblk0 V c 0 ⟨n, h⟩) (iblk0 V c 1 ⟨n, h⟩) (acc0 c n) else acc0 c n

theorem acc0_zero (c : Dev nD) : acc0 V c 0 = (k0_pay1, k0_pay2, k0_pay3) := rfl
theorem acc0_succ (c : Dev nD) (t : Fin cfg0.N) :
    acc0 V c (t.val + 1) = step0 (iblk0 V c 0 t) (iblk0 V c 1 t) (acc0 V c t.val) := by
  show (if h : t.val < cfg0.N then _ else _) = _
  rw [dif_pos t.isLt]

/-- The region invariant before point n: before the first point the scoped rest at anything; afterwards the three
    carried buffers at their contents after n points, the other scoped buffers at anything, and the generator
    register at some state. -/
def Phi0 (c : Dev nD) : ℕ → sProp 𝕄
  | 0 => Pipeline.ΦA spec0 c
  | n + 1 => iprop((owns (c : Thread nD τ) (Memref.whole cc0_scratch0) fullShare (acc0 V c (n + 1)).1
        ∗ owns (c : Thread nD τ) (Memref.whole cc0_scratch1) fullShare (acc0 V c (n + 1)).2.1
        ∗ owns (c : Thread nD τ) (Memref.whole cc0_scratch2) fullShare (acc0 V c (n + 1)).2.2)
      ∗ Pipeline.scopedRestBut (Ix := Unit) (Name := ℕ) (U := UR sig nD τ) (Lvl := ℕ) (Val := Elt F) spec0 c [cc0_scratch0, cc0_scratch1, cc0_scratch2]
      ∗ ∃ r, prngReg c r)

/-- The proof data of the statistics call on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c (t.val + 1)).1
    | ⟨3, _⟩ => (acc0 V c (t.val + 1)).2.1
    | ⟨4, _⟩ => (acc0 V c (t.val + 1)).2.2
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c (t.val + 1)).1 := by dsimp only [dat0]
theorem after0_3 (c : Dev nD) (t : Fin cfg0.N) : (dat0 V c).after 3 t = (acc0 V c (t.val + 1)).2.1 := by dsimp only [dat0]
theorem after0_4 (c : Dev nD) (t : Fin cfg0.N) : (dat0 V c).after 4 t = (acc0 V c (t.val + 1)).2.2 := by dsimp only [dat0]

/-- Before the first point the invariant is the class's. -/
theorem Phi0_first (c : Dev nD) : (dat0 V c).Φ 0 = Pipeline.ΦA spec0 c := rfl

/-- Each input's current staging buffer holds its block at every point (both are fetched at every point; the
    windows are uncut and never idle). -/
theorem before0_0 (c : Dev nD) (t : Fin cfg0.N) (d) : (dat0 V c).before 0 t d = iblk0 V c 0 t := by
  rw [(dat0 V c).before_fetched 0 t (fetch0_0 t) d]
  unfold Dat.fetched Dat.blockOf iblk0
  rw [A_eq0]
  rfl
theorem before0_1 (c : Dev nD) (t : Fin cfg0.N) (d) : (dat0 V c).before 1 t d = iblk0 V c 1 t := by
  rw [(dat0 V c).before_fetched 1 t (fetch0_1 t) d]
  unfold Dat.fetched Dat.blockOf iblk0
  rw [A_eq0]
  rfl

/-- The scoped rest split at the three carried buffers, each whole at some contents; the remainder unopened. -/
theorem scopedRest0_split (c : Dev nD) :
    (Pipeline.scopedRest (Ix := Unit) (Name := ℕ) (U := UR sig nD τ) (Lvl := ℕ) (Val := Elt F) spec0 c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f))
          ∗ Pipeline.scopedRestBut (Ix := Unit) (Name := ℕ) (U := UR sig nD τ) (Lvl := ℕ) (Val := Elt F) spec0 c [cc0_scratch0, cc0_scratch1, cc0_scratch2]) :=
  Pipeline.scopedRest_split_of_list spec0 c [cc0_scratch0, cc0_scratch1, cc0_scratch2] (by decide) (by decide)

/-- The class's invariant with the three carried buffers taken out of the scoped rest, each at some contents. -/
theorem PhiA0_open (c : Dev nD) :
    (Pipeline.ΦA spec0 c : sProp 𝕄) ⊢ iprop(((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d))
      ∗ Pipeline.scopedRestBut (Ix := Unit) (Name := ℕ) (U := UR sig nD τ) (Lvl := ℕ) (Val := Elt F) spec0 c [cc0_scratch0, cc0_scratch1, cc0_scratch2]
      ∗ ∃ r, prngReg c r) := by
  unfold Pipeline.ΦA
  rw [scopedRest0_split]
  simp only [owns_whole]
  iintro ⟨⟨⟨H0, H1, H2⟩, HR⟩, Hg⟩
  isplitl [H0 H1 H2]
  · isplitl [H0]; · iexact H0
    isplitl [H1]; · iexact H1
    iexact H2
  isplitl [HR]; · iexact HR
  iexact Hg

/-- And put back. -/
theorem PhiA0_close (c : Dev nD) :
    iprop(((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d))
      ∗ Pipeline.scopedRestBut (Ix := Unit) (Name := ℕ) (U := UR sig nD τ) (Lvl := ℕ) (Val := Elt F) spec0 c [cc0_scratch0, cc0_scratch1, cc0_scratch2]
      ∗ ∃ r, prngReg c r) ⊢ (Pipeline.ΦA spec0 c : sProp 𝕄) := by
  unfold Pipeline.ΦA
  rw [scopedRest0_split]
  simp only [owns_whole]
  iintro ⟨⟨H0, H1, H2⟩, HR, Hg⟩
  isplitr [Hg]
  · isplitr [HR]
    · isplitl [H0]; · iexact H0
      isplitl [H1]; · iexact H1
      iexact H2
    iexact HR
  iexact Hg

/-- After a point: the carried buffers at that point's contents. -/
theorem Phi0_succ (c : Dev nD) (n : ℕ) :
    Phi0 V c (n + 1) = iprop((owns (c : Thread nD τ) (Memref.whole cc0_scratch0) fullShare (acc0 V c (n + 1)).1
        ∗ owns (c : Thread nD τ) (Memref.whole cc0_scratch1) fullShare (acc0 V c (n + 1)).2.1
        ∗ owns (c : Thread nD τ) (Memref.whole cc0_scratch2) fullShare (acc0 V c (n + 1)).2.2)
      ∗ Pipeline.scopedRestBut (Ix := Unit) (Name := ℕ) (U := UR sig nD τ) (Lvl := ℕ) (Val := Elt F) spec0 c [cc0_scratch0, cc0_scratch1, cc0_scratch2]
      ∗ ∃ r, prngReg c r) := rfl

/-- Before a point that is not the first: the carried buffers at what the point before left. -/
theorem Phi0_pos (c : Dev nD) (n : ℕ) (hn : n ≠ 0) :
    Phi0 V c n = iprop((owns (c : Thread nD τ) (Memref.whole cc0_scratch0) fullShare (acc0 V c n).1
        ∗ owns (c : Thread nD τ) (Memref.whole cc0_scratch1) fullShare (acc0 V c n).2.1
        ∗ owns (c : Thread nD τ) (Memref.whole cc0_scratch2) fullShare (acc0 V c n).2.2)
      ∗ Pipeline.scopedRestBut (Ix := Unit) (Name := ℕ) (U := UR sig nD τ) (Lvl := ℕ) (Val := Elt F) spec0 c [cc0_scratch0, cc0_scratch1, cc0_scratch2]
      ∗ ∃ r, prngReg c r) := by
  cases n with
  | zero => exact absurd rfl hn
  | succ n => rfl

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
/-- The body at any point. The inputs' buffers hold their blocks. At the first point the invariant is the class's: the
    carried buffers at anything, and the body resets them before it adds the tile; at a later point they hold what the
    point before left, and the branch is not taken. Either way they end at one update of what they held after the reset
    or the point before, and the output windows' buffers at the same. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [after0_0, after0_1, after0_2, after0_3, after0_4]
  rw [show (dat0 V c).Φ t.succ = Phi0 V c (t.val + 1) from rfl, show (dat0 V c).Φ t.castSucc = Phi0 V c t.val from rfl]
  rw [Phi0_succ, acc0_succ V c t]
  dsimp only [step0]
  by_cases hz : t.val = 0
  · rw [show Phi0 V c t.val = Pipeline.ΦA spec0 c from by rw [hz]; rfl,
      show acc0 V c t.val = (k0_pay1, k0_pay2, k0_pay3) from by rw [hz]; rfl]
    dsimp only
    iintro ⟨HΦ, Ho, ⟨%d0, H0⟩, ⟨%d1, H1⟩, ⟨%d2, H2⟩, ⟨%d3, H3⟩, ⟨%d4, H4⟩⟩
    icases (PhiA0_open c) $$ HΦ with ⟨⟨HS0, HS1, HS2⟩, HR, Hg⟩
    iapply (run_first c (grid0.coords t) ((hcond0 t).mpr hz) _ _ _ _ _ _ _ _ _ _ _ _ _ _ _ _ (iblk0 V c 0 t) (iblk0 V c 1 t) Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 HR Hg]
    · isplitl [HS0 HS1 HS2]
      · isplitl [HS0]; · iexact HS0
        isplitl [HS1]; · iexact HS1
        iexact HS2
      isplitl [HR]; · iexact HR
      iexact Hg
    isplitl [Ho]; · iexact Ho
    isplitl [H0]; · iexact H0
    isplitl [H1]; · iexact H1
    isplitl [H2]; · iexact H2
    isplitl [H3]; · iexact H3
    iexact H4
  · rw [Phi0_pos V c t.val hz]
    iintro ⟨⟨⟨HS0, HS1, HS2⟩, HR, Hg⟩, Ho, ⟨%d0, H0⟩, ⟨%d1, H1⟩, ⟨%d2, H2⟩, ⟨%d3, H3⟩, ⟨%d4, H4⟩⟩
    iapply (run_later c (grid0.coords t) (fun h => hz ((hcond0 t).mp h)) _ _ _ _ _ _ _ _ _ _ _ _ _ _ _ _ (iblk0 V c 0 t) (iblk0 V c 1 t)
      (acc0 V c t.val).1 (acc0 V c t.val).2.1 (acc0 V c t.val).2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 HR Hg]
    · isplitl [HS0 HS1 HS2]
      · isplitl [HS0]; · iexact HS0
        isplitl [HS1]; · iexact HS1
        iexact HS2
      isplitl [HR]; · iexact HR
      iexact Hg
    isplitl [Ho]; · iexact Ho
    isplitl [H0]; · iexact H0
    isplitl [H1]; · iexact H1
    isplitl [H2]; · iexact H2
    isplitl [H3]; · iexact H3
    iexact H4

/-- After the last point the invariant gives the scoped rest and the generator register back. -/
theorem Phi0_last (c : Dev nD) : (dat0 V c).Φ (Fin.last _) ⊢ Pipeline.ΦA (U := UR sig nD τ) (Val := Elt F) spec0 c := by
  have hN : (Fin.last cfg0.N).val = 63 + 1 := by rw [Fin.val_last]; exact N_0
  rw [show (dat0 V c).Φ (Fin.last cfg0.N) = Phi0 V c (Fin.last cfg0.N).val from rfl, hN, Phi0_succ]
  refine BIBase.Entails.trans ?_ (PhiA0_close c)
  iintro ⟨⟨H0, H1, H2⟩, HR, Hg⟩
  isplitl [H0 H1 H2]
  · isplitl [H0]; · iexists _; iexact H0
    isplitl [H1]; · iexists _; iexact H1
    iexists _; iexact H2
  isplitl [HR]; · iexact HR
  iexact Hg

/-- The body obligation of the statistics call, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Frame1.lean ====
/-
  The second pallas_call (dense attention over the 8192 point means), at any float instance: what each window's
  staging buffer holds after the body at a grid point, and that the body does what this says. The grid has 32
  points; point t reads rows 256 t … 256 t + 255 of the queries, all keys and all values, and writes the same
  rows of the result.
-/
import proofs.«427711_j70531952934916_2_alg».proof.Proof.Gen.KernelIdeal.Launch
import proofs.«427711_j70531952934916_2_alg».proof.Proof.Gen.KernelIdeal.Skeleton
import proofs.«427711_j70531952934916_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched,
    its block index has not moved), for any proof data over the arrays V whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched,
    its block index has not moved), for any proof data over the arrays V whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched,
    its block index has not moved), for any proof data over the arrays V whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 256 × 256 buffer as one rectangle. -/
abbrev rq : Rect S256x256 := Rect.unit (s := S256x256) ![0, 0] S256x256.size inb_S256x256_S256x256_0_0
/-- The whole 8192 × 256 buffer as one rectangle. -/
abbrev rk : Rect S8192x256 := Rect.unit (s := S8192x256) ![0, 0] S8192x256.size inb_S8192x256_S8192x256_0_0

/-- The result window's staging buffer after the body: one whole-buffer store of the attention payload of the
    three input blocks. -/
def out1_3 (x0 : Vec F S256x256 .f32) (x1 x2 : Vec F S8192x256 .f32) : Vec F S256x256 .f32 :=
  View.canon [⟨rq, k1_pay1 (View.ld x0 rq) (View.ld x1 rk) (View.ld x2 rk)⟩]

/-- The one store is over the whole buffer, so it covers it. -/
theorem cover1_3 (p0 : Vec F S256x256 .f32) (y : S256x256.Idx) :
    ∃ pc ∈ ([⟨rq, p0⟩] : List (View.Piece (Elt F) S256x256 .f32)), y ∈ pc.1.set :=
  View.cover_of_tiled [⟨rq, p0⟩] S256x256.size (by rfl) y

set_option maxHeartbeats 1000000 in
/-- The attention kernel on whole staging buffers, the three inputs' at read contents and the result's at anything,
    runs to the continuation holding the inputs' as they were and the result's at out1_3 of the inputs'. -/
theorem sound_kernel1 (c : Dev nD) (E : Set ℕ) (i : grid1.Coords)
    (arg0 : Memref sig .tc .vmem S256x256 .f32) (harg0 : arg0.IsWhole)
    (arg1 : Memref sig .tc .vmem S8192x256 .f32) (harg1 : arg1.IsWhole)
    (arg2 : Memref sig .tc .vmem S8192x256 .f32) (harg2 : arg2.IsWhole)
    (arg3 : Memref sig .tc .vmem S256x256 .f32) (harg3 : arg3.IsWhole)
    (x0 : Vec F S256x256 .f32) (x1 x2 : Vec F S8192x256 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the attention call on core c: arrays as the region finds them; inputs stay at their blocks,
    the output block is the payload of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the kernel's triple applies; the invariant and
    the core's owed tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the attention call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Frame2.lean ====
/-
  The third pallas_call (values times a weight matrix, plus two bias rows), at any float instance: what each
  window's staging buffer holds after the body at a grid point, and that the body does what this says. The grid
  has 32 points; point t reads rows 8192 t … 8192 t + 8191 of the values and writes the same rows of the result.
-/
import proofs.«427711_j70531952934916_2_alg».proof.Proof.Gen.KernelIdeal.Launch
import proofs.«427711_j70531952934916_2_alg».proof.Proof.Gen.KernelIdeal.Skeleton
import proofs.«427711_j70531952934916_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched,
    its block index has not moved), for any proof data over the arrays V whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched,
    its block index has not moved), for any proof data over the arrays V whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched,
    its block index has not moved), for any proof data over the arrays V whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched,
    its block index has not moved), for any proof data over the arrays V whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole 8192 × 256 buffer as one rectangle. -/
abbrev rv : Rect S8192x256 := Rect.unit (s := S8192x256) ![0, 0] S8192x256.size inb_S8192x256_S8192x256_0_0
/-- The whole 256 × 256 buffer as one rectangle. -/
abbrev rw2 : Rect S256x256 := Rect.unit (s := S256x256) ![0, 0] S256x256.size inb_S256x256_S256x256_0_0
/-- The whole 1 × 256 buffer as one rectangle. -/
abbrev rb : Rect S1x256 := Rect.unit (s := S1x256) ![0, 0] S1x256.size inb_S1x256_S1x256_0_0

/-- The result window's staging buffer after the body: one whole-buffer store of the payload of the four input
    blocks. -/
def out2_4 (x0 : Vec F S8192x256 .f32) (x1 : Vec F S256x256 .f32) (x2 x3 : Vec F S1x256 .f32) : Vec F S8192x256 .f32 :=
  View.canon [⟨rv, k2_pay1 (View.ld x0 rv) (View.ld x1 rw2) (View.ld x2 rb) (View.ld x3 rb)⟩]

/-- The one store is over the whole buffer, so it covers it. -/
theorem cover2_4 (p0 : Vec F S8192x256 .f32) (y : S8192x256.Idx) :
    ∃ pc ∈ ([⟨rv, p0⟩] : List (View.Piece (Elt F) S8192x256 .f32)), y ∈ pc.1.set :=
  View.cover_of_tiled [⟨rv, p0⟩] S8192x256.size (by rfl) y

set_option maxHeartbeats 1000000 in
/-- The combine kernel on whole staging buffers, the four inputs' at read contents and the result's at anything,
    runs to the continuation holding the inputs' as they were and the result's at out2_4 of the inputs'. -/
theorem sound_kernel2 (c : Dev nD) (E : Set ℕ) (i : grid2.Coords)
    (arg0 : Memref sig .tc .vmem S8192x256 .f32) (harg0 : arg0.IsWhole)
    (arg1 : Memref sig .tc .vmem S256x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S8192x256 .f32) (harg4 : arg4.IsWhole)
    (x0 : Vec F S8192x256 .f32) (x1 : Vec F S256x256 .f32) (x2 x3 : Vec F S1x256 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out2_4 x0 x1 x2 x3)) -∗ K ⟨⟩))
      ⊢ wp frame (wpE (defs₀ (F := F)) Variants.none c none) E (cc2__combine_kernel i arg0 harg0 arg1 harg1 arg2 harg2 arg3 harg3 arg4 harg4) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of the third call on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the kernel's triple applies; the invariant and
    the core's owed tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the third call, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole program as a run, at any float instance: the contents of every unscoped buffer at each boundary between
  the items of the main function (a stretch of host operations, or one of the three pallas_calls), the three calls
  as segments over those contents, and the launch: every weakly fair execution ends, and at the end every unscoped
  buffer holds the last boundary's contents.
-/
import proofs.«427711_j70531952934916_2_alg».proof.Proof.Gen.KernelIdeal.Launch
import proofs.«427711_j70531952934916_2_alg».proof.Proof.Gen.KernelIdeal.Skeleton
import proofs.«427711_j70531952934916_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«427711_j70531952934916_2_alg».proof.Proof.Gen.KernelIdeal.Regions
import proofs.«427711_j70531952934916_2_alg».proof.Proof.KI.Frame0
import proofs.«427711_j70531952934916_2_alg».proof.Proof.KI.Frame1
import proofs.«427711_j70531952934916_2_alg».proof.Proof.KI.Frame2
import Idealize.ShloMosaic.Lib.Pipeline.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m ((c : Dev nD), b)
/-- After the first host stretch (the first call's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (the second call's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b

/-- At region 1's exit: its arrays at what the pipeline leaves, every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the third host stretch (the third call's entry). -/
abbrev W5 : Dev nD → Valuation τ sig (Elt F) := fun c => StableHlo.after hostOps2 (W4 m c)
abbrev E5 : (c : Dev nD) → (b : Ref sig .tc) → Buf (Elt F) ((c : Thread nD τ).loc b) := fun c b => W5 m c b

/-- At region 2's exit: its arrays at what the pipeline leaves, every other buffer as entered. -/
def W6 (c : Dev nD) : Valuation τ sig (Elt F) :=
  Pipeline.withArrays spec2 c (W5 m c) fun w => (dat2 (E5 m) c).arrAt w cfg2.N
theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev E6 : (c : Dev nD) → (b : Ref sig .tc) → Buf (Elt F) ((c : Thread nD τ).loc b) := fun c b => W6 m c b
theorem hF2 (c : Dev nD) (w : Fin cfg2.W) : (dat2 (E5 m) c).arrAt w cfg2.N = E6 m c (Pipeline.arrRef spec2 w) :=
  (W6_arr m c w).symm
theorem hrest2 (c : Dev nD) : ∀ b, b ∉ Finset.univ.image (Pipeline.arrRef spec2) → E6 m c b = E5 m c b :=
  fun b hb => W6_of_ne m c b fun w e => hb (Finset.mem_image.mpr ⟨w, Finset.mem_univ _, e⟩)

/-- After the last host stretch: the end. -/
abbrev W7 : Dev nD → Valuation τ sig (Elt F) := fun c => StableHlo.after hostOps3 (W6 m c)

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱₀ : Variants := Variants.none
abbrev L : GSem nD τ sig → Finset Unit := fun _ => ∅
abbrev lv : GSem nD τ sig → Unit → ℕ := fun _ _ => 0
/-- What rides beside the buffers through every item: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the owing part. -/
abbrev Tₙ (c : Dev nD) : sProp 𝕄 := iprop(StableHlo.held (c : Thread nD τ) (Pipeline.ucRefs τ sig) (W7 m c) ∗ ∃ r, prngReg c r)

/-! ## The calls as segments -/

set_option backward.isDefEq.respectTransparency.types false in
/-- Region 0 over the thread state: entered with every unscoped buffer at the contents before it, left with them at
    the contents after it; its arrays are split out of the unscoped buffers at entry and put back at exit; the
    generator register goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]; refine (Phi0_last (E1 m) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it; its arrays are split out of the unscoped buffers at entry and put back at exit; the
    generator register goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at
    the contents after it; its arrays are split out of the unscoped buffers at entry and put back at exit; the
    generator register goes into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

variable (ρ : Dev nD → PrngReg)

set_option backward.isDefEq.respectTransparency.types false in
/-- THE RUN: from any memory with zero counters every weakly fair execution of the main function ends, nothing
    faulting, and at the end every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Hand

end
-- ==== Proof.KI.Keep.lean ====
/-
  Which buffers each item of the main function leaves alone: a stretch of host operations changes only the buffers
  its operations write; a pallas_call changes only its output windows' arrays (an input window's array comes back
  as it was found). Hence every argument array holds its launch contents at the end.
-/
import proofs.«427711_j70531952934916_2_alg».proof.Proof.Gen.KernelIdeal.Launch
import proofs.«427711_j70531952934916_2_alg».proof.Proof.Gen.KernelIdeal.Skeleton
import proofs.«427711_j70531952934916_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«427711_j70531952934916_2_alg».proof.Proof.KI.Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W1_keep (c : Dev nD) (b : Ref sig .tc) (h : b ∉ hostOps0_W) : W1 m c b = W0 m c b :=
  StableHlo.after_of_writes_sub hostOps0 _ hostOps0_writes h
theorem W3_keep (c : Dev nD) (b : Ref sig .tc) (h : b ∉ hostOps1_W) : W3 m c b = W2 m c b :=
  StableHlo.after_of_writes_sub hostOps1 _ hostOps1_writes h
theorem W5_keep (c : Dev nD) (b : Ref sig .tc) (h : b ∉ hostOps2_W) : W5 m c b = W4 m c b :=
  StableHlo.after_of_writes_sub hostOps2 _ hostOps2_writes h
theorem W7_keep (c : Dev nD) (b : Ref sig .tc) (h : b ∉ hostOps3_W) : W7 m c b = W6 m c b :=
  StableHlo.after_of_writes_sub hostOps3 _ hostOps3_writes h

/-- The first call changes only its three result arrays. -/
theorem W2_keep (c : Dev nD) (b : Ref sig .tc) (hb : b ∉ ([main_v1_0, main_v1_1, main_v1_2] : List (Ref sig .tc))) :
    W2 m c b = W1 m c b := by
  by_cases h : ∃ w, Pipeline.arrRef spec0 w = b
  · obtain ⟨w, rfl⟩ := h
    refine (W2_arr m c w).trans ?_
    match w with
    | ⟨0, _⟩ => exact ((dat0 (E1 m) c).arrAt_in 0 rfl _).trans (A_eq0 (E1 m) c 0)
    | ⟨1, _⟩ => exact ((dat0 (E1 m) c).arrAt_in 1 rfl _).trans (A_eq0 (E1 m) c 1)
    | ⟨2, _⟩ => exact absurd (List.mem_cons_self ..) hb
    | ⟨3, _⟩ => exact absurd (List.mem_cons_of_mem _ (List.mem_cons_self ..)) hb
    | ⟨4, _⟩ => exact absurd (List.mem_cons_of_mem _ (List.mem_cons_of_mem _ (List.mem_cons_self ..))) hb
  · exact W2_of_ne m c b fun w e => h ⟨w, e⟩

/-- The second call changes only its result array. -/
theorem W4_keep (c : Dev nD) (b : Ref sig .tc) (hb : b ≠ main_v34) : W4 m c b = W3 m c b := by
  by_cases h : ∃ w, Pipeline.arrRef spec1 w = b
  · obtain ⟨w, rfl⟩ := h
    refine (W4_arr m c w).trans ?_
    match w with
    | ⟨0, _⟩ => exact ((dat1 (E3 m) c).arrAt_in 0 rfl _).trans (A_eq1 (E3 m) c 0)
    | ⟨1, _⟩ => exact ((dat1 (E3 m) c).arrAt_in 1 rfl _).trans (A_eq1 (E3 m) c 1)
    | ⟨2, _⟩ => exact ((dat1 (E3 m) c).arrAt_in 2 rfl _).trans (A_eq1 (E3 m) c 2)
    | ⟨3, _⟩ => exact absurd rfl hb
  · exact W4_of_ne m c b fun w e => h ⟨w, e⟩

/-- The third call changes only its result array. -/
theorem W6_keep (c : Dev nD) (b : Ref sig .tc) (hb : b ≠ main_v64) : W6 m c b = W5 m c b := by
  by_cases h : ∃ w, Pipeline.arrRef spec2 w = b
  · obtain ⟨w, rfl⟩ := h
    refine (W6_arr m c w).trans ?_
    match w with
    | ⟨0, _⟩ => exact ((dat2 (E5 m) c).arrAt_in 0 rfl _).trans (A_eq2 (E5 m) c 0)
    | ⟨1, _⟩ => exact ((dat2 (E5 m) c).arrAt_in 1 rfl _).trans (A_eq2 (E5 m) c 1)
    | ⟨2, _⟩ => exact ((dat2 (E5 m) c).arrAt_in 2 rfl _).trans (A_eq2 (E5 m) c 2)
    | ⟨3, _⟩ => exact ((dat2 (E5 m) c).arrAt_in 3 rfl _).trans (A_eq2 (E5 m) c 3)
    | ⟨4, _⟩ => exact absurd rfl hb
  · exact W6_of_ne m c b fun w e => h ⟨w, e⟩

/-- A buffer no item writes holds its launch contents at the end. -/
theorem W7_launch (c : Dev nD) (b : Ref sig .tc) (h0 : b ∉ hostOps0_W)
    (h1 : b ∉ ([main_v1_0, main_v1_1, main_v1_2] : List (Ref sig .tc))) (h2 : b ∉ hostOps1_W) (h3 : b ≠ main_v34)
    (h4 : b ∉ hostOps2_W) (h5 : b ≠ main_v64) (h6 : b ∉ hostOps3_W) :
    W7 m c b = m ((c : Thread nD τ).loc b) :=
  (W7_keep m c b h6).trans <| (W6_keep m c b h5).trans <| (W5_keep m c b h4).trans <| (W4_keep m c b h3).trans <|
    (W3_keep m c b h2).trans <| (W2_keep m c b h1).trans <| (W1_keep m c b h0).trans rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

/-- THE FRAME at any float instance: the run ends and every argument array is as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_arg0 (by decide))).trans (W7_launch m c main_arg0 (by decide) (by decide) (by decide) (by decide) (by decide) (by decide) (by decide)),
    (h c _ (mem_uc main_arg1 (by decide))).trans (W7_launch m c main_arg1 (by decide) (by decide) (by decide) (by decide) (by decide) (by decide) (by decide)),
    (h c _ (mem_uc main_arg2 (by decide))).trans (W7_launch m c main_arg2 (by decide) (by decide) (by decide) (by decide) (by decide) (by decide) (by decide)),
    (h c _ (mem_uc main_arg3 (by decide))).trans (W7_launch m c main_arg3 (by decide) (by decide) (by decide) (by decide) (by decide) (by decide) (by decide)),
    (h c _ (mem_uc main_arg4 (by decide))).trans (W7_launch m c main_arg4 (by decide) (by decide) (by decide) (by decide) (by decide) (by decide) (by decide)),
    (h c _ (mem_uc main_arg5 (by decide))).trans (W7_launch m c main_arg5 (by decide) (by decide) (by decide) (by decide) (by decide) (by decide) (by decide)),
    (h c _ (mem_uc main_arg6 (by decide))).trans (W7_launch m c main_arg6 (by decide) (by decide) (by decide) (by decide) (by decide) (by decide) (by decide)),
    (h c _ (mem_uc main_arg7 (by decide))).trans (W7_launch m c main_arg7 (by decide) (by decide) (by decide) (by decide) (by decide) (by decide) (by decide)),
    (h c _ (mem_uc main_arg8 (by decide))).trans (W7_launch m c main_arg8 (by decide) (by decide) (by decide) (by decide) (by decide) (by decide) (by decide)),
    (h c _ (mem_uc main_arg9 (by decide))).trans (W7_launch m c main_arg9 (by decide) (by decide) (by decide) (by decide) (by decide) (by decide) (by decide)),
    (h c _ (mem_uc main_arg10 (by decide))).trans (W7_launch m c main_arg10 (by decide) (by decide) (by decide) (by decide) (by decide) (by decide) (by decide)),
    (h c _ (mem_uc main_arg11 (by decide))).trans (W7_launch m c main_arg11 (by decide) (by decide) (by decide) (by decide) (by decide) (by decide) (by decide)),
    (h c _ (mem_uc main_arg12 (by decide))).trans (W7_launch m c main_arg12 (by decide) (by decide) (by decide) (by decide) (by decide) (by decide) (by decide)),
    (h c _ (mem_uc main_arg13 (by decide))).trans (W7_launch m c main_arg13 (by decide) (by decide) (by decide) (by decide) (by decide) (by decide) (by decide)),
    (h c _ (mem_uc main_arg14 (by decide))).trans (W7_launch m c main_arg14 (by decide) (by decide) (by decide) (by decide) (by decide) (by decide) (by decide)),
    (h c _ (mem_uc main_arg15 (by decide))).trans (W7_launch m c main_arg15 (by decide) (by decide) (by decide) (by decide) (by decide) (by decide) (by decide)),
    (h c _ (mem_uc main_arg16 (by decide))).trans (W7_launch m c main_arg16 (by decide) (by decide) (by decide) (by decide) (by decide) (by decide) (by decide)),
    (h c _ (mem_uc main_arg17 (by decide))).trans (W7_launch m c main_arg17 (by decide) (by decide) (by decide) (by decide) (by decide) (by decide) (by decide)),
    (h c _ (mem_uc main_arg18 (by decide))).trans (W7_launch m c main_arg18 (by decide) (by decide) (by decide) (by decide) (by decide) (by decide) (by decide))⟩)
    (run_all m ρ)

/-- THE RUN WITH ITS RESULT at any float instance: the run ends, the result buffer holds the last boundary's
    contents, and every argument array is as launched. -/
theorem value_all : θ_run defs (onTc (τ := τ) (main (F := F))) ⟨m, fun _ => 0, ρ⟩ (fun r => ∀ c : Dev nD,
      r.2.mem ((c.tc : Thread nD τ).loc main_v82) = W7 m c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨h c _ (mem_uc main_v82 (by decide)),
    (h c _ (mem_uc main_arg0 (by decide))).trans (W7_launch m c main_arg0 (by decide) (by decide) (by decide) (by decide) (by decide) (by decide) (by decide)),
    (h c _ (mem_uc main_arg1 (by decide))).trans (W7_launch m c main_arg1 (by decide) (by decide) (by decide) (by decide) (by decide) (by decide) (by decide)),
    (h c _ (mem_uc main_arg2 (by decide))).trans (W7_launch m c main_arg2 (by decide) (by decide) (by decide) (by decide) (by decide) (by decide) (by decide)),
    (h c _ (mem_uc main_arg3 (by decide))).trans (W7_launch m c main_arg3 (by decide) (by decide) (by decide) (by decide) (by decide) (by decide) (by decide)),
    (h c _ (mem_uc main_arg4 (by decide))).trans (W7_launch m c main_arg4 (by decide) (by decide) (by decide) (by decide) (by decide) (by decide) (by decide)),
    (h c _ (mem_uc main_arg5 (by decide))).trans (W7_launch m c main_arg5 (by decide) (by decide) (by decide) (by decide) (by decide) (by decide) (by decide)),
    (h c _ (mem_uc main_arg6 (by decide))).trans (W7_launch m c main_arg6 (by decide) (by decide) (by decide) (by decide) (by decide) (by decide) (by decide)),
    (h c _ (mem_uc main_arg7 (by decide))).trans (W7_launch m c main_arg7 (by decide) (by decide) (by decide) (by decide) (by decide) (by decide) (by decide)),
    (h c _ (mem_uc main_arg8 (by decide))).trans (W7_launch m c main_arg8 (by decide) (by decide) (by decide) (by decide) (by decide) (by decide) (by decide)),
    (h c _ (mem_uc main_arg9 (by decide))).trans (W7_launch m c main_arg9 (by decide) (by decide) (by decide) (by decide) (by decide) (by decide) (by decide)),
    (h c _ (mem_uc main_arg10 (by decide))).trans (W7_launch m c main_arg10 (by decide) (by decide) (by decide) (by decide) (by decide) (by decide) (by decide)),
    (h c _ (mem_uc main_arg11 (by decide))).trans (W7_launch m c main_arg11 (by decide) (by decide) (by decide) (by decide) (by decide) (by decide) (by decide)),
    (h c _ (mem_uc main_arg12 (by decide))).trans (W7_launch m c main_arg12 (by decide) (by decide) (by decide) (by decide) (by decide) (by decide) (by decide)),
    (h c _ (mem_uc main_arg13 (by decide))).trans (W7_launch m c main_arg13 (by decide) (by decide) (by decide) (by decide) (by decide) (by decide) (by decide)),
    (h c _ (mem_uc main_arg14 (by decide))).trans (W7_launch m c main_arg14 (by decide) (by decide) (by decide) (by decide) (by decide) (by decide) (by decide)),
    (h c _ (mem_uc main_arg15 (by decide))).trans (W7_launch m c main_arg15 (by decide) (by decide) (by decide) (by decide) (by decide) (by decide) (by decide)),
    (h c _ (mem_uc main_arg16 (by decide))).trans (W7_launch m c main_arg16 (by decide) (by decide) (by decide) (by decide) (by decide) (by decide) (by decide)),
    (h c _ (mem_uc main_arg17 (by decide))).trans (W7_launch m c main_arg17 (by decide) (by decide) (by decide) (by decide) (by decide) (by decide) (by decide)),
    (h c _ (mem_uc main_arg18 (by decide))).trans (W7_launch m c main_arg18 (by decide) (by decide) (by decide) (by decide) (by decide) (by decide) (by decide))⟩)
    (run_all m ρ)

end Cert.KernelIdeal.Hand

end
-- ==== Proof.KI.Iface.lean ====
/-
  What the three pallas_calls leave in their result arrays, at the exact reals, stated against the reference's own
  stage functions: the statements the region-by-region value modules prove and the end-to-end comparison uses.
-/
import proofs.«427711_j70531952934916_2_alg».proof.Proof.Gen.KernelIdeal.Launch
import proofs.«427711_j70531952934916_2_alg».proof.Proof.Gen.KernelIdeal.Skeleton
import proofs.«427711_j70531952934916_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«427711_j70531952934916_2_alg».proof.Proof.KI.Frame0
import proofs.«427711_j70531952934916_2_alg».proof.Proof.KI.Frame1
import proofs.«427711_j70531952934916_2_alg».proof.Proof.KI.Frame2
import proofs.«427711_j70531952934916_2_alg».proof.Proof.Gen.ReferenceIdeal.Read
import Idealize.ShloMosaic.PureOps.Ideal
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The entry contents of a call, at the exact reals. -/
abbrev Entry : Type := (c : Dev nD) → (b : Ref sig .tc) → Buf (Elt Ideal) ((c : Thread nD τ).loc b)

/-- The values the three calls leave, in the reference's terms. -/
structure RegionValues : Prop where
  /-- per-camera sums: the one-hot matrix product over all tiles is the segment sum by row index -/
  sum : ∀ (V : Entry) (c : Dev nD),
    (V c main_v0 : (⟨S262144x1, .i32⟩ : BufTy).Contents (Elt Ideal)) = broadcastInDim S262144x1 ![0] Cert.ReferenceIdeal.Facts₀.bcast_S262144_S262144x1_0 (V c main_arg1) →
    ((dat0 V c).arrAt 2 cfg0.N : (⟨S256x256, .f32⟩ : BufTy).Contents (Elt Ideal)) = Cert.ReferenceIdeal.Read.val_main_v45 (F := Ideal) (V c main_arg0) (V c main_arg1)
  /-- per-camera counts -/
  cnt : ∀ (V : Entry) (c : Dev nD),
    (V c main_v0 : (⟨S262144x1, .i32⟩ : BufTy).Contents (Elt Ideal)) = broadcastInDim S262144x1 ![0] Cert.ReferenceIdeal.Facts₀.bcast_S262144_S262144x1_0 (V c main_arg1) →
    ((dat0 V c).arrAt 3 cfg0.N : (⟨S256x1, .f32⟩ : BufTy).Contents (Elt Ideal)) = Cert.ReferenceIdeal.Read.val_main_v49 (F := Ideal) (V c main_arg1)
  /-- column sums of all values -/
  gsum : ∀ (V : Entry) (c : Dev nD),
    ((dat0 V c).arrAt 4 cfg0.N : (⟨S1x256, .f32⟩ : BufTy).Contents (Elt Ideal)) = Cert.ReferenceIdeal.Read.val_main_v83 (F := Ideal) (V c main_arg0)
  /-- the attention call against the reference's softmax attention of the same queries, keys and values -/
  attn : ∀ (V : Entry) (c : Dev nD) (x0 : (⟨S262144x256, .f32⟩ : BufTy).Contents (Elt Ideal)) (x2 : (⟨S262144, .i32⟩ : BufTy).Contents (Elt Ideal))
      (x7 : (⟨S256x256, .f32⟩ : BufTy).Contents (Elt Ideal)) (x8 : (⟨S256, .f32⟩ : BufTy).Contents (Elt Ideal))
      (x9 : (⟨S256x256, .f32⟩ : BufTy).Contents (Elt Ideal)) (x10 : (⟨S256, .f32⟩ : BufTy).Contents (Elt Ideal))
      (x11 : (⟨S256x256, .f32⟩ : BufTy).Contents (Elt Ideal)) (x12 : (⟨S256, .f32⟩ : BufTy).Contents (Elt Ideal)),
    (V c main_v25 : (⟨S8192x256, .f32⟩ : BufTy).Contents (Elt Ideal)) = Cert.ReferenceIdeal.Read.val_main_v18 (F := Ideal) x0 x2 x11 x12 →
    (V c main_v29 : (⟨S8192x256, .f32⟩ : BufTy).Contents (Elt Ideal)) = Cert.ReferenceIdeal.Read.val_main_v22 (F := Ideal) x0 x2 x9 x10 →
    (V c main_v33 : (⟨S8192x256, .f32⟩ : BufTy).Contents (Elt Ideal)) = Cert.ReferenceIdeal.Read.val_main_v26 (F := Ideal) x0 x2 x7 x8 →
    ((dat1 V c).arrAt 3 cfg1.N : (⟨S8192x256, .f32⟩ : BufTy).Contents (Elt Ideal)) = Cert.ReferenceIdeal.Read.val_main_v42 (F := Ideal) x0 x2 x7 x8 x9 x10 x11 x12
  /-- the third call: the matrix product plus the two broadcast rows -/
  comb : ∀ (V : Entry) (c : Dev nD),
    @Eq (FVec Ideal S262144x256 .f32) ((dat2 V c).arrAt 4 cfg2.N)
      (addf (F := Ideal) (addf (F := Ideal) (Cert.ReferenceIdeal.Read.val_main_v0 (F := Ideal) (V c main_arg0) (V c main_arg3))
          (broadcastInDim S262144x256 ![0, 1] Cert.ReferenceIdeal.Facts₀.bcast_S1x256_S262144x256_0_1 (V c main_v63 : (⟨S1x256, .f32⟩ : BufTy).Contents (Elt Ideal))))
        (broadcastInDim S262144x256 ![0, 1] Cert.ReferenceIdeal.Facts₀.bcast_S1x256_S262144x256_0_1 (V c main_v10 : (⟨S1x256, .f32⟩ : BufTy).Contents (Elt Ideal))))
  /-- moving the broadcast row to the end of a sum of five arrays -/
  tail : ∀ (D B OB G1 G2 : FVec Ideal S262144x256 .f32),
    addf (addf (addf (addf D B) OB) G1) G2 = addf (addf (addf (addf D B) G1) G2) OB

end Cert.KernelIdeal.Hand

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.KI.Stats.lean ====
/-
  The statistics pass, read as values at the exact reals.

  The first kernel call walks the 262144 rows of the values x in 64 tiles of 4096 rows and carries three sums:
  for every index word m below 256 and column d the sum of x[r, d] over the rows r whose index word is m, the number
  of such rows, and for every column d the sum of x[r, d] over all rows. A tile's contribution to the first is a
  matrix product of the tile's one-hot matrix (entry (r, m) is 1 when row r's index word is m, else 0) with the
  tile of values, contracted over the rows; to the second the column sums of the one-hot matrix; to the third the
  column sums of the tile.

  Read index by index (the payloads at an index), the carried buffers after n points are the sums of the rows'
  contributions over the first 4096 n rows (induction on n; over the extended reals a sum of sums over consecutive
  ranges is the sum over the whole range). The three result arrays are written back once, at the last point, with
  the carried buffers after all 64 points. The reference computes the first two by a scatter-add of rows into zeros
  at the row indices, whose element (m, d) is the same sum (an index word, read signed, is m exactly when it is the
  word of m; a negative or out-of-range index adds to no row on either side), and the third by a sum over the row
  axis.
-/
import proofs.«427711_j70531952934916_2_alg».proof.Proof.KI.Frame0
import proofs.«427711_j70531952934916_2_alg».proof.Proof.Gen.ReferenceIdeal.Read
import proofs.«427711_j70531952934916_2_alg».proof.Proof.LibRows
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Payload

/-- A column [a, 1] broadcast to [a, b] reads, at (p, q), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one-hot factor of two words: the equality bit, widened and read as an integer, is 1 or 0. -/
theorem onehot_word (a b : BitVec 32) :
    (FloatOps.sitofp (F := Ideal) .f32 ((IntOp.cmpi .eq a b).setWidth 32) : EReal) = if a = b then 1 else 0 := by
  show ((((BitVec.ofBool (a == b)).setWidth 32).toInt : ℝ) : EReal) = _
  by_cases h : a = b
  · subst h
    rw [if_pos rfl, beq_self_eq_true]
    have : ((BitVec.ofBool true).setWidth 32).toInt = 1 := by decide
    rw [this]; norm_num
  · rw [if_neg h, beq_eq_false_iff_ne.mpr h]
    have : ((BitVec.ofBool false).setWidth 32).toInt = 0 := by decide
    rw [this]; norm_num

/-- The one-hot matrix of a tile of row indices: entry (r, m) is 1 when the r-th index word is m, else 0. -/
theorem pay4_apply (x1 : Vec Ideal S4096x1 .i32) (r : Fin 4096) (m : Fin 256) :
    k0_pay4 (F := Ideal) x1 (ix2 r m) = if x1 (ix2 r (0 : Fin 1)) = BitVec.ofNat 32 m.val then (1 : EReal) else 0 := by
  unfold k0_pay4
  dsimp only
  rw [shapeCast_self, shapeCast_shapeCast]
  have hA : broadcastTo S4096x256 x1 broadcasts_S4096x1_S4096x256 (ix2 r m) = x1 (ix2 r (0 : Fin 1)) :=
    broadcastTo_a1_ab_apply x1 _ r m
  have hB : iota .tc S4096x256 32 [1] iota_S4096x256_d1_w32 (ix2 r m) = BitVec.ofNat 32 m.val :=
    iota_single_apply .tc S4096x256 32 1 _ (ix2 r m)
  show FloatOps.sitofp (F := Ideal) .f32 ((IntOp.cmpi .eq (broadcastTo S4096x256 x1 broadcasts_S4096x1_S4096x256 (ix2 r m))
    (iota .tc S4096x256 32 [1] iota_S4096x256_d1_w32 (ix2 r m))).setWidth 32) = _
  rw [hA, hB]
  exact onehot_word _ _

theorem lhs_pay5_0 (i : S256x256.Idx) (q : dot_S4096x256_S4096x256_S256x256_0_0_1_1_n_n.contr.Idx) :
    (dot_S4096x256_S4096x256_S256x256_0_0_1_1_n_n.lhsIdx i q 0).val = (q ⟨0, by decide⟩).val :=
  dot_S4096x256_S4096x256_S256x256_0_0_1_1_n_n.lhsIdx_val_of_single rfl i q
theorem lhs_pay5_1 (i : S256x256.Idx) (q : dot_S4096x256_S4096x256_S256x256_0_0_1_1_n_n.contr.Idx) :
    (dot_S4096x256_S4096x256_S256x256_0_0_1_1_n_n.lhsIdx i q 1).val = (i 0).val := by
  unfold DotDims.lhsIdx
  rw [dif_neg (show ¬(1 : Fin S4096x256.rank) ∈ dot_S4096x256_S4096x256_S256x256_0_0_1_1_n_n.lhsBatch by decide), dif_pos (show (1 : Fin S4096x256.rank) ∈ dot_S4096x256_S4096x256_S256x256_0_0_1_1_n_n.lhsNonContracting by decide)]
  rfl
theorem rhs_pay5_0 (i : S256x256.Idx) (q : dot_S4096x256_S4096x256_S256x256_0_0_1_1_n_n.contr.Idx) :
    (dot_S4096x256_S4096x256_S256x256_0_0_1_1_n_n.rhsIdx i q 0).val = (q ⟨0, by decide⟩).val :=
  dot_S4096x256_S4096x256_S256x256_0_0_1_1_n_n.rhsIdx_val_of_single rfl i q
theorem rhs_pay5_1 (i : S256x256.Idx) (q : dot_S4096x256_S4096x256_S256x256_0_0_1_1_n_n.contr.Idx) :
    (dot_S4096x256_S4096x256_S256x256_0_0_1_1_n_n.rhsIdx i q 1).val = (i 1).val := by
  unfold DotDims.rhsIdx
  rw [dif_neg (show ¬(1 : Fin S4096x256.rank) ∈ dot_S4096x256_S4096x256_S256x256_0_0_1_1_n_n.rhsBatch by decide), dif_pos (show (1 : Fin S4096x256.rank) ∈ dot_S4096x256_S4096x256_S256x256_0_0_1_1_n_n.rhsNonContracting by decide)]
  rfl

/-- One tile's update of the grouped sums, at (m, d): the carried value plus the entries d of the tile's rows whose index word is m. -/
theorem pay5_apply (x0 : Vec Ideal S4096x256 .f32) (x1 : Vec Ideal S4096x1 .i32) (s : Vec Ideal S256x256 .f32) (m d : Fin 256) :
    k0_pay5 (F := Ideal) x0 x1 s (ix2 m d)
      = (s (ix2 m d) : EReal) + ∑ r : Fin 4096, (if x1 (ix2 r (0 : Fin 1)) = BitVec.ofNat 32 m.val then (x0 (ix2 r d) : EReal) else 0) := by
  unfold k0_pay5
  rw [shapeCast_self, addf_apply]
  simp only [matmul]
  rw [Ideal.matmul_constant_zero_apply, ← Equiv.sum_comp (contrEquiv1 dot_S4096x256_S4096x256_S256x256_0_0_1_1_n_n 4096 rfl rfl).symm]
  refine congrArg ((s (ix2 m d) : EReal) + ·) (Finset.sum_congr rfl fun k _ => ?_)
  have hk := contrEquiv1_symm_val dot_S4096x256_S4096x256_S256x256_0_0_1_1_n_n 4096 rfl rfl k
  have el : dot_S4096x256_S4096x256_S256x256_0_0_1_1_n_n.lhsIdx (ix2 m d) ((contrEquiv1 dot_S4096x256_S4096x256_S256x256_0_0_1_1_n_n 4096 rfl rfl).symm k) = ix2 k m := funext fun a => Fin.ext (by
    match a with
    | ⟨0, _⟩ => exact (lhs_pay5_0 _ _).trans hk
    | ⟨1, _⟩ => exact lhs_pay5_1 _ _)
  have er : dot_S4096x256_S4096x256_S256x256_0_0_1_1_n_n.rhsIdx (ix2 m d) ((contrEquiv1 dot_S4096x256_S4096x256_S256x256_0_0_1_1_n_n 4096 rfl rfl).symm k) = ix2 k d := funext fun a => Fin.ext (by
    match a with
    | ⟨0, _⟩ => exact (rhs_pay5_0 _ _).trans hk
    | ⟨1, _⟩ => exact rhs_pay5_1 _ _)
  rw [el, er, pay4_apply]
  split
  · exact one_mul _
  · exact zero_mul _

/-- A vector [a] cast to a column [a, 1] reads, at (i, u), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum over the rows of a [4096, 256] tile, at column m. -/
theorem colsum_apply (src : FVec Ideal S4096x256 .f32) (hφ : FKind.Formats .f32)
    (hacc : (0x00000000#32 : BitVec 32) = 0x00000000#32) (m : Fin 256) :
    multiReduction (F := Ideal) .add [0] S256 src 0x00000000#32 reduces_S4096x256_S256 hφ hacc (ix1 m)
      = ∑ r : Fin 4096, (src (ix2 r m) : EReal) := by
  refine (Ideal.multiReduction_add_single src 0x00000000#32 reduces_S4096x256_S256 hφ hacc (ix1 m)).trans ?_
  refine Finset.sum_congr rfl fun r _ => congrArg src (funext fun a => Fin.ext ?_)
  match a with
  | ⟨0, _⟩ => rfl
  | ⟨1, _⟩ => rfl

/-- One tile's update of the counts, at (m, 0): the carried value plus the number of the tile's rows whose index word is m. -/
theorem pay6_apply (x1 : Vec Ideal S4096x1 .i32) (s : Vec Ideal S256x1 .f32) (m : Fin 256) (u : Fin 1) :
    k0_pay6 (F := Ideal) x1 s (ix2 m u)
      = (s (ix2 m u) : EReal) + ∑ r : Fin 4096, (if x1 (ix2 r (0 : Fin 1)) = BitVec.ofNat 32 m.val then (1 : EReal) else 0) := by
  unfold k0_pay6
  rw [shapeCast_self, addf_apply]
  refine congrArg ((s (ix2 m u) : EReal) + ·) ?_
  refine (shapeCast_a_a1_apply _ shapeCasts_S256_S256x1 m u).trans ?_
  refine (colsum_apply _ _ _ m).trans ?_
  exact Finset.sum_congr rfl fun r _ => pay4_apply x1 r m

/-- One tile's update of the column sums, at (0, d): the carried value plus the entries d of all the tile's rows. -/
theorem pay7_apply (x0 : Vec Ideal S4096x256 .f32) (s : Vec Ideal S1x256 .f32) (u : Fin 1) (d : Fin 256) :
    k0_pay7 (F := Ideal) x0 s (ix2 u d) = (s (ix2 u d) : EReal) + ∑ r : Fin 4096, (x0 (ix2 r d) : EReal) := by
  unfold k0_pay7
  rw [shapeCast_self, addf_apply]
  refine congrArg ((s (ix2 u d) : EReal) + ·) ?_
  refine (shapeCast_a_1a_apply _ shapeCasts_S256_S1x256 u d).trans ?_
  exact colsum_apply _ _ _ d

theorem pay1_apply (i : S256x256.Idx) : k0_pay1 (F := Ideal) i = (0 : EReal) := by
  unfold k0_pay1
  rw [shapeCast_self, broadcast_apply]
  exact Ideal.ofBits_zero_f32
theorem pay2_apply (i : S256x1.Idx) : k0_pay2 (F := Ideal) i = (0 : EReal) := by
  unfold k0_pay2
  rw [shapeCast_self, broadcast_apply]
  exact Ideal.ofBits_zero_f32
theorem pay3_apply (i : S1x256.Idx) : k0_pay3 (F := Ideal) i = (0 : EReal) := by
  unfold k0_pay3
  rw [shapeCast_self, broadcast_apply]
  exact Ideal.ofBits_zero_f32

end Payload

section Blocks
variable {F : FTy → Type} [FloatOps F]
variable (V : (c : Dev nD) → (b : Ref sig .tc) → Buf (Elt F) ((c : Thread nD τ).loc b))

/-- The two input windows' block indices, decided over the grid: block t of the rows, the one block of columns. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem row_lt (t : Fin cfg0.N) (r : Fin 4096) : 4096 * t.val + r.val < 262144 := by
  have h1 := t.isLt
  have h2 : cfg0.N = 64 := N_0
  have h3 := r.isLt
  omega

/-- Tile t of the values: its row r is row 4096 t + r of the array. -/
theorem iblk0_0_apply (c : Dev nD) (t : Fin cfg0.N) (r : Fin 4096) (d : Fin 256) :
    (iblk0 V c 0 t : Vec F S4096x256 .f32) (ix2 r d) = V c main_arg0 (ix2 ⟨4096 * t.val + r.val, row_lt t r⟩ d) := by
  obtain ⟨e0, e1, -, -⟩ := idx_facts0 t
  show V c main_arg0 (((cfg0.win 0).blk t).view.emb (ix2 r d)) = _
  refine congrArg (V c main_arg0) (funext fun a => Fin.ext ?_)
  match a with
  | ⟨0, _⟩ => show win0_0.index t (0 : Fin 2) * 4096 + 1 * r.val = 4096 * t.val + r.val; omega
  | ⟨1, _⟩ => show win0_0.index t (1 : Fin 2) * 256 + 1 * d.val = d.val; omega

/-- Tile t of the row indices likewise. -/
theorem iblk0_1_apply (c : Dev nD) (t : Fin cfg0.N) (r : Fin 4096) (u : Fin 1) :
    (iblk0 V c 1 t : Vec F S4096x1 .i32) (ix2 r u) = V c main_v0 (ix2 ⟨4096 * t.val + r.val, row_lt t r⟩ u) := by
  obtain ⟨-, -, e0, e1⟩ := idx_facts0 t
  show V c main_v0 (((cfg0.win 1).blk t).view.emb (ix2 r u)) = _
  refine congrArg (V c main_v0) (funext fun a => Fin.ext ?_)
  match a with
  | ⟨0, _⟩ => show win0_1.index t (0 : Fin 2) * 4096 + 1 * r.val = 4096 * t.val + r.val; omega
  | ⟨1, _⟩ => show win0_1.index t (1 : Fin 2) * 1 + 1 * u.val = u.val; omega

end Blocks

section Acc
variable (V : (c : Dev nD) → (b : Ref sig .tc) → Buf (Elt Ideal) ((c : Thread nD τ).loc b))

/-- Row r's contribution to the grouped sum (m, d): its entry d when its index word is m; 0 otherwise and past the array's end. -/
def sumTerm (c : Dev nD) (m d : Fin 256) (r : ℕ) : EReal :=
  if h : r < 262144 then
    (if V c main_v0 (ix2 ⟨r, h⟩ (0 : Fin 1)) = BitVec.ofNat 32 m.val then (V c main_arg0 (ix2 ⟨r, h⟩ d) : EReal) else 0)
  else 0
/-- Row r's contribution to the count m: 1 when its index word is m. -/
def cntTerm (c : Dev nD) (m : Fin 256) (r : ℕ) : EReal :=
  if h : r < 262144 then (if V c main_v0 (ix2 ⟨r, h⟩ (0 : Fin 1)) = BitVec.ofNat 32 m.val then (1 : EReal) else 0) else 0
/-- Row r's contribution to the column sum d: its entry d. -/
def colTerm (c : Dev nD) (d : Fin 256) (r : ℕ) : EReal :=
  if h : r < 262144 then (V c main_arg0 (ix2 ⟨r, h⟩ d) : EReal) else 0

theorem sumTerm_of_lt (c : Dev nD) (m d : Fin 256) (r : ℕ) (h : r < 262144) : sumTerm V c m d r
    = (if V c main_v0 (ix2 ⟨r, h⟩ (0 : Fin 1)) = BitVec.ofNat 32 m.val then V c main_arg0 (ix2 ⟨r, h⟩ d) else 0 : EReal) := by
  unfold sumTerm; rw [dif_pos h]
theorem cntTerm_of_lt (c : Dev nD) (m : Fin 256) (r : ℕ) (h : r < 262144) : cntTerm V c m r
    = (if V c main_v0 (ix2 ⟨r, h⟩ (0 : Fin 1)) = BitVec.ofNat 32 m.val then (1 : EReal) else 0) := by
  unfold cntTerm; rw [dif_pos h]
theorem colTerm_of_lt (c : Dev nD) (d : Fin 256) (r : ℕ) (h : r < 262144) : colTerm V c d r = (V c main_arg0 (ix2 ⟨r, h⟩ d) : EReal) := by
  unfold colTerm; rw [dif_pos h]

/-- The three carried buffers, read index by index, are the sums of the three contributions over the first k rows. -/
def AccIs (c : Dev nD) (s : Vec Ideal S256x256 .f32 × Vec Ideal S256x1 .f32 × Vec Ideal S1x256 .f32) (k : ℕ) : Prop :=
  (∀ m d : Fin 256, (s.1 (ix2 m d) : EReal) = ∑ r ∈ Finset.range k, sumTerm V c m d r)
    ∧ (∀ (m : Fin 256) (u : Fin 1), (s.2.1 (ix2 m u) : EReal) = ∑ r ∈ Finset.range k, cntTerm V c m r)
    ∧ (∀ (u : Fin 1) (d : Fin 256), (s.2.2 (ix2 u d) : EReal) = ∑ r ∈ Finset.range k, colTerm V c d r)

theorem step0_fst (x0 : Vec Ideal S4096x256 .f32) (x1 : Vec Ideal S4096x1 .i32)
    (s : Vec Ideal S256x256 .f32 × Vec Ideal S256x1 .f32 × Vec Ideal S1x256 .f32) :
    (step0 x0 x1 s).1 = k0_pay5 x0 x1 s.1 := rfl
theorem step0_snd_fst (x0 : Vec Ideal S4096x256 .f32) (x1 : Vec Ideal S4096x1 .i32)
    (s : Vec Ideal S256x256 .f32 × Vec Ideal S256x1 .f32 × Vec Ideal S1x256 .f32) :
    (step0 x0 x1 s).2.1 = k0_pay6 x1 s.2.1 := rfl
theorem step0_snd_snd (x0 : Vec Ideal S4096x256 .f32) (x1 : Vec Ideal S4096x1 .i32)
    (s : Vec Ideal S256x256 .f32 × Vec Ideal S256x1 .f32 × Vec Ideal S1x256 .f32) :
    (step0 x0 x1 s).2.2 = k0_pay7 x0 s.2.2 := rfl

/-- One point adds its tile's 4096 rows: for a tile of values x0 and of row indices x1 that are rows k … k + 4095 of the arrays. -/
theorem accIs_step (c : Dev nD) (k : ℕ) (hk : k + 4096 ≤ 262144) (x0 : Vec Ideal S4096x256 .f32) (x1 : Vec Ideal S4096x1 .i32)
    (h0 : ∀ (r : Fin 4096) (d : Fin 256), x0 (ix2 r d) = V c main_arg0 (ix2 ⟨k + r.val, by have := r.isLt; omega⟩ d))
    (h1 : ∀ (r : Fin 4096), x1 (ix2 r (0 : Fin 1)) = V c main_v0 (ix2 ⟨k + r.val, by have := r.isLt; omega⟩ (0 : Fin 1)))
    (s : Vec Ideal S256x256 .f32 × Vec Ideal S256x1 .f32 × Vec Ideal S1x256 .f32) (ih : AccIs V c s k) :
    AccIs V c (step0 x0 x1 s) (k + 4096) := by
  obtain ⟨ih1, ih2, ih3⟩ := ih
  have hlt : ∀ r : Fin 4096, k + r.val < 262144 := fun r => by have := r.isLt; omega
  refine ⟨fun m d => ?_, fun m u => ?_, fun u d => ?_⟩
  · rw [step0_fst]
    refine (pay5_apply x0 x1 s.1 m d).trans ?_
    refine (congrArg₂ (· + ·) (ih1 m d) ?_).trans (Finset.sum_range_add (sumTerm V c m d) k 4096).symm
    refine Eq.trans ?_ (Finset.sum_range (fun x => sumTerm V c m d (k + x))).symm
    refine Finset.sum_congr rfl fun r _ => ?_
    rw [h1 r, h0 r d]
    exact (sumTerm_of_lt V c m d _ (hlt r)).symm
  · rw [step0_snd_fst]
    refine (pay6_apply x1 s.2.1 m u).trans ?_
    refine (congrArg₂ (· + ·) (ih2 m u) ?_).trans (Finset.sum_range_add (cntTerm V c m) k 4096).symm
    refine Eq.trans ?_ (Finset.sum_range (fun x => cntTerm V c m (k + x))).symm
    refine Finset.sum_congr rfl fun r _ => ?_
    rw [h1 r]
    exact (cntTerm_of_lt V c m _ (hlt r)).symm
  · rw [step0_snd_snd]
    refine (pay7_apply x0 s.2.2 u d).trans ?_
    refine (congrArg₂ (· + ·) (ih3 u d) ?_).trans (Finset.sum_range_add (colTerm V c d) k 4096).symm
    refine Eq.trans ?_ (Finset.sum_range (fun x => colTerm V c d (k + x))).symm
    refine Finset.sum_congr rfl fun r _ => ?_
    rw [h0 r d]
    exact (colTerm_of_lt V c d _ (hlt r)).symm

/-- THE CARRIED BUFFERS AFTER n POINTS: the sums over the first 4096 n rows. By induction on n. -/
theorem acc0_is (c : Dev nD) : ∀ n : ℕ, n ≤ 64 → AccIs V c (acc0 V c n) (4096 * n)
  | 0, _ => by
    rw [acc0_zero]
    refine ⟨fun m d => ?_, fun m u => ?_, fun u d => ?_⟩
    · exact (pay1_apply (ix2 m d)).trans (by rw [Nat.mul_zero, Finset.range_zero, Finset.sum_empty])
    · exact (pay2_apply (ix2 m u)).trans (by rw [Nat.mul_zero, Finset.range_zero, Finset.sum_empty])
    · exact (pay3_apply (ix2 u d)).trans (by rw [Nat.mul_zero, Finset.range_zero, Finset.sum_empty])
  | n + 1, hn => by
    have ih := acc0_is c n (by omega)
    have hN : cfg0.N = 64 := N_0
    have hlt : n < cfg0.N := by omega
    have hs := accIs_step V c (4096 * n) (by omega) (iblk0 V c 0 ⟨n, hlt⟩) (iblk0 V c 1 ⟨n, hlt⟩)
      (fun r d => iblk0_0_apply V c ⟨n, hlt⟩ r d) (fun r => iblk0_1_apply V c ⟨n, hlt⟩ r 0) (acc0 V c n) ih
    rw [← acc0_succ V c ⟨n, hlt⟩] at hs
    have hr : 4096 * (n + 1) = 4096 * n + 4096 := by omega
    rw [hr]
    exact hs

end Acc

section Final
variable {F : FTy → Type} [FloatOps F]
variable (V : (c : Dev nD) → (b : Ref sig .tc) → Buf (Elt F) ((c : Thread nD τ).loc b))

/-- The last point of the grid. -/
def tLast : Fin cfg0.N := ⟨63, by have h : cfg0.N = 64 := N_0; omega⟩

/-- The three output windows' block index is constantly (0, 0): decided over the grid. -/
theorem idx_facts_out : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The one write-back of window 2, at the last point, writes the first carried buffer after all 64 points:
    block (0, 0) of the array, read through zero offsets, is the array. -/
theorem flushed0_2_eq (c : Dev nD) (t : Fin cfg0.N) (hf : (cfg0.win 2).flush t = true) :
    (dat0 V c).flushed 2 t = ((cfg0.win 2).blk t).view.read (Elt F) ((acc0 V c 64).1) := by
  have hN : cfg0.N = 64 := N_0
  have h63 : t.val = 63 := by have := (flush0_2 t).mp hf; have := t.isLt; omega
  show (cfg0.win 2).cut (grid0.coords t) ((dat0 V c).after 2 t) = _
  rw [after0_2, h63]
  have hz' : (fun a => win0_2.index t a * main_v1_0.ty.shape.size a) = fun _ => 0 := funext fun a => by fin_cases a <;> rfl
  exact (Memref.read_access_unit_zero (Elt F) main_v1_0 hz' (fun a => by rw [congrFun hz' a]; simp) ((acc0 V c 64).1)).symm

theorem flushed0_3_eq (c : Dev nD) (t : Fin cfg0.N) (hf : (cfg0.win 3).flush t = true) :
    (dat0 V c).flushed 3 t = ((cfg0.win 3).blk t).view.read (Elt F) ((acc0 V c 64).2.1) := by
  have hN : cfg0.N = 64 := N_0
  have h63 : t.val = 63 := by have := (flush0_3 t).mp hf; have := t.isLt; omega
  show (cfg0.win 3).cut (grid0.coords t) ((dat0 V c).after 3 t) = _
  rw [after0_3, h63]
  have hz' : (fun a => win0_3.index t a * main_v1_1.ty.shape.size a) = fun _ => 0 := funext fun a => by fin_cases a <;> rfl
  exact (Memref.read_access_unit_zero (Elt F) main_v1_1 hz' (fun a => by rw [congrFun hz' a]; simp) ((acc0 V c 64).2.1)).symm

theorem flushed0_4_eq (c : Dev nD) (t : Fin cfg0.N) (hf : (cfg0.win 4).flush t = true) :
    (dat0 V c).flushed 4 t = ((cfg0.win 4).blk t).view.read (Elt F) ((acc0 V c 64).2.2) := by
  have hN : cfg0.N = 64 := N_0
  have h63 : t.val = 63 := by have := (flush0_4 t).mp hf; have := t.isLt; omega
  show (cfg0.win 4).cut (grid0.coords t) ((dat0 V c).after 4 t) = _
  rw [after0_4, h63]
  have hz' : (fun a => win0_4.index t a * main_v1_2.ty.shape.size a) = fun _ => 0 := funext fun a => by fin_cases a <;> rfl
  exact (Memref.read_access_unit_zero (Elt F) main_v1_2 hz' (fun a => by rw [congrFun hz' a]; simp) ((acc0 V c 64).2.2)).symm

/-- An index of the [256, 256] array is in a point's block of window 2 iff each coordinate is in the block's range. -/
theorem mem_blk0_2 (t : Fin cfg0.N) (i : S256x256.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v1_0).slice (win0_2.rect t)).set ↔ _
  rw [View.set_slice_whole, Rect.mem_set_unit]
  exact Iff.rfl
theorem mem_blk0_3 (t : Fin cfg0.N) (i : S256x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v1_1).slice (win0_3.rect t)).set ↔ _
  rw [View.set_slice_whole, Rect.mem_set_unit]
  exact Iff.rfl
theorem mem_blk0_4 (t : Fin cfg0.N) (i : S1x256.Idx) :
    i ∈ ((cfg0.win 4).blk t).view.set ↔ ∀ a : Fin 2, win0_4.index t a * S1x256.size a ≤ (i a).val ∧ (i a).val < win0_4.index t a * S1x256.size a + S1x256.size a := by
  show i ∈ ((View.whole main_v1_2).slice (win0_4.rect t)).set ↔ _
  rw [View.set_slice_whole, Rect.mem_set_unit]
  exact Iff.rfl

/-- So the first result array ends holding the first carried buffer after all 64 points (the last point's block covers it). -/
theorem stats_final2 (c : Dev nD) : (dat0 V c).arrAt 2 cfg0.N = (acc0 V c 64).1 :=
  (dat0 V c).arrAt_eq_of_cover 2 ((acc0 V c 64).1) (flushed0_2_eq V c) fun i =>
    ⟨tLast, (flush0_2 tLast).mpr rfl, by
      obtain ⟨e0, e1, -, -, -, -⟩ := idx_facts_out tLast
      rw [mem_blk0_2]
      intro a
      have h0 : (i 0 : Nat) < 256 := (i 0).isLt
      have h1 : (i 1 : Nat) < 256 := (i 1).isLt
      match a with
      | ⟨0, _⟩ => show win0_2.index tLast (0 : Fin 2) * 256 ≤ (i 0).val ∧ (i 0).val < win0_2.index tLast (0 : Fin 2) * 256 + 256; omega
      | ⟨1, _⟩ => show win0_2.index tLast (1 : Fin 2) * 256 ≤ (i 1).val ∧ (i 1).val < win0_2.index tLast (1 : Fin 2) * 256 + 256; omega⟩

theorem stats_final3 (c : Dev nD) : (dat0 V c).arrAt 3 cfg0.N = (acc0 V c 64).2.1 :=
  (dat0 V c).arrAt_eq_of_cover 3 ((acc0 V c 64).2.1) (flushed0_3_eq V c) fun i =>
    ⟨tLast, (flush0_3 tLast).mpr rfl, by
      obtain ⟨-, -, e0, e1, -, -⟩ := idx_facts_out tLast
      rw [mem_blk0_3]
      intro a
      have h0 : (i 0 : Nat) < 256 := (i 0).isLt
      have h1 : (i 1 : Nat) < 1 := (i 1).isLt
      match a with
      | ⟨0, _⟩ => show win0_3.index tLast (0 : Fin 2) * 256 ≤ (i 0).val ∧ (i 0).val < win0_3.index tLast (0 : Fin 2) * 256 + 256; omega
      | ⟨1, _⟩ => show win0_3.index tLast (1 : Fin 2) * 1 ≤ (i 1).val ∧ (i 1).val < win0_3.index tLast (1 : Fin 2) * 1 + 1; omega⟩

theorem stats_final4 (c : Dev nD) : (dat0 V c).arrAt 4 cfg0.N = (acc0 V c 64).2.2 :=
  (dat0 V c).arrAt_eq_of_cover 4 ((acc0 V c 64).2.2) (flushed0_4_eq V c) fun i =>
    ⟨tLast, (flush0_4 tLast).mpr rfl, by
      obtain ⟨-, -, -, -, e0, e1⟩ := idx_facts_out tLast
      rw [mem_blk0_4]
      intro a
      have h0 : (i 0 : Nat) < 1 := (i 0).isLt
      have h1 : (i 1 : Nat) < 256 := (i 1).isLt
      match a with
      | ⟨0, _⟩ => show win0_4.index tLast (0 : Fin 2) * 1 ≤ (i 0).val ∧ (i 0).val < win0_4.index tLast (0 : Fin 2) * 1 + 1; omega
      | ⟨1, _⟩ => show win0_4.index tLast (1 : Fin 2) * 256 ≤ (i 1).val ∧ (i 1).val < win0_4.index tLast (1 : Fin 2) * 256 + 256; omega⟩

end Final

section Stats
variable (V : (c : Dev nD) → (b : Ref sig .tc) → Buf (Elt Ideal) ((c : Thread nD τ).loc b))

/-- An index word read signed is m exactly when it is the word of m, for m below 256: a negative or an
    out-of-range index is no row's word on either reading. -/
theorem word_eq_iff (w : BitVec 32) (m : Fin 256) : w.toInt = (m.val : Int) ↔ w = BitVec.ofNat 32 m.val := by
  have hm := m.isLt
  have hw := w.isLt
  constructor
  · intro h
    apply BitVec.eq_of_toNat_eq
    rw [BitVec.toNat_ofNat]
    rw [BitVec.toInt_eq_toNat_cond] at h
    split at h <;> omega
  · intro h
    subst h
    rw [BitVec.toInt_eq_toNat_cond, BitVec.toNat_ofNat]
    split <;> omega

/-- The f32 pattern of 1.0 is the extended real 1. -/
theorem ofBits_one_f32 : Ideal.ofBits .f32 0x3F800000#32 = 1 := IdealRules.sign_bit.ideal_onePat .f32

/-- After all 64 points the first carried buffer holds, at (m, d), the sum over ALL rows of the entries d of the rows whose index word is m. -/
theorem acc64_sum (c : Dev nD) (m d : Fin 256) : ((acc0 V c 64).1 (ix2 m d) : EReal)
    = ∑ p : Fin 262144, (if V c main_v0 (ix2 p (0 : Fin 1)) = BitVec.ofNat 32 m.val then V c main_arg0 (ix2 p d) else 0 : EReal) := by
  refine ((acc0_is V c 64 (le_refl _)).1 m d).trans ?_
  show ∑ r ∈ Finset.range 262144, sumTerm V c m d r = _
  refine (Finset.sum_range (sumTerm V c m d)).trans ?_
  exact Finset.sum_congr rfl fun p _ => sumTerm_of_lt V c m d p.val p.isLt

/-- … the second, at (m, 0), the number of rows whose index word is m … -/
theorem acc64_cnt (c : Dev nD) (m : Fin 256) (u : Fin 1) : ((acc0 V c 64).2.1 (ix2 m u) : EReal)
    = ∑ p : Fin 262144, (if V c main_v0 (ix2 p (0 : Fin 1)) = BitVec.ofNat 32 m.val then (1 : EReal) else 0) := by
  refine ((acc0_is V c 64 (le_refl _)).2.1 m u).trans ?_
  show ∑ r ∈ Finset.range 262144, cntTerm V c m r = _
  refine (Finset.sum_range (cntTerm V c m)).trans ?_
  exact Finset.sum_congr rfl fun p _ => cntTerm_of_lt V c m p.val p.isLt

/-- … and the third, at (0, d), the sum over all rows of the entries d. -/
theorem acc64_col (c : Dev nD) (u : Fin 1) (d : Fin 256) : ((acc0 V c 64).2.2 (ix2 u d) : EReal)
    = ∑ p : Fin 262144, colTerm V c d p.val := by
  refine ((acc0_is V c 64 (le_refl _)).2.2 u d).trans ?_
  show ∑ r ∈ Finset.range 262144, colTerm V c d r = _
  exact Finset.sum_range (colTerm V c d)

/-- THE GROUPED SUMS: the first result array is the reference's scatter-add of the rows of the values into zeros
    at the row indices (its segment sum), when the kernel's index column is the reference's. -/
theorem stats_sum (c : Dev nD)
    (hidx : (V c main_v0 : (⟨S262144x1, .i32⟩ : BufTy).Contents (Elt Ideal))
      = broadcastInDim S262144x1 ![0] Cert.ReferenceIdeal.Facts₀.bcast_S262144_S262144x1_0 (V c main_arg1)) :
    ((dat0 V c).arrAt 2 cfg0.N : (⟨S256x256, .f32⟩ : BufTy).Contents (Elt Ideal))
      = Cert.ReferenceIdeal.Read.val_main_v45 (F := Ideal) (V c main_arg0) (V c main_arg1) := by
  rw [stats_final2]
  funext i
  obtain ⟨m, d, rfl⟩ : ∃ (m : Fin 256) (d : Fin 256), i = ix2 m d := ⟨i 0, i 1, eq_ix2 i⟩
  refine (acc64_sum V c m d).trans ?_
  symm
  unfold Cert.ReferenceIdeal.Read.val_main_v45
  refine (Cert.LibRows.rowScatterAdd_apply Cert.ReferenceIdeal.Gen.scatter_S256x256_S262144x1_S262144x256_1_0_0_1_wf _ _ _ m d).trans ?_
  rw [Cert.ReferenceIdeal.Read.val_main_v43_apply, Cert.ReferenceIdeal.Read.val_main_cst_7_apply]
  show Ideal.ofBits .f32 0x00000000#32 + _ = _
  rw [Ideal.ofBits_zero_f32, zero_add]
  refine Finset.sum_congr rfl fun p _ => ?_
  have hv : Cert.ReferenceIdeal.Read.val_main_v44 (F := Ideal) (V c main_arg1) = V c main_v0 := hidx.symm
  rw [hv]
  exact if_congr (word_eq_iff _ m) rfl rfl

/-- THE COUNTS: the second result array is the reference's scatter-add of ones into zeros at the row indices. -/
theorem stats_cnt (c : Dev nD)
    (hidx : (V c main_v0 : (⟨S262144x1, .i32⟩ : BufTy).Contents (Elt Ideal))
      = broadcastInDim S262144x1 ![0] Cert.ReferenceIdeal.Facts₀.bcast_S262144_S262144x1_0 (V c main_arg1)) :
    ((dat0 V c).arrAt 3 cfg0.N : (⟨S256x1, .f32⟩ : BufTy).Contents (Elt Ideal))
      = Cert.ReferenceIdeal.Read.val_main_v49 (F := Ideal) (V c main_arg1) := by
  rw [stats_final3]
  funext i
  obtain ⟨m, u, rfl⟩ : ∃ (m : Fin 256) (u : Fin 1), i = ix2 m u := ⟨i 0, i 1, eq_ix2 i⟩
  refine (acc64_cnt V c m u).trans ?_
  symm
  unfold Cert.ReferenceIdeal.Read.val_main_v49
  refine (Cert.LibRows.rowScatterAdd_apply Cert.ReferenceIdeal.Gen.scatter_S256x1_S262144x1_S262144x1_1_0_0_1_wf _ _ _ m u).trans ?_
  rw [Cert.ReferenceIdeal.Read.val_main_v47_apply, Cert.ReferenceIdeal.Read.val_main_cst_9_apply]
  show Ideal.ofBits .f32 0x00000000#32 + _ = _
  rw [Ideal.ofBits_zero_f32, zero_add]
  refine Finset.sum_congr rfl fun p _ => ?_
  have hv : Cert.ReferenceIdeal.Read.val_main_v48 (F := Ideal) (V c main_arg1) = V c main_v0 := hidx.symm
  rw [hv, Cert.ReferenceIdeal.Read.val_main_v46_apply, Cert.ReferenceIdeal.Read.val_main_cst_8_apply]
  show (if _ then Ideal.ofBits .f32 0x3F800000#32 else 0) = _
  rw [ofBits_one_f32]
  exact if_congr (word_eq_iff _ m) rfl rfl

/-- THE COLUMN SUMS: the third result array is the reference's sum of the values over their rows, as a [1, 256] row. -/
theorem stats_gsum (c : Dev nD) :
    ((dat0 V c).arrAt 4 cfg0.N : (⟨S1x256, .f32⟩ : BufTy).Contents (Elt Ideal))
      = Cert.ReferenceIdeal.Read.val_main_v83 (F := Ideal) (V c main_arg0) := by
  rw [stats_final4]
  funext i
  obtain ⟨u, d, rfl⟩ : ∃ (u : Fin 1) (d : Fin 256), i = ix2 u d := ⟨i 0, i 1, eq_ix2 i⟩
  refine (acc64_col V c u d).trans ?_
  symm
  rw [Cert.ReferenceIdeal.Read.val_main_v83_apply, Cert.ReferenceIdeal.Read.val_main_v82_apply,
    Cert.ReferenceIdeal.Read.val_main_cst_15_apply]
  show Ideal.ofBits .f32 0x00000000#32 + _ = _
  rw [Ideal.ofBits_zero_f32, zero_add]
  refine Finset.sum_congr rfl fun k _ => ?_
  refine Eq.trans ?_ (colTerm_of_lt V c d k.val k.isLt).symm
  refine congrArg (V c main_arg0) (funext fun a => Fin.ext ?_)
  match a with
  | ⟨0, _⟩ => rfl
  | ⟨1, _⟩ => rfl

/-- THE INDEX COLUMN: the [262144] index vector reshaped to a [262144, 1] column is its broadcast along axis 0:
    entry (p, 0) of either is the vector's entry p. -/
theorem col_of_reshape (x : (⟨S262144, .i32⟩ : BufTy).Contents (Elt Ideal)) :
    shapeCast S262144x1 x shapeCasts_S262144_S262144x1
      = broadcastInDim S262144x1 ![0] Cert.ReferenceIdeal.Facts₀.bcast_S262144_S262144x1_0 x := by
  funext i
  obtain ⟨p, u, rfl⟩ : ∃ (p : Fin 262144) (u : Fin 1), i = ix2 p u := ⟨i 0, i 1, eq_ix2 i⟩
  refine (shapeCast_a_a1_apply x shapeCasts_S262144_S262144x1 p u).trans ?_
  symm
  exact broadcastInDim_apply _ Cert.ReferenceIdeal.Facts₀.bcast_S262144_S262144x1_0 x (ix2 p u) (ix1 p) (fun a => match a with
    | ⟨0, _⟩ => by show p.val = if (262144 : Nat) = 1 then 0 else p.val; rw [if_neg (by decide)])

end Stats

end Cert.KernelIdeal.Hand

end
-- ==== Proof.KI.Attn1.lean ====
/-
  The dense attention call, read at the ideal values, index by index: one row of the result is the softmax of that
  row's scaled scores against all keys, times the values. The payload of one grid point and the host's chain of
  operations are both that row formula; the row maximum is carried as a fold of max over the keys, never evaluated.
-/
import proofs.«427711_j70531952934916_2_alg».proof.Proof.KI.Frame1
import proofs.«427711_j70531952934916_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat Cfg Window)

variable [Cert.KernelIdeal.Facts] [Cert.ReferenceIdeal.Facts]

/-! ## The three literals -/

/-- The scale the payload multiplies by is the dyadic 1/16. -/
theorem ofBits_sixteenth : Ideal.ofBits .f32 0x3D800000#32 = ((1 / 16 : ℝ) : EReal) := by
  simp [Ideal.ofBits, Ideal.ieee, -EReal.coe_mul]; norm_num

/-- The divisor the host divides by is 16. -/
theorem ofBits_sixteen : Ideal.ofBits .f32 0x41800000#32 = ((16 : ℝ) : EReal) := by
  simp [Ideal.ofBits, Ideal.ieee, -EReal.coe_mul]; norm_num

/-- The initial value of both maxima is the bottom of the extended reals. -/
theorem ofBits_neg_inf : Ideal.ofBits .f32 0xFF800000#32 = ⊥ := by
  simp [Ideal.ofBits, Ideal.ieee]

/-- A product with 1/16 is the quotient by 16, on every extended real. -/
theorem mul_sixteenth (x : EReal) :
    x * Ideal.ofBits .f32 0x3D800000#32 = Ideal.div x (Ideal.ofBits .f32 0x41800000#32) := by
  rw [ofBits_sixteenth, ofBits_sixteen, Ideal.div_coe (by norm_num : (16 : ℝ) ≠ 0)]

/-! ## The row formula -/

/-- The scaled score of a query row against key j. -/
def scoreK (qr : Fin 256 → EReal) (k : FVec Ideal S8192x256 .f32) (j : Fin 8192) : EReal :=
  (∑ c : Fin 256, qr c * k (ix2 j c)) * Ideal.ofBits .f32 0x3D800000#32

/-- The row's maximum score, as the fold of max from the bottom over the keys. -/
def rowMax (qr : Fin 256 → EReal) (k : FVec Ideal S8192x256 .f32) : EReal :=
  (Finset.univ : Finset (Fin 8192)).fold max (Ideal.ofBits .f32 0xFF800000#32) (scoreK qr k)

/-- The exponential of a score less the row's maximum. -/
def expK (qr : Fin 256 → EReal) (k : FVec Ideal S8192x256 .f32) (j : Fin 8192) : EReal :=
  Ideal.exp (scoreK qr k j - rowMax qr k)

/-- One entry of the attention result for a query row: the softmax weights against the values' column d. -/
def rowAttn (qr : Fin 256 → EReal) (k v : FVec Ideal S8192x256 .f32) (d : Fin 256) : EReal :=
  ∑ j : Fin 8192, Ideal.div (expK qr k j) (∑ j' : Fin 8192, expK qr k j') * v (ix2 j d)

/-! ## The payload's two products as sums -/

theorem lhs_mm1_0 (i : S256x8192.Idx) (q : dot_S256x256_S256x8192_S256x8192_1_0_0_1_n_n.contr.Idx) :
    (dot_S256x256_S256x8192_S256x8192_1_0_0_1_n_n.lhsIdx i q 0).val = (i 0).val := by
  unfold DotDims.lhsIdx
  rw [dif_neg (show ¬(0 : Fin S256x256.rank) ∈ dot_S256x256_S256x8192_S256x8192_1_0_0_1_n_n.lhsBatch by decide), dif_pos (show (0 : Fin S256x256.rank) ∈ dot_S256x256_S256x8192_S256x8192_1_0_0_1_n_n.lhsNonContracting by decide)]
  rfl
theorem lhs_mm1_1 (i : S256x8192.Idx) (q : dot_S256x256_S256x8192_S256x8192_1_0_0_1_n_n.contr.Idx) :
    (dot_S256x256_S256x8192_S256x8192_1_0_0_1_n_n.lhsIdx i q 1).val = (q ⟨0, by decide⟩).val :=
  dot_S256x256_S256x8192_S256x8192_1_0_0_1_n_n.lhsIdx_val_of_single rfl i q
theorem rhs_mm1_0 (i : S256x8192.Idx) (q : dot_S256x256_S256x8192_S256x8192_1_0_0_1_n_n.contr.Idx) :
    (dot_S256x256_S256x8192_S256x8192_1_0_0_1_n_n.rhsIdx i q 0).val = (q ⟨0, by decide⟩).val :=
  dot_S256x256_S256x8192_S256x8192_1_0_0_1_n_n.rhsIdx_val_of_single rfl i q
theorem rhs_mm1_1 (i : S256x8192.Idx) (q : dot_S256x256_S256x8192_S256x8192_1_0_0_1_n_n.contr.Idx) :
    (dot_S256x256_S256x8192_S256x8192_1_0_0_1_n_n.rhsIdx i q 1).val = (i 1).val := by
  unfold DotDims.rhsIdx
  rw [dif_neg (show ¬(1 : Fin S256x8192.rank) ∈ dot_S256x256_S256x8192_S256x8192_1_0_0_1_n_n.rhsBatch by decide), dif_pos (show (1 : Fin S256x8192.rank) ∈ dot_S256x256_S256x8192_S256x8192_1_0_0_1_n_n.rhsNonContracting by decide)]
  rfl

/-- The score product at (p, j): the sum over the feature axis. -/
theorem mm1_apply (a : FVec Ideal S256x256 .bf16) (b : FVec Ideal S256x8192 .bf16) (p : Fin 256) (j : Fin 8192) :
    matmul dot_S256x256_S256x8192_S256x8192_1_0_0_1_n_n none a b (constant (F := Ideal) S256x8192 .f32 0x00000000#32) (ix2 p j)
      = ∑ c : Fin 256, a (ix2 p c) * b (ix2 c j) := by
  simp only [matmul]
  rw [Ideal.matmul_constant_zero_apply, ← Equiv.sum_comp (contrEquiv1 dot_S256x256_S256x8192_S256x8192_1_0_0_1_n_n 256 rfl rfl).symm]
  refine Finset.sum_congr rfl fun c _ => ?_
  have hk := contrEquiv1_symm_val dot_S256x256_S256x8192_S256x8192_1_0_0_1_n_n 256 rfl rfl c
  have el : dot_S256x256_S256x8192_S256x8192_1_0_0_1_n_n.lhsIdx (ix2 p j) ((contrEquiv1 dot_S256x256_S256x8192_S256x8192_1_0_0_1_n_n 256 rfl rfl).symm c) = ix2 p c := funext fun x => Fin.ext (by
    match x with
    | ⟨0, _⟩ => exact lhs_mm1_0 _ _
    | ⟨1, _⟩ => exact (lhs_mm1_1 _ _).trans hk)
  have er : dot_S256x256_S256x8192_S256x8192_1_0_0_1_n_n.rhsIdx (ix2 p j) ((contrEquiv1 dot_S256x256_S256x8192_S256x8192_1_0_0_1_n_n 256 rfl rfl).symm c) = ix2 c j := funext fun x => Fin.ext (by
    match x with
    | ⟨0, _⟩ => exact (rhs_mm1_0 _ _).trans hk
    | ⟨1, _⟩ => exact rhs_mm1_1 _ _)
  rw [el, er]

theorem lhs_mm2_0 (i : S256x256.Idx) (q : dot_S256x8192_S8192x256_S256x256_1_0_0_1_n_n.contr.Idx) :
    (dot_S256x8192_S8192x256_S256x256_1_0_0_1_n_n.lhsIdx i q 0).val = (i 0).val := by
  unfold DotDims.lhsIdx
  rw [dif_neg (show ¬(0 : Fin S256x8192.rank) ∈ dot_S256x8192_S8192x256_S256x256_1_0_0_1_n_n.lhsBatch by decide), dif_pos (show (0 : Fin S256x8192.rank) ∈ dot_S256x8192_S8192x256_S256x256_1_0_0_1_n_n.lhsNonContracting by decide)]
  rfl
theorem lhs_mm2_1 (i : S256x256.Idx) (q : dot_S256x8192_S8192x256_S256x256_1_0_0_1_n_n.contr.Idx) :
    (dot_S256x8192_S8192x256_S256x256_1_0_0_1_n_n.lhsIdx i q 1).val = (q ⟨0, by decide⟩).val :=
  dot_S256x8192_S8192x256_S256x256_1_0_0_1_n_n.lhsIdx_val_of_single rfl i q
theorem rhs_mm2_0 (i : S256x256.Idx) (q : dot_S256x8192_S8192x256_S256x256_1_0_0_1_n_n.contr.Idx) :
    (dot_S256x8192_S8192x256_S256x256_1_0_0_1_n_n.rhsIdx i q 0).val = (q ⟨0, by decide⟩).val :=
  dot_S256x8192_S8192x256_S256x256_1_0_0_1_n_n.rhsIdx_val_of_single rfl i q
theorem rhs_mm2_1 (i : S256x256.Idx) (q : dot_S256x8192_S8192x256_S256x256_1_0_0_1_n_n.contr.Idx) :
    (dot_S256x8192_S8192x256_S256x256_1_0_0_1_n_n.rhsIdx i q 1).val = (i 1).val := by
  unfold DotDims.rhsIdx
  rw [dif_neg (show ¬(1 : Fin S8192x256.rank) ∈ dot_S256x8192_S8192x256_S256x256_1_0_0_1_n_n.rhsBatch by decide), dif_pos (show (1 : Fin S8192x256.rank) ∈ dot_S256x8192_S8192x256_S256x256_1_0_0_1_n_n.rhsNonContracting by decide)]
  rfl

/-- The product with the values at (p, d): the sum over the keys. -/
theorem mm2_apply (a : FVec Ideal S256x8192 .bf16) (b : FVec Ideal S8192x256 .bf16) (p d : Fin 256) :
    matmul dot_S256x8192_S8192x256_S256x256_1_0_0_1_n_n none a b (constant (F := Ideal) S256x256 .f32 0x00000000#32) (ix2 p d)
      = ∑ j : Fin 8192, a (ix2 p j) * b (ix2 j d) := by
  simp only [matmul]
  rw [Ideal.matmul_constant_zero_apply, ← Equiv.sum_comp (contrEquiv1 dot_S256x8192_S8192x256_S256x256_1_0_0_1_n_n 8192 rfl rfl).symm]
  refine Finset.sum_congr rfl fun j _ => ?_
  have hk := contrEquiv1_symm_val dot_S256x8192_S8192x256_S256x256_1_0_0_1_n_n 8192 rfl rfl j
  have el : dot_S256x8192_S8192x256_S256x256_1_0_0_1_n_n.lhsIdx (ix2 p d) ((contrEquiv1 dot_S256x8192_S8192x256_S256x256_1_0_0_1_n_n 8192 rfl rfl).symm j) = ix2 p j := funext fun x => Fin.ext (by
    match x with
    | ⟨0, _⟩ => exact lhs_mm2_0 _ _
    | ⟨1, _⟩ => exact (lhs_mm2_1 _ _).trans hk)
  have er : dot_S256x8192_S8192x256_S256x256_1_0_0_1_n_n.rhsIdx (ix2 p d) ((contrEquiv1 dot_S256x8192_S8192x256_S256x256_1_0_0_1_n_n 8192 rfl rfl).symm j) = ix2 j d := funext fun x => Fin.ext (by
    match x with
    | ⟨0, _⟩ => exact (rhs_mm2_0 _ _).trans hk
    | ⟨1, _⟩ => exact rhs_mm2_1 _ _)
  rw [el, er]

/-! ## A row statistic kept as a column and spread back over the row -/

/-- A vector over the rows, cast to a column and broadcast over the lanes, reads at (p, j) the vector at p. -/
theorem column_spread_apply {α : Type} (y : S256.Idx → α) (p : Fin 256) (j : Fin 8192) :
    broadcastTo S256x8192 (shapeCast S256x1 y shapeCasts_S256_S256x1) broadcasts_S256x1_S256x8192 (ix2 p j) = y (ix1 p) := by
  rw [broadcastTo_apply _ broadcasts_S256x1_S256x8192 (ix2 p j) (ix2 p (0 : Fin 1)) (fun a => match a with
    | ⟨0, _⟩ => by show p.val = if (256 : Nat) = 1 then 0 else p.val; rw [if_neg (by decide)]
    | ⟨1, _⟩ => by show 0 = if (1 : Nat) = 1 then 0 else j.val; rw [if_pos rfl])]
  exact shapeCast_apply y shapeCasts_S256_S256x1 (ix2 p (0 : Fin 1)) (ix1 p) (by
    rw [Shape.rowMajor_val_two, Shape.rowMajor_val_one]
    show p.val = p.val * 1 + 0
    omega)

/-- The lane maximum of a 256 × 8192 block at row p: the fold of max from the bottom over the row. -/
theorem lane_max_apply (x : FVec Ideal S256x8192 .f32) (p : Fin 256) :
    multiReduction (F := Ideal) .maximumf [1] S256 x 0xFF800000#32 reduces_S256x8192_S256 (.inl rfl) rfl (ix1 p)
      = (Finset.univ : Finset (Fin 8192)).fold max (Ideal.ofBits .f32 0xFF800000#32) (fun j => x (ix2 p j)) := by
  refine (Ideal.multiReduction_maximumf_single x 0xFF800000#32 reduces_S256x8192_S256 (.inl rfl) rfl (ix1 p)).trans ?_
  refine congrArg (Finset.fold max _ · _) (funext fun j => congrArg x (funext fun a => Fin.ext ?_))
  match a with
  | ⟨0, _⟩ => rfl
  | ⟨1, _⟩ => rfl

/-- The lane sum of a 256 × 8192 block at row p: the sum over the row. -/
theorem lane_sum_apply (x : FVec Ideal S256x8192 .f32) (p : Fin 256) :
    multiReduction (F := Ideal) .add [1] S256 x 0x00000000#32 reduces_S256x8192_S256 (.inl rfl) rfl (ix1 p)
      = ∑ j : Fin 8192, x (ix2 p j) := by
  refine (Ideal.multiReduction_add_single x 0x00000000#32 reduces_S256x8192_S256 (.inl rfl) rfl (ix1 p)).trans ?_
  refine Finset.sum_congr rfl fun j _ => congrArg x (funext fun a => Fin.ext ?_)
  match a with
  | ⟨0, _⟩ => rfl
  | ⟨1, _⟩ => rfl

/-! ## The payload as three stages -/

/-- The scaled scores of a block of query rows against all keys. -/
def kScores (qb : FVec Ideal S256x256 .f32) (k : FVec Ideal S8192x256 .f32) : FVec Ideal S256x8192 .f32 :=
  mulf (matmul dot_S256x256_S256x8192_S256x8192_1_0_0_1_n_n none
      (truncf .bf16 (shapeCast S256x256 qb shapeCasts_S256x256_S256x256) bitsLt_bf16_f32)
      (transpose S256x8192 [1, 0] (truncf .bf16 (shapeCast S8192x256 k shapeCasts_S8192x256_S8192x256) bitsLt_bf16_f32) transposes_S8192x256_p1_0_S256x8192)
      (constant (F := Ideal) S256x8192 .f32 0x00000000#32))
    (broadcast S256x8192 (Scalar.ofBits (F := Ideal) .f32 0x3D800000#32))

/-- The exponentials of the scores less each row's maximum. -/
def kExp (s : FVec Ideal S256x8192 .f32) : FVec Ideal S256x8192 .f32 :=
  exp (subf s (broadcastTo S256x8192 (shapeCast S256x1
    (multiReduction (F := Ideal) .maximumf [1] S256 s 0xFF800000#32 reduces_S256x8192_S256 (.inl rfl) rfl) shapeCasts_S256_S256x1) broadcasts_S256x1_S256x8192))

/-- The exponentials divided by each row's sum. -/
def kSoft (e : FVec Ideal S256x8192 .f32) : FVec Ideal S256x8192 .bf16 :=
  truncf .bf16 (divf e (broadcastTo S256x8192 (shapeCast S256x1
    (multiReduction (F := Ideal) .add [1] S256 e 0x00000000#32 reduces_S256x8192_S256 (.inl rfl) rfl) shapeCasts_S256_S256x1) broadcasts_S256x1_S256x8192)) bitsLt_bf16_f32

/-- The payload is the product of the third stage with the values. -/
theorem pay_eq_stages (qb : FVec Ideal S256x256 .f32) (k v : FVec Ideal S8192x256 .f32) :
    k1_pay1 (F := Ideal) qb k v = matmul dot_S256x8192_S8192x256_S256x256_1_0_0_1_n_n none (kSoft (kExp (kScores qb k)))
      (truncf .bf16 (shapeCast S8192x256 v shapeCasts_S8192x256_S8192x256) bitsLt_bf16_f32) (constant (F := Ideal) S256x256 .f32 0x00000000#32) := rfl

theorem kScores_apply (qb : FVec Ideal S256x256 .f32) (k : FVec Ideal S8192x256 .f32) (p : Fin 256) (j : Fin 8192) :
    kScores qb k (ix2 p j) = scoreK (fun c => qb (ix2 p c)) k j := by
  unfold kScores scoreK
  rw [mulf_apply, mm1_apply]
  refine congrArg₂ (· * ·) (Finset.sum_congr rfl fun c _ => ?_) rfl
  rw [transpose_ix2_apply, shapeCast_self, shapeCast_self]
  rfl

theorem kExp_apply (s : FVec Ideal S256x8192 .f32) (p : Fin 256) (j : Fin 8192) :
    kExp s (ix2 p j) = Ideal.exp (s (ix2 p j) - (Finset.univ : Finset (Fin 8192)).fold max (Ideal.ofBits .f32 0xFF800000#32) (fun j' => s (ix2 p j'))) := by
  unfold kExp
  show Ideal.exp (s (ix2 p j) - _) = _
  rw [column_spread_apply, lane_max_apply]

theorem kSoft_apply (e : FVec Ideal S256x8192 .f32) (p : Fin 256) (j : Fin 8192) :
    kSoft e (ix2 p j) = Ideal.div (e (ix2 p j)) (∑ j' : Fin 8192, e (ix2 p j')) := by
  unfold kSoft
  show Ideal.div (e (ix2 p j)) _ = _
  rw [column_spread_apply, lane_sum_apply]

/-- The payload at (p, d) is the row formula of query row p of the block. -/
theorem pay_apply (qb : FVec Ideal S256x256 .f32) (k v : FVec Ideal S8192x256 .f32) (p d : Fin 256) :
    k1_pay1 (F := Ideal) qb k v (ix2 p d) = rowAttn (fun c => qb (ix2 p c)) k v d := by
  rw [pay_eq_stages, mm2_apply]
  unfold rowAttn
  refine Finset.sum_congr rfl fun j _ => ?_
  rw [kSoft_apply, shapeCast_self]
  refine congrArg₂ (· * ·) (congrArg₂ Ideal.div ?_ (Finset.sum_congr rfl fun j' _ => ?_)) rfl
  · rw [kExp_apply]; unfold expK rowMax
    rw [kScores_apply]
    refine congrArg (fun m => Ideal.exp (_ - m)) (congrArg (Finset.fold max _ · _) (funext fun j' => kScores_apply qb k p j'))
  · rw [kExp_apply]; unfold expK rowMax
    rw [kScores_apply]
    refine congrArg (fun m => Ideal.exp (_ - m)) (congrArg (Finset.fold max _ · _) (funext fun j'' => kScores_apply qb k p j''))

/-! ## The host's chain of operations, as one term over the queries, keys and values -/

/-- The host's scores: the queries against the transposed keys, divided by 16. -/
def refScores (q k : FVec Ideal S8192x256 .f32) : FVec Ideal Cert.ReferenceIdeal.S8192x8192 .f32 :=
  Host.divf (Host.dotGeneral Cert.ReferenceIdeal.dot_S8192x256_S256x8192_S8192x8192_1_0_0_1_n_n none q
      (transpose Cert.ReferenceIdeal.S256x8192 [1, 0] k Cert.ReferenceIdeal.Facts₀.transposes_S8192x256_S256x8192_1_0))
    (broadcastInDim Cert.ReferenceIdeal.S8192x8192 ![] Cert.ReferenceIdeal.Facts₀.bcast_S_S8192x8192 (constant (F := Ideal) Cert.ReferenceIdeal.S_ .f32 0x41800000#32))

/-- The host's row maxima: the reduce from the bottom, then the maximum with a row of bottoms. -/
def refMax (s : FVec Ideal Cert.ReferenceIdeal.S8192x8192 .f32) : FVec Ideal Cert.ReferenceIdeal.S8192 .f32 :=
  maximumf (broadcastInDim Cert.ReferenceIdeal.S8192 ![] Cert.ReferenceIdeal.Facts₀.bcast_S_S8192 (constant (F := Ideal) Cert.ReferenceIdeal.S_ .f32 0xFF800000#32))
    (Host.reduce FloatOps.maximumf s (constant (F := Ideal) Cert.ReferenceIdeal.S_ .f32 0xFF800000#32) Cert.ReferenceIdeal.Facts₀.reducesTo_S8192x8192_S8192_d1 Cert.ReferenceIdeal.Facts₀.h_S_)

/-- The host's exponentials of the scores less the row maxima. -/
def refExp (s : FVec Ideal Cert.ReferenceIdeal.S8192x8192 .f32) : FVec Ideal Cert.ReferenceIdeal.S8192x8192 .f32 :=
  Host.exp (subf s (broadcastInDim Cert.ReferenceIdeal.S8192x8192 ![0, 1] Cert.ReferenceIdeal.Facts₀.bcast_S8192x1_S8192x8192_0_1
    (broadcastInDim Cert.ReferenceIdeal.S8192x1 ![0] Cert.ReferenceIdeal.Facts₀.bcast_S8192_S8192x1_0 (refMax s))))

/-- The host's exponentials divided by the row sums. -/
def refSoft (e : FVec Ideal Cert.ReferenceIdeal.S8192x8192 .f32) : FVec Ideal Cert.ReferenceIdeal.S8192x8192 .f32 :=
  Host.divf e (broadcastInDim Cert.ReferenceIdeal.S8192x8192 ![0, 1] Cert.ReferenceIdeal.Facts₀.bcast_S8192x1_S8192x8192_0_1
    (broadcastInDim Cert.ReferenceIdeal.S8192x1 ![0] Cert.ReferenceIdeal.Facts₀.bcast_S8192_S8192x1_0
      (Host.reduceAdd e (constant (F := Ideal) Cert.ReferenceIdeal.S_ .f32 0x00000000#32) Cert.ReferenceIdeal.Facts₀.reducesTo_S8192x8192_S8192_d1 Cert.ReferenceIdeal.Facts₀.h_S_)))

/-- The host's attention over all rows at once. -/
def attnR (q k v : FVec Ideal S8192x256 .f32) : FVec Ideal S8192x256 .f32 :=
  Host.dotGeneral Cert.ReferenceIdeal.dot_S8192x8192_S8192x256_S8192x256_1_0_0_1_n_n none (refSoft (refExp (refScores q k))) v

/-- The reference's result of its attention stretch is that term of its queries, keys and values. -/
theorem val_v42_eq (x0 : (⟨Cert.ReferenceIdeal.S262144x256, .f32⟩ : BufTy).Contents (Elt Ideal)) (x2 : (⟨Cert.ReferenceIdeal.S262144, .i32⟩ : BufTy).Contents (Elt Ideal))
    (x7 : (⟨Cert.ReferenceIdeal.S256x256, .f32⟩ : BufTy).Contents (Elt Ideal)) (x8 : (⟨Cert.ReferenceIdeal.S256, .f32⟩ : BufTy).Contents (Elt Ideal))
    (x9 : (⟨Cert.ReferenceIdeal.S256x256, .f32⟩ : BufTy).Contents (Elt Ideal)) (x10 : (⟨Cert.ReferenceIdeal.S256, .f32⟩ : BufTy).Contents (Elt Ideal))
    (x11 : (⟨Cert.ReferenceIdeal.S256x256, .f32⟩ : BufTy).Contents (Elt Ideal)) (x12 : (⟨Cert.ReferenceIdeal.S256, .f32⟩ : BufTy).Contents (Elt Ideal)) :
    Cert.ReferenceIdeal.Read.val_main_v42 (F := Ideal) x0 x2 x7 x8 x9 x10 x11 x12
      = attnR (Cert.ReferenceIdeal.Read.val_main_v18 (F := Ideal) x0 x2 x11 x12) (Cert.ReferenceIdeal.Read.val_main_v22 (F := Ideal) x0 x2 x9 x10) (Cert.ReferenceIdeal.Read.val_main_v26 (F := Ideal) x0 x2 x7 x8) := by
  unfold Cert.ReferenceIdeal.Read.val_main_v42 Cert.ReferenceIdeal.Read.val_main_v41 Cert.ReferenceIdeal.Read.val_main_v40 Cert.ReferenceIdeal.Read.val_main_v39 Cert.ReferenceIdeal.Read.val_main_v38 Cert.ReferenceIdeal.Read.val_main_v37 Cert.ReferenceIdeal.Read.val_main_v36 Cert.ReferenceIdeal.Read.val_main_v35
    Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_v27
    Cert.ReferenceIdeal.Read.val_main_cst_3 Cert.ReferenceIdeal.Read.val_main_cst_4 Cert.ReferenceIdeal.Read.val_main_cst_5 Cert.ReferenceIdeal.Read.val_main_cst_6 attnR refSoft refExp refMax refScores
  rfl

/-! ## The host's chain at an index -/

/-- The host's score product at (i, j): the sum over the feature axis. -/
theorem hostScore_apply (a : FVec Ideal S8192x256 .f32) (b : FVec Ideal Cert.ReferenceIdeal.S256x8192 .f32) (i j : Fin 8192) :
    Host.dotGeneral Cert.ReferenceIdeal.dot_S8192x256_S256x8192_S8192x8192_1_0_0_1_n_n none a b (ix2 i j) = ∑ c : Fin 256, a (ix2 i c) * b (ix2 c j) := by
  simp only [Host.dotGeneral]
  rw [Ideal.dotGeneral_apply, ← Equiv.sum_comp (contrEquiv1 Cert.ReferenceIdeal.dot_S8192x256_S256x8192_S8192x8192_1_0_0_1_n_n 256 rfl rfl).symm]
  refine Finset.sum_congr rfl fun c _ => ?_
  have hk := contrEquiv1_symm_val Cert.ReferenceIdeal.dot_S8192x256_S256x8192_S8192x8192_1_0_0_1_n_n 256 rfl rfl c
  have el : Cert.ReferenceIdeal.dot_S8192x256_S256x8192_S8192x8192_1_0_0_1_n_n.lhsIdx (ix2 i j) ((contrEquiv1 Cert.ReferenceIdeal.dot_S8192x256_S256x8192_S8192x8192_1_0_0_1_n_n 256 rfl rfl).symm c) = ix2 i c := funext fun x => Fin.ext (by
    match x with
    | ⟨0, _⟩ => exact Cert.ReferenceIdeal.Read.lhs_main_v28_0 _ _
    | ⟨1, _⟩ => exact (Cert.ReferenceIdeal.Read.lhs_main_v28_1 _ _).trans hk)
  have er : Cert.ReferenceIdeal.dot_S8192x256_S256x8192_S8192x8192_1_0_0_1_n_n.rhsIdx (ix2 i j) ((contrEquiv1 Cert.ReferenceIdeal.dot_S8192x256_S256x8192_S8192x8192_1_0_0_1_n_n 256 rfl rfl).symm c) = ix2 c j := funext fun x => Fin.ext (by
    match x with
    | ⟨0, _⟩ => exact (Cert.ReferenceIdeal.Read.rhs_main_v28_0 _ _).trans hk
    | ⟨1, _⟩ => exact Cert.ReferenceIdeal.Read.rhs_main_v28_1 _ _)
  rw [el, er]

/-- The host's product with the values at (i, d): the sum over the keys. -/
theorem hostOut_apply (a : FVec Ideal Cert.ReferenceIdeal.S8192x8192 .f32) (b : FVec Ideal S8192x256 .f32) (i : Fin 8192) (d : Fin 256) :
    Host.dotGeneral Cert.ReferenceIdeal.dot_S8192x8192_S8192x256_S8192x256_1_0_0_1_n_n none a b (ix2 i d) = ∑ j : Fin 8192, a (ix2 i j) * b (ix2 j d) := by
  simp only [Host.dotGeneral]
  rw [Ideal.dotGeneral_apply, ← Equiv.sum_comp (contrEquiv1 Cert.ReferenceIdeal.dot_S8192x8192_S8192x256_S8192x256_1_0_0_1_n_n 8192 rfl rfl).symm]
  refine Finset.sum_congr rfl fun j _ => ?_
  have hk := contrEquiv1_symm_val Cert.ReferenceIdeal.dot_S8192x8192_S8192x256_S8192x256_1_0_0_1_n_n 8192 rfl rfl j
  have el : Cert.ReferenceIdeal.dot_S8192x8192_S8192x256_S8192x256_1_0_0_1_n_n.lhsIdx (ix2 i d) ((contrEquiv1 Cert.ReferenceIdeal.dot_S8192x8192_S8192x256_S8192x256_1_0_0_1_n_n 8192 rfl rfl).symm j) = ix2 i j := funext fun x => Fin.ext (by
    match x with
    | ⟨0, _⟩ => exact Cert.ReferenceIdeal.Read.lhs_main_v42_0 _ _
    | ⟨1, _⟩ => exact (Cert.ReferenceIdeal.Read.lhs_main_v42_1 _ _).trans hk)
  have er : Cert.ReferenceIdeal.dot_S8192x8192_S8192x256_S8192x256_1_0_0_1_n_n.rhsIdx (ix2 i d) ((contrEquiv1 Cert.ReferenceIdeal.dot_S8192x8192_S8192x256_S8192x256_1_0_0_1_n_n 8192 rfl rfl).symm j) = ix2 j d := funext fun x => Fin.ext (by
    match x with
    | ⟨0, _⟩ => exact (Cert.ReferenceIdeal.Read.rhs_main_v42_0 _ _).trans hk
    | ⟨1, _⟩ => exact Cert.ReferenceIdeal.Read.rhs_main_v42_1 _ _)
  rw [el, er]

/-- A scalar broadcast over the 8192 × 8192 square reads the scalar. -/
theorem square_splat_apply (w : BitVec 32) (i j : Fin 8192) :
    broadcastInDim Cert.ReferenceIdeal.S8192x8192 ![] Cert.ReferenceIdeal.Facts₀.bcast_S_S8192x8192 (constant (F := Ideal) Cert.ReferenceIdeal.S_ .f32 w) (ix2 i j) = Ideal.ofBits .f32 w :=
  broadcastInDim_apply _ Cert.ReferenceIdeal.Facts₀.bcast_S_S8192x8192 (constant (F := Ideal) Cert.ReferenceIdeal.S_ .f32 w) (ix2 i j) (fun a => a.elim0) (fun a => a.elim0)

/-- A scalar broadcast over the 8192 rows reads the scalar. -/
theorem rows_splat_apply (w : BitVec 32) (i : Fin 8192) :
    broadcastInDim Cert.ReferenceIdeal.S8192 ![] Cert.ReferenceIdeal.Facts₀.bcast_S_S8192 (constant (F := Ideal) Cert.ReferenceIdeal.S_ .f32 w) (ix1 i) = Ideal.ofBits .f32 w :=
  broadcastInDim_apply _ Cert.ReferenceIdeal.Facts₀.bcast_S_S8192 (constant (F := Ideal) Cert.ReferenceIdeal.S_ .f32 w) (ix1 i) (fun a => a.elim0) (fun a => a.elim0)

/-- A vector over the rows, made a column and broadcast over the square, reads at (i, j) the vector at i. -/
theorem host_column_spread_apply {α : Type} (y : Cert.ReferenceIdeal.S8192.Idx → α) (i j : Fin 8192) :
    broadcastInDim Cert.ReferenceIdeal.S8192x8192 ![0, 1] Cert.ReferenceIdeal.Facts₀.bcast_S8192x1_S8192x8192_0_1
      (broadcastInDim Cert.ReferenceIdeal.S8192x1 ![0] Cert.ReferenceIdeal.Facts₀.bcast_S8192_S8192x1_0 y) (ix2 i j) = y (ix1 i) := by
  rw [broadcastInDim_apply _ Cert.ReferenceIdeal.Facts₀.bcast_S8192x1_S8192x8192_0_1 _ (ix2 i j) (ix2 i (0 : Fin 1)) (fun a => match a with
    | ⟨0, _⟩ => by show i.val = if (8192 : Nat) = 1 then 0 else i.val; rw [if_neg (by decide)]
    | ⟨1, _⟩ => by show 0 = if (1 : Nat) = 1 then 0 else j.val; rw [if_pos rfl])]
  exact broadcastInDim_apply _ Cert.ReferenceIdeal.Facts₀.bcast_S8192_S8192x1_0 y (ix2 i (0 : Fin 1)) (ix1 i) (fun a => match a with
    | ⟨0, _⟩ => by show i.val = if (8192 : Nat) = 1 then 0 else i.val; rw [if_neg (by decide)])

theorem refScores_apply (q k : FVec Ideal S8192x256 .f32) (i j : Fin 8192) :
    refScores q k (ix2 i j) = scoreK (fun c => q (ix2 i c)) k j := by
  unfold refScores scoreK
  show Ideal.div _ _ = _
  rw [square_splat_apply, hostScore_apply, mul_sixteenth]
  refine congrArg (Ideal.div · _) (Finset.sum_congr rfl fun c _ => ?_)
  rw [transpose_ix2_apply]

/-- A fold of the ideal maximum is the fold of max. -/
theorem fold_maximumf_eq {ι : Type} (S : Finset ι) (b : EReal) (f : ι → EReal) :
    S.fold (FloatOps.maximumf (F := Ideal) (φ := .f32)) b f = S.fold max b f := by
  induction S using Finset.cons_induction with
  | empty => rw [Finset.fold_empty, Finset.fold_empty]
  | cons a S ha ih => rw [Finset.fold_cons, Finset.fold_cons, ih]; rfl

/-- The host's reduce by maximum over the keys' axis at row i: the fold of max from the bottom over the row. -/
theorem host_max_apply (s : FVec Ideal Cert.ReferenceIdeal.S8192x8192 .f32) (i : Fin 8192) :
    Host.reduce FloatOps.maximumf s (constant (F := Ideal) Cert.ReferenceIdeal.S_ .f32 0xFF800000#32) Cert.ReferenceIdeal.Facts₀.reducesTo_S8192x8192_S8192_d1 Cert.ReferenceIdeal.Facts₀.h_S_ (ix1 i)
      = (Finset.univ : Finset (Fin 8192)).fold max (Ideal.ofBits .f32 0xFF800000#32) (fun j => s (ix2 i j)) := by
  have h : Cert.ReferenceIdeal.S8192x8192.Reduces [1] Cert.ReferenceIdeal.S8192 := by decide
  refine (Host.reduce_eq_fold_single (FloatOps.maximumf (F := Ideal) (φ := .f32)) s (constant (F := Ideal) Cert.ReferenceIdeal.S_ .f32 0xFF800000#32)
    Cert.ReferenceIdeal.Facts₀.reducesTo_S8192x8192_S8192_d1 h Cert.ReferenceIdeal.Facts₀.h_S_ (ix1 i)).trans ?_
  rw [fold_maximumf_eq]
  refine congrArg (Finset.fold max _ · _) (funext fun j => congrArg s (funext fun a => Fin.ext ?_))
  match a with
  | ⟨0, _⟩ => rfl
  | ⟨1, _⟩ => rfl

/-- The host's row maximum at row i: the fold of max from the bottom over the row. -/
theorem refMax_apply (s : FVec Ideal Cert.ReferenceIdeal.S8192x8192 .f32) (i : Fin 8192) :
    refMax s (ix1 i) = (Finset.univ : Finset (Fin 8192)).fold max (Ideal.ofBits .f32 0xFF800000#32) (fun j => s (ix2 i j)) := by
  unfold refMax
  rw [maximumf_apply, rows_splat_apply, host_max_apply]
  rw [ofBits_neg_inf]
  exact max_eq_right bot_le

theorem refExp_apply (s : FVec Ideal Cert.ReferenceIdeal.S8192x8192 .f32) (i j : Fin 8192) :
    refExp s (ix2 i j) = Ideal.exp (s (ix2 i j) - (Finset.univ : Finset (Fin 8192)).fold max (Ideal.ofBits .f32 0xFF800000#32) (fun j' => s (ix2 i j'))) := by
  unfold refExp
  show Ideal.exp (s (ix2 i j) - _) = _
  rw [host_column_spread_apply, refMax_apply]

theorem refSoft_apply (e : FVec Ideal Cert.ReferenceIdeal.S8192x8192 .f32) (i j : Fin 8192) :
    refSoft e (ix2 i j) = Ideal.div (e (ix2 i j)) (∑ j' : Fin 8192, e (ix2 i j')) := by
  unfold refSoft
  show Ideal.div (e (ix2 i j)) _ = _
  rw [host_column_spread_apply, hostReduceAdd_apply, Ideal.hostReduceAdd_single Cert.ReferenceIdeal.Facts₀.reducesTo_S8192x8192_S8192_d1 (by decide)]
  show Ideal.div _ (Ideal.ofBits .f32 0x00000000#32 + _) = _
  rw [Ideal.ofBits_zero_f32, zero_add]
  refine congrArg (Ideal.div _ ·) (Finset.sum_congr rfl fun j' _ => congrArg e (funext fun a => Fin.ext ?_))
  match a with
  | ⟨0, _⟩ => rfl
  | ⟨1, _⟩ => rfl

/-- The host's attention at (i, d) is the row formula of query row i. -/
theorem attnR_apply (q k v : FVec Ideal S8192x256 .f32) (i : Fin 8192) (d : Fin 256) :
    attnR q k v (ix2 i d) = rowAttn (fun c => q (ix2 i c)) k v d := by
  unfold attnR
  rw [hostOut_apply]
  unfold rowAttn
  refine Finset.sum_congr rfl fun j _ => ?_
  rw [refSoft_apply]
  refine congrArg₂ (· * ·) (congrArg₂ Ideal.div ?_ (Finset.sum_congr rfl fun j' _ => ?_)) rfl
  · rw [refExp_apply]; unfold expK rowMax
    rw [refScores_apply]
    refine congrArg (fun m => Ideal.exp (_ - m)) (congrArg (Finset.fold max _ · _) (funext fun j' => refScores_apply q k i j'))
  · rw [refExp_apply]; unfold expK rowMax
    rw [refScores_apply]
    refine congrArg (fun m => Ideal.exp (_ - m)) (congrArg (Finset.fold max _ · _) (funext fun j'' => refScores_apply q k i j''))

end Cert.KernelIdeal.Hand
end
-- ==== Proof.KI.Attn2.lean ====
/-
  The dense attention call, from blocks to the array: what each grid point writes back is its 256 rows of the host's
  attention of the whole query, key and value arrays; the 32 blocks tile the result, so the result array is that
  attention.
-/
import proofs.«427711_j70531952934916_2_alg».proof.Proof.KI.Frame1
import proofs.«427711_j70531952934916_2_alg».proof.Proof.KI.Attn1
import proofs.«427711_j70531952934916_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the query and result windows move with the point down the rows, the key
    and value windows stay at the one block that is the whole array. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block is row 256 t + p of the array. -/
def rowOf (t : Fin cfg1.N) (p : Fin 256) : Fin 8192 :=
  ⟨256 * t.val + p.val, by have h1 := t.isLt; have h2 : cfg1.N = 32 := N_1; have h3 := p.isLt; omega⟩

/-- The key window's block at every point is the whole key array. -/
theorem kblk_eq (c : Dev nD) (t : Fin cfg1.N) : (iblk1 V c 1 t : Vec Ideal S8192x256 .f32) = V c main_v29 := by
  obtain ⟨-, -, e0, e1, -⟩ := idx_facts1 t
  funext y
  show V c main_v29 (((cfg1.win 1).blk t).view.emb y) = V c main_v29 y
  refine congrArg (V c main_v29) (funext fun a => Fin.ext ?_)
  match a with
  | ⟨0, _⟩ => show win1_1.index t (0 : Fin 2) * 8192 + 1 * (y (0 : Fin 2)).val = (y (0 : Fin 2)).val; rw [e0]; omega
  | ⟨1, _⟩ => show win1_1.index t (1 : Fin 2) * 256 + 1 * (y (1 : Fin 2)).val = (y (1 : Fin 2)).val; rw [e1]; omega

/-- The value window's block at every point is the whole value array. -/
theorem vblk_eq (c : Dev nD) (t : Fin cfg1.N) : (iblk1 V c 2 t : Vec Ideal S8192x256 .f32) = V c main_v33 := by
  obtain ⟨-, -, -, -, e0, e1, -⟩ := idx_facts1 t
  funext y
  show V c main_v33 (((cfg1.win 2).blk t).view.emb y) = V c main_v33 y
  refine congrArg (V c main_v33) (funext fun a => Fin.ext ?_)
  match a with
  | ⟨0, _⟩ => show win1_2.index t (0 : Fin 2) * 8192 + 1 * (y (0 : Fin 2)).val = (y (0 : Fin 2)).val; rw [e0]; omega
  | ⟨1, _⟩ => show win1_2.index t (1 : Fin 2) * 256 + 1 * (y (1 : Fin 2)).val = (y (1 : Fin 2)).val; rw [e1]; omega

/-- The query window's block at point t is rows 256 t … of the query array. -/
theorem qblk_apply (c : Dev nD) (t : Fin cfg1.N) (p f : Fin 256) :
    (iblk1 V c 0 t : Vec Ideal S256x256 .f32) (ix2 p f) = (V c main_v25 : Vec Ideal S8192x256 .f32) (ix2 (rowOf t p) f) := by
  obtain ⟨e0, e1, -⟩ := idx_facts1 t
  show V c main_v25 (((cfg1.win 0).blk t).view.emb (ix2 p f)) = V c main_v25 (ix2 (rowOf t p) f)
  refine congrArg (V c main_v25) (funext fun a => Fin.ext ?_)
  match a with
  | ⟨0, _⟩ => show win1_0.index t (0 : Fin 2) * 256 + 1 * p.val = 256 * t.val + p.val; rw [e0]; omega
  | ⟨1, _⟩ => show win1_0.index t (1 : Fin 2) * 256 + 1 * f.val = f.val; rw [e1]; omega

/-- One point's payload of its three blocks is the host's attention at the point's rows. -/
theorem block_eq (B0 : Vec Ideal S256x256 .f32) (B1 B2 Q K W : Vec Ideal S8192x256 .f32) (r : Fin 256 → Fin 8192)
    (h0 : ∀ p f : Fin 256, B0 (ix2 p f) = Q (ix2 (r p) f)) (h1 : B1 = K) (h2 : B2 = W) (p d : Fin 256) :
    k1_pay1 (F := Ideal) B0 B1 B2 (ix2 p d) = attnR Q K W (ix2 (r p) d) := by
  subst h1 h2
  rw [pay_apply, attnR_apply]
  exact congrArg (rowAttn · B1 B2 d) (funext fun f => h0 p f)

/-- What point t writes back is block t of the host's attention of the three arrays as the region finds them. -/
theorem flushed1_eq (c : Dev nD) (t : Fin cfg1.N) :
    (dat1 V c).flushed 3 t = ((cfg1.win 3).blk t).view.read (Elt Ideal) (attnR (V c main_v25) (V c main_v29) (V c main_v33)) := by
  show (cfg1.win 3).cut (grid1.coords t) ((dat1 V c).after 3 t) = _
  rw [after1_3]
  unfold out1_3
  rw [View.canon_unit_zero hz1]
  simp only [View.ld_unit_zero (S := S256x256) hz1, View.ld_unit_zero (S := S8192x256) hz1]
  obtain ⟨-, -, -, -, -, -, e0, e1⟩ := idx_facts1 t
  funext y
  have hy0 : (y (0 : Fin 2)).val < 256 := (y (0 : Fin 2)).isLt
  have hy1 : (y (1 : Fin 2)).val < 256 := (y (1 : Fin 2)).isLt
  show k1_pay1 (F := Ideal) (iblk1 V c 0 t) (iblk1 V c 1 t) (iblk1 V c 2 t) ((cfg1.win 3).xinj (grid1.coords t) y)
    = attnR (V c main_v25) (V c main_v29) (V c main_v33) (((cfg1.win 3).blk t).view.emb y)
  have ex : (cfg1.win 3).xinj (grid1.coords t) y = ix2 (⟨(y (0 : Fin 2)).val, hy0⟩ : Fin 256) (⟨(y (1 : Fin 2)).val, hy1⟩ : Fin 256) :=
    funext fun a => Fin.ext (by match a with | ⟨0, _⟩ => rfl | ⟨1, _⟩ => rfl)
  have ee : ((cfg1.win 3).blk t).view.emb y = ix2 (rowOf t ⟨(y (0 : Fin 2)).val, hy0⟩) (⟨(y (1 : Fin 2)).val, hy1⟩ : Fin 256) :=
    funext fun a => Fin.ext (by
      match a with
      | ⟨0, _⟩ => show win1_3.index t (0 : Fin 2) * 256 + 1 * (y (0 : Fin 2)).val = 256 * t.val + (y (0 : Fin 2)).val; rw [e0]; omega
      | ⟨1, _⟩ => show win1_3.index t (1 : Fin 2) * 256 + 1 * (y (1 : Fin 2)).val = (y (1 : Fin 2)).val; rw [e1]; omega)
  rw [ex, ee]
  exact block_eq (iblk1 V c 0 t) (iblk1 V c 1 t) (iblk1 V c 2 t) (V c main_v25) (V c main_v29) (V c main_v33) (rowOf t)
    (fun p f => qblk_apply V c t p f) (kblk_eq V c t) (vblk_eq V c t) ⟨(y (0 : Fin 2)).val, hy0⟩ ⟨(y (1 : Fin 2)).val, hy1⟩

/-- An index of the result array is in point t's block iff each coordinate is in the block's range on its axis. -/
theorem mem_blk1 (t : Fin cfg1.N) (i : S8192x256.Idx) :
    i ∈ ((cfg1.win 3).blk t).view.set ↔ ∀ a : Fin 2, win1_3.index t a * S256x256.size a ≤ (i a).val ∧ (i a).val < win1_3.index t a * S256x256.size a + S256x256.size a := by
  show i ∈ ((View.whole main_v34).slice (win1_3.rect t)).set ↔ _
  rw [View.set_slice_whole, Rect.mem_set_unit]
  exact Iff.rfl

/-- Row r of the result is in the block of point r / 256, which writes back. -/
theorem cover1 (i : S8192x256.Idx) : ∃ t : Fin cfg1.N, (cfg1.win 3).flush t = true ∧ i ∈ ((cfg1.win 3).blk t).view.set := by
  have hi0 : (i 0).val < 8192 := (i 0).isLt
  have hi1 : (i 1).val < 256 := (i 1).isLt
  obtain ⟨t, ht⟩ : ∃ t : Fin cfg1.N, t.val = (i 0).val / 256 := ⟨⟨(i 0).val / 256, by rw [show cfg1.N = 32 from N_1]; omega⟩, rfl⟩
  obtain ⟨-, -, -, -, -, -, e0, e1⟩ := idx_facts1 t
  refine ⟨t, flush1_3 t, ?_⟩
  rw [mem_blk1]
  intro a
  match a with
  | ⟨0, _⟩ => show win1_3.index t (0 : Fin 2) * 256 ≤ (i 0).val ∧ (i 0).val < win1_3.index t (0 : Fin 2) * 256 + 256; rw [e0, ht]; omega
  | ⟨1, _⟩ => show win1_3.index t (1 : Fin 2) * 256 ≤ (i 1).val ∧ (i 1).val < win1_3.index t (1 : Fin 2) * 256 + 256; rw [e1]; omega

/-- The result array after the attention call is the host's attention of the query, key and value arrays as the
    region finds them. -/
theorem attn_final (c : Dev nD) :
    (dat1 V c).arrAt 3 cfg1.N = attnR (V c main_v25) (V c main_v29) (V c main_v33) :=
  (dat1 V c).arrAt_eq_of_cover 3 (attnR (V c main_v25) (V c main_v29) (V c main_v33)) (fun t _ => flushed1_eq V c t) cover1

end Cert.KernelIdeal.Hand
end
-- ==== Proof.KI.Combine1.lean ====
/-
  The value the combine kernel stores, read at an index, at the ideal floats: entry (p, q) of the block the
  body stores is the sum over k of x[p, k] · w[k, q], plus the two rows' entries at column q.
-/
import proofs.«427711_j70531952934916_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

/-! ## The contraction's operand indices, axis by axis -/

theorem lhs_combine_0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
theorem lhs_combine_1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
theorem rhs_combine_0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
theorem rhs_combine_1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- The matrix product into a zero accumulator, at entry (p, q): the sum over k of x[p, k] · w[k, q]. -/
theorem matmul_combine_apply (x : FVec Ideal S8192x256 .f32) (w : FVec Ideal S256x256 .f32) (p : Fin 8192) (q : Fin 256) :
    matmul (F := Ideal) dot_S8192x256_S256x256_S8192x256_1_0_0_1_n_n (some .fp32) x w (constant (F := Ideal) S8192x256 .f32 0x00000000#32) (ix2 p q)
      = ∑ k : Fin 256, x (ix2 p k) * w (ix2 k q) := by
  simp only [matmul]
  rw [Ideal.matmul_constant_zero_apply, ← Equiv.sum_comp (ValueIdx.contrEquiv1 dot_S8192x256_S256x256_S8192x256_1_0_0_1_n_n 256 rfl rfl).symm]
  refine Finset.sum_congr rfl fun k _ => ?_
  have hk := ValueIdx.contrEquiv1_symm_val dot_S8192x256_S256x256_S8192x256_1_0_0_1_n_n 256 rfl rfl k
  have el : dot_S8192x256_S256x256_S8192x256_1_0_0_1_n_n.lhsIdx (ix2 p q) ((ValueIdx.contrEquiv1 dot_S8192x256_S256x256_S8192x256_1_0_0_1_n_n 256 rfl rfl).symm k) = ix2 p k := funext fun a => Fin.ext (by
    match a with
    | ⟨0, _⟩ => exact lhs_combine_0 _ _
    | ⟨1, _⟩ => exact (lhs_combine_1 _ _).trans hk)
  have er : dot_S8192x256_S256x256_S8192x256_1_0_0_1_n_n.rhsIdx (ix2 p q) ((ValueIdx.contrEquiv1 dot_S8192x256_S256x256_S8192x256_1_0_0_1_n_n 256 rfl rfl).symm k) = ix2 k q := funext fun a => Fin.ext (by
    match a with
    | ⟨0, _⟩ => exact (rhs_combine_0 _ _).trans hk
    | ⟨1, _⟩ => exact rhs_combine_1 _ _)
  rw [el, er]

/-- A 1 × 256 row broadcast down 8192 rows, at entry (p, q): the row's entry at q. -/
theorem row_bcast_apply (r : FVec Ideal S1x256 .f32) (p : Fin 8192) (q : Fin 256) :
    broadcastTo S8192x256 (shapeCast S1x256 r shapeCasts_S1x256_S1x256) broadcasts_S1x256_S8192x256 (ix2 p q) = r (ix2 0 q) := by
  rw [shapeCast_self]
  exact broadcastTo_apply r broadcasts_S1x256_S8192x256 (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- The stored block at entry (p, q). -/
theorem k2_pay1_apply (x : Vec Ideal S8192x256 .f32) (w : Vec Ideal S256x256 .f32) (b ob : Vec Ideal S1x256 .f32) (p : Fin 8192) (q : Fin 256) :
    k2_pay1 (F := Ideal) x w b ob (ix2 p q) = ((∑ k : Fin 256, x (ix2 p k) * w (ix2 k q)) + b (ix2 0 q)) + ob (ix2 0 q) := by
  unfold k2_pay1
  show (matmul (F := Ideal) dot_S8192x256_S256x256_S8192x256_1_0_0_1_n_n (some .fp32) (x : FVec Ideal S8192x256 .f32) (w : FVec Ideal S256x256 .f32) (constant (F := Ideal) S8192x256 .f32 0x00000000#32) (ix2 p q)
      + broadcastTo S8192x256 (shapeCast S1x256 (b : FVec Ideal S1x256 .f32) shapeCasts_S1x256_S1x256) broadcasts_S1x256_S8192x256 (ix2 p q))
      + broadcastTo S8192x256 (shapeCast S1x256 (ob : FVec Ideal S1x256 .f32) shapeCasts_S1x256_S1x256) broadcasts_S1x256_S8192x256 (ix2 p q) = _
  rw [matmul_combine_apply, row_bcast_apply, row_bcast_apply]

end Cert.KernelIdeal.Hand

end
-- ==== Proof.KI.Combine.lean ====
/-
  The combine kernel's result array, at the ideal floats: the array its blocks' write-backs leave is the values times
  the weight matrix plus the two rows broadcast down the rows, as one function of the four arrays; the reshape of a
  vector to a one-row matrix is its broadcast to one row; and the order of three later summands does not matter.
-/
import proofs.«427711_j70531952934916_2_alg».proof.Proof.KI.Frame2
import proofs.«427711_j70531952934916_2_alg».proof.Proof.KI.Combine1
import proofs.«427711_j70531952934916_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The result as one function of the four arrays -/

/-- The values times the weights, plus each of the two rows broadcast down the rows. -/
def combineG (A : FVec Ideal S262144x256 .f32) (W : FVec Ideal S256x256 .f32) (b ob : FVec Ideal S1x256 .f32) : FVec Ideal S262144x256 .f32 :=
  addf (addf (Host.dotGeneral (F := Ideal) Cert.ReferenceIdeal.dot_S262144x256_S256x256_S262144x256_1_0_0_1_n_n none A W)
      (broadcastInDim S262144x256 ![0, 1] Cert.ReferenceIdeal.Gen.bcast_S1x256_S262144x256_0_1 b))
    (broadcastInDim S262144x256 ![0, 1] Cert.ReferenceIdeal.Gen.bcast_S1x256_S262144x256_0_1 ob)

/-- A one-row matrix broadcast down 262144 rows, at entry (r, q): the row's entry at q. -/
theorem bcast_row_apply (x : FVec Ideal S1x256 .f32) (r : Fin 262144) (q : Fin 256) :
    broadcastInDim S262144x256 ![0, 1] Cert.ReferenceIdeal.Gen.bcast_S1x256_S262144x256_0_1 x (ix2 r q) = x (ix2 0 q) :=
  broadcastInDim_apply _ Cert.ReferenceIdeal.Gen.bcast_S1x256_S262144x256_0_1 x (ix2 r q) (ix2 0 q) (fun a => match a with
    | ⟨0, _⟩ => by show 0 = if (1 : Nat) = 1 then 0 else r.val; rw [if_pos rfl]
    | ⟨1, _⟩ => by show q.val = if (256 : Nat) = 1 then 0 else q.val; rw [if_neg (by decide)])

/-- The result at entry (r, q): the sum over k of a[r, k] · w[k, q], plus the two rows' entries at q. -/
theorem combineG_apply (A : FVec Ideal S262144x256 .f32) (W : FVec Ideal S256x256 .f32) (b ob : FVec Ideal S1x256 .f32) (r : Fin 262144) (q : Fin 256) :
    combineG A W b ob (ix2 r q) = ((∑ k : Fin 256, A (ix2 r k) * W (ix2 k q)) + b (ix2 0 q)) + ob (ix2 0 q) := by
  show (Cert.ReferenceIdeal.Read.val_main_v0 (F := Ideal) A W (ix2 r q)
      + broadcastInDim S262144x256 ![0, 1] Cert.ReferenceIdeal.Gen.bcast_S1x256_S262144x256_0_1 b (ix2 r q))
      + broadcastInDim S262144x256 ![0, 1] Cert.ReferenceIdeal.Gen.bcast_S1x256_S262144x256_0_1 ob (ix2 r q) = _
  rw [Cert.ReferenceIdeal.Read.val_main_v0_apply, bcast_row_apply, bcast_row_apply]
  have el : ∀ k : Fin 256, Cert.ReferenceIdeal.Read.lidx_main_v0 (ix2 r q) k = ix2 r k := fun k => funext fun a => by
    match a with
    | ⟨0, _⟩ => rfl
    | ⟨1, _⟩ => rfl
  have er : ∀ k : Fin 256, Cert.ReferenceIdeal.Read.ridx_main_v0 (ix2 r q) k = ix2 k q := fun k => funext fun a => by
    match a with
    | ⟨0, _⟩ => rfl
    | ⟨1, _⟩ => rfl
  simp only [el, er]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The grid has 32 points. -/
theorem lt_32 (t : Fin cfg2.N) : t.val < 32 := lt_of_lt_of_eq t.isLt N_2

/-- The printed index maps, decided over the grid: the values' and the result's block index is (t, 0), the three
    whole-array windows' is (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The values' block at point t is rows 8192 t … 8192 t + 8191 of the values. -/
theorem xblock_apply (c : Dev nD) (t : Fin cfg2.N) (p : Fin 8192) (k : Fin 256) (r : Fin 262144) (hr : r.val = 8192 * t.val + p.val) :
    (iblk2 V c 0 t : Vec Ideal S8192x256 .f32) (ix2 p k) = (V c main_arg0 : S262144x256.Idx → Elt Ideal .f32) (ix2 r k) := by
  obtain ⟨e0, e1, -⟩ := index_facts t
  unfold iblk2
  rw [View.read_apply]
  show V c main_arg0 _ = V c main_arg0 _
  congr 1
  funext a
  apply Fin.ext
  match a with
  | ⟨0, _⟩ => show win2_0.index t 0 * 8192 + 1 * p.val = r.val; rw [e0, hr]; omega
  | ⟨1, _⟩ => show win2_0.index t 1 * 256 + 1 * k.val = k.val; rw [e1]; omega

/-- The weights' block at every point is the whole matrix. -/
theorem wblock_apply (c : Dev nD) (t : Fin cfg2.N) (k : Fin 256) (q : Fin 256) :
    (iblk2 V c 1 t : Vec Ideal S256x256 .f32) (ix2 k q) = (V c main_arg3 : S256x256.Idx → Elt Ideal .f32) (ix2 k q) := by
  obtain ⟨-, -, e0, e1, -⟩ := index_facts t
  unfold iblk2
  rw [View.read_apply]
  show V c main_arg3 _ = V c main_arg3 _
  congr 1
  funext a
  apply Fin.ext
  match a with
  | ⟨0, _⟩ => show win2_1.index t 0 * 256 + 1 * k.val = k.val; rw [e0]; omega
  | ⟨1, _⟩ => show win2_1.index t 1 * 256 + 1 * q.val = q.val; rw [e1]; omega

/-- The first row's block at every point is the whole row. -/
theorem bblock_apply (c : Dev nD) (t : Fin cfg2.N) (z : Fin 1) (q : Fin 256) :
    (iblk2 V c 2 t : Vec Ideal S1x256 .f32) (ix2 z q) = (V c main_v63 : S1x256.Idx → Elt Ideal .f32) (ix2 z q) := by
  obtain ⟨-, -, -, -, e0, e1, -⟩ := index_facts t
  unfold iblk2
  rw [View.read_apply]
  show V c main_v63 _ = V c main_v63 _
  congr 1
  funext a
  apply Fin.ext
  match a with
  | ⟨0, _⟩ => show win2_2.index t 0 * 1 + 1 * z.val = z.val; rw [e0]; omega
  | ⟨1, _⟩ => show win2_2.index t 1 * 256 + 1 * q.val = q.val; rw [e1]; omega

/-- The second row's block at every point is the whole row. -/
theorem oblock_apply (c : Dev nD) (t : Fin cfg2.N) (z : Fin 1) (q : Fin 256) :
    (iblk2 V c 3 t : Vec Ideal S1x256 .f32) (ix2 z q) = (V c main_v10 : S1x256.Idx → Elt Ideal .f32) (ix2 z q) := by
  obtain ⟨-, -, -, -, -, -, e0, e1, -⟩ := index_facts t
  unfold iblk2
  rw [View.read_apply]
  show V c main_v10 _ = V c main_v10 _
  congr 1
  funext a
  apply Fin.ext
  match a with
  | ⟨0, _⟩ => show win2_3.index t 0 * 1 + 1 * z.val = z.val; rw [e0]; omega
  | ⟨1, _⟩ => show win2_3.index t 1 * 256 + 1 * q.val = q.val; rw [e1]; omega

/-- Entry (p, q) of the result's block at point t sits at row 8192 t + p, column q of the result. -/
theorem out_emb (t : Fin cfg2.N) (p : Fin 8192) (q : Fin 256) (r : Fin 262144) (hr : r.val = 8192 * t.val + p.val) :
    (((cfg2.win 4).blk t).view.emb (ix2 p q) : S262144x256.Idx) = ix2 r q := by
  obtain ⟨-, -, -, -, -, -, -, -, e0, e1⟩ := index_facts t
  funext a
  apply Fin.ext
  match a with
  | ⟨0, _⟩ => show win2_4.index t 0 * 8192 + 1 * p.val = r.val; rw [e0, hr]; omega
  | ⟨1, _⟩ => show win2_4.index t 1 * 256 + 1 * q.val = q.val; rw [e1]; omega

/-- What the body stores at point t, entry by entry, is the result function at that entry's place in the array. -/
theorem stored_entry (c : Dev nD) (t : Fin cfg2.N) (j : S8192x256.Idx) :
    k2_pay1 (F := Ideal) (iblk2 V c 0 t) (iblk2 V c 1 t) (iblk2 V c 2 t) (iblk2 V c 3 t) j
      = combineG (V c main_arg0) (V c main_arg3) (V c main_v63) (V c main_v10) (((cfg2.win 4).blk t).view.emb j) := by
  obtain ⟨p, q, rfl⟩ : ∃ (p : Fin 8192) (q : Fin 256), j = ix2 p q := ⟨j 0, j 1, eq_ix2 j⟩
  have ht := lt_32 t
  have hp : p.val < 8192 := p.isLt
  rw [out_emb t p q ⟨8192 * t.val + p.val, by omega⟩ rfl, combineG_apply]
  refine (k2_pay1_apply (iblk2 V c 0 t) (iblk2 V c 1 t) (iblk2 V c 2 t) (iblk2 V c 3 t) p q).trans ?_
  rw [bblock_apply V c t 0 q, oblock_apply V c t 0 q]
  refine congrArg (· + _) (congrArg (· + _) (Finset.sum_congr rfl fun k _ => ?_))
  rw [xblock_apply V c t p k ⟨8192 * t.val + p.val, by omega⟩ rfl, wblock_apply V c t k q]

/-- What point t writes back is block t of the result function of the four arrays. -/
theorem flushed2_4_eq (c : Dev nD) (t : Fin cfg2.N) :
    (dat2 V c).flushed 4 t = ((cfg2.win 4).blk t).view.read (Elt Ideal) (combineG (V c main_arg0) (V c main_arg3) (V c main_v63) (V c main_v10)) := by
  show (cfg2.win 4).cut (grid2.coords t) ((dat2 V c).after 4 t) = _
  rw [after2_4]
  unfold out2_4
  rw [View.canon_unit_zero hz]
  simp only [View.ld_unit_zero (S := S8192x256) hz, View.ld_unit_zero (S := S256x256) hz, View.ld_unit_zero (S := S1x256) hz]
  funext j
  exact stored_entry V c t j

/-- An index of the result is in point t's block iff each coordinate is in the block's range on its axis. -/
theorem mem_blk2_4 (t : Fin cfg2.N) (i : S262144x256.Idx) :
    i ∈ ((cfg2.win 4).blk t).view.set ↔ ∀ a : Fin 2, win2_4.index t a * S8192x256.size a ≤ (i a).val ∧ (i a).val < win2_4.index t a * S8192x256.size a + S8192x256.size a := by
  show i ∈ ((View.whole main_v64).slice (win2_4.rect t)).set ↔ _
  rw [View.set_slice_whole, Rect.mem_set_unit]
  exact Iff.rfl

/-- Row r of the result is in the block of point r / 8192. -/
theorem covered2_4 (i : S262144x256.Idx) : ∃ t : Fin cfg2.N, (cfg2.win 4).flush t = true ∧ i ∈ ((cfg2.win 4).blk t).view.set := by
  have hi0 : (i 0).val < 262144 := (i 0).isLt
  have hi1 : (i 1).val < 256 := (i 1).isLt
  let t : Fin cfg2.N := ⟨(i 0).val / 8192, lt_of_lt_of_eq (by omega : (i 0).val / 8192 < 32) N_2.symm⟩
  obtain ⟨-, -, -, -, -, -, -, -, e0, e1⟩ := index_facts t
  have et : t.val = (i 0).val / 8192 := rfl
  refine ⟨t, flush2_4 t, ?_⟩
  rw [mem_blk2_4]
  intro a
  match a with
  | ⟨0, _⟩ => show win2_4.index t (0 : Fin 2) * 8192 ≤ (i 0).val ∧ (i 0).val < win2_4.index t (0 : Fin 2) * 8192 + 8192; omega
  | ⟨1, _⟩ => show win2_4.index t (1 : Fin 2) * 256 ≤ (i 1).val ∧ (i 1).val < win2_4.index t (1 : Fin 2) * 256 + 256; omega

/-- The result array after the call: the values times the weights, plus the two rows broadcast down the rows. -/
theorem combine_final (c : Dev nD) :
    @Eq (FVec Ideal S262144x256 .f32) ((dat2 V c).arrAt 4 cfg2.N)
      (addf (F := Ideal) (addf (F := Ideal) (Cert.ReferenceIdeal.Read.val_main_v0 (F := Ideal) (V c main_arg0) (V c main_arg3))
          (broadcastInDim S262144x256 ![0, 1] Cert.ReferenceIdeal.Facts₀.bcast_S1x256_S262144x256_0_1 (V c main_v63 : (⟨S1x256, .f32⟩ : BufTy).Contents (Elt Ideal))))
        (broadcastInDim S262144x256 ![0, 1] Cert.ReferenceIdeal.Facts₀.bcast_S1x256_S262144x256_0_1 (V c main_v10 : (⟨S1x256, .f32⟩ : BufTy).Contents (Elt Ideal)))) :=
  (dat2 V c).arrAt_eq_of_cover 4 (combineG (V c main_arg0) (V c main_arg3) (V c main_v63) (V c main_v10))
    (fun t _ => flushed2_4_eq V c t) covered2_4

/-! ## The reshape of a vector to one row, and the order of the later summands -/

/-- A 256-vector reshaped to 1 × 256 is the vector broadcast to one row: both have x[q] at entry (0, q). -/
theorem row_of_reshape (x : (⟨S256, .f32⟩ : BufTy).Contents (Elt Ideal)) :
    shapeCast S1x256 x shapeCasts_S256_S1x256 = broadcastInDim S1x256 ![1] Cert.ReferenceIdeal.Gen.bcast_S256_S1x256_1 x := by
  funext j
  obtain ⟨z, q, rfl⟩ : ∃ (z : Fin 1) (q : Fin 256), j = ix2 z q := ⟨j 0, j 1, eq_ix2 j⟩
  have hzv : z.val = 0 := by omega
  refine (shapeCast_apply x shapeCasts_S256_S1x256 (ix2 z q) (ix1 q) ?_).trans
    (broadcastInDim_apply _ Cert.ReferenceIdeal.Gen.bcast_S256_S1x256_1 x (ix2 z q) (ix1 q) (fun a => match a with
      | ⟨0, _⟩ => by show q.val = if (256 : Nat) = 1 then 0 else q.val; rw [if_neg (by decide)])).symm
  rw [Shape.rowMajor_val_one, Shape.rowMajor_val_two]
  show q.val = z.val * 256 + q.val
  omega

/-- Two later summands may be added before an earlier one: addition of extended reals is commutative and associative. -/
theorem tail_comm (D B OB G1 G2 : FVec Ideal S262144x256 .f32) :
    addf (addf (addf (addf D B) OB) G1) G2 = addf (addf (addf (addf D B) G1) G2) OB := by
  funext i
  show D i + B i + OB i + G1 i + G2 i = D i + B i + G1 i + G2 i + OB i
  rw [add_right_comm (D i + B i) (OB i) (G1 i), add_right_comm (D i + B i + G1 i) (OB i) (G2 i)]

end Cert.KernelIdeal.Hand

end
-- ==== Proof.KI.Values.lean ====
/-
  The three pallas_calls' results in the reference's terms, assembled: the statistics pass gives the reference's
  segment sums, segment counts and column sums; the attention call the reference's softmax attention of the same
  queries, keys and values; the third call the matrix product plus the two broadcast rows.
-/
import proofs.«427711_j70531952934916_2_alg».proof.Proof.KI.Iface
import proofs.«427711_j70531952934916_2_alg».proof.Proof.KI.Stats
import proofs.«427711_j70531952934916_2_alg».proof.Proof.KI.Attn2
import proofs.«427711_j70531952934916_2_alg».proof.Proof.KI.Combine

noncomputable section

namespace Cert.KernelIdeal.Hand

open Cert.KernelIdeal Cert.KernelIdeal.Gen
open Idealize.ShloMosaic Idealize.ShloMosaic.TcCoe

theorem regionValues : RegionValues where
  sum V c hidx := stats_sum V c hidx
  cnt V c hidx := stats_cnt V c hidx
  gsum V c := stats_gsum V c
  attn V c x0 x2 x7 x8 x9 x10 x11 x12 hq hk hv := by
    refine (attn_final V c).trans ?_
    rw [hq, hk, hv]
    exact (val_v42_eq x0 x2 x7 x8 x9 x10 x11 x12).symm
  comb V c := combine_final V c
  tail D B OB G1 G2 := tail_comm D B OB G1 G2

end Cert.KernelIdeal.Hand

end
-- ==== Proof.KI.Bridge.lean ====
/-
  The end-to-end comparison at the exact reals: the contents of the result buffer at the end of the main function
  equal the reference's last stage, given what the three pallas_calls leave in their result arrays. Each stretch of
  host operations is read back stage by stage against the reference's stage functions; the two programs' host lines
  are the same operations on the same operands.
-/
import proofs.«427711_j70531952934916_2_alg».proof.Proof.KI.Keep
import proofs.«427711_j70531952934916_2_alg».proof.Proof.KI.Iface
import proofs.«427711_j70531952934916_2_alg».proof.Proof.Gen.ReferenceIdeal.Read
import Idealize.ShloMosaic.Lib.StableHlo.Run
import Idealize.ShloMosaic.Lib.Pipeline.Value
import Idealize.ShloMosaic.Lib.ValueIdx
import Idealize.ShloMosaic.PureOps.Ideal
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.ValueIdx

/-! ## Two layout facts -/

/-- A vector of n entries laid out as n × 1 is the vector broadcast along the first axis. -/
theorem br_col_reshape {α : Type} (n : ℕ) (hn : n ≠ 1) (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext j
  obtain ⟨a, b, rfl⟩ : ∃ (a : Fin n) (b : Fin 1), j = ix2 a b := ⟨j 0, j 1, eq_ix2 j⟩
  have hb0 : b.val = 0 := by omega
  refine (shapeCast_apply x h (ix2 a b) (ix1 a) ?_).trans (broadcastInDim_apply ![0] hb x (ix2 a b) (ix1 a) ?_).symm
  · rw [Shape.rowMajor_val_one, Shape.rowMajor_val_two]
    show a.val = a.val * 1 + b.val
    omega
  · intro d
    match d with
    | ⟨0, _⟩ =>
      show a.val = if n = 1 then 0 else a.val
      rw [if_neg hn]

/-- A vector of n entries laid out as 1 × n is the vector broadcast along the second axis. -/
theorem br_row_reshape {α : Type} (n : ℕ) (hn : n ≠ 1) (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  obtain ⟨u, i, rfl⟩ : ∃ (u : Fin 1) (i : Fin n), j = ix2 u i := ⟨j 0, j 1, eq_ix2 j⟩
  have hu0 : u.val = 0 := by omega
  refine (shapeCast_apply x h (ix2 u i) (ix1 i) ?_).trans (broadcastInDim_apply ![1] hb x (ix2 u i) (ix1 i) ?_).symm
  · rw [Shape.rowMajor_val_one, Shape.rowMajor_val_two]
    show i.val = u.val * n + i.val
    rw [hu0, Nat.zero_mul, Nat.zero_add]
  · intro d
    match d with
    | ⟨0, _⟩ =>
      show i.val = if n = 1 then 0 else i.val
      rw [if_neg hn]

variable (m : (ℓ : Loc nD τ sig) → Buf (Elt Ideal) ℓ) (c : Dev nD)

/-! ## The arguments' launch contents, and that every boundary still holds them -/

/-- Argument 0's launch contents on core c. -/
abbrev br_a0 : (⟨S262144x256, .f32⟩ : BufTy).Contents (Elt Ideal) := m ((c.tc : Thread nD τ).loc main_arg0)
/-- Argument 1's launch contents on core c. -/
abbrev br_a1 : (⟨S262144, .i32⟩ : BufTy).Contents (Elt Ideal) := m ((c.tc : Thread nD τ).loc main_arg1)
/-- Argument 2's launch contents on core c. -/
abbrev br_a2 : (⟨S262144, .i32⟩ : BufTy).Contents (Elt Ideal) := m ((c.tc : Thread nD τ).loc main_arg2)
/-- Argument 3's launch contents on core c. -/
abbrev br_a3 : (⟨S256x256, .f32⟩ : BufTy).Contents (Elt Ideal) := m ((c.tc : Thread nD τ).loc main_arg3)
/-- Argument 4's launch contents on core c. -/
abbrev br_a4 : (⟨S256, .f32⟩ : BufTy).Contents (Elt Ideal) := m ((c.tc : Thread nD τ).loc main_arg4)
/-- Argument 5's launch contents on core c. -/
abbrev br_a5 : (⟨S256x256, .f32⟩ : BufTy).Contents (Elt Ideal) := m ((c.tc : Thread nD τ).loc main_arg5)
/-- Argument 6's launch contents on core c. -/
abbrev br_a6 : (⟨S256, .f32⟩ : BufTy).Contents (Elt Ideal) := m ((c.tc : Thread nD τ).loc main_arg6)
/-- Argument 7's launch contents on core c. -/
abbrev br_a7 : (⟨S256x256, .f32⟩ : BufTy).Contents (Elt Ideal) := m ((c.tc : Thread nD τ).loc main_arg7)
/-- Argument 8's launch contents on core c. -/
abbrev br_a8 : (⟨S256, .f32⟩ : BufTy).Contents (Elt Ideal) := m ((c.tc : Thread nD τ).loc main_arg8)
/-- Argument 9's launch contents on core c. -/
abbrev br_a9 : (⟨S256x256, .f32⟩ : BufTy).Contents (Elt Ideal) := m ((c.tc : Thread nD τ).loc main_arg9)
/-- Argument 10's launch contents on core c. -/
abbrev br_a10 : (⟨S256, .f32⟩ : BufTy).Contents (Elt Ideal) := m ((c.tc : Thread nD τ).loc main_arg10)
/-- Argument 11's launch contents on core c. -/
abbrev br_a11 : (⟨S256x256, .f32⟩ : BufTy).Contents (Elt Ideal) := m ((c.tc : Thread nD τ).loc main_arg11)
/-- Argument 12's launch contents on core c. -/
abbrev br_a12 : (⟨S256, .f32⟩ : BufTy).Contents (Elt Ideal) := m ((c.tc : Thread nD τ).loc main_arg12)
/-- Argument 13's launch contents on core c. -/
abbrev br_a13 : (⟨S256x256, .f32⟩ : BufTy).Contents (Elt Ideal) := m ((c.tc : Thread nD τ).loc main_arg13)
/-- Argument 14's launch contents on core c. -/
abbrev br_a14 : (⟨S256, .f32⟩ : BufTy).Contents (Elt Ideal) := m ((c.tc : Thread nD τ).loc main_arg14)
/-- Argument 15's launch contents on core c. -/
abbrev br_a15 : (⟨S256x256, .f32⟩ : BufTy).Contents (Elt Ideal) := m ((c.tc : Thread nD τ).loc main_arg15)
/-- Argument 16's launch contents on core c. -/
abbrev br_a16 : (⟨S256, .f32⟩ : BufTy).Contents (Elt Ideal) := m ((c.tc : Thread nD τ).loc main_arg16)
/-- Argument 17's launch contents on core c. -/
abbrev br_a17 : (⟨S256x256, .f32⟩ : BufTy).Contents (Elt Ideal) := m ((c.tc : Thread nD τ).loc main_arg17)
/-- Argument 18's launch contents on core c. -/
abbrev br_a18 : (⟨S256, .f32⟩ : BufTy).Contents (Elt Ideal) := m ((c.tc : Thread nD τ).loc main_arg18)

theorem br_W1_launch (b : Ref sig .tc) (h0 : b ∉ hostOps0_W) : W1 m c b = m ((c : Thread nD τ).loc b) :=
  (W1_keep m c b h0).trans rfl
theorem br_W2_launch (b : Ref sig .tc) (h0 : b ∉ hostOps0_W)
    (h1 : b ∉ ([main_v1_0, main_v1_1, main_v1_2] : List (Ref sig .tc))) : W2 m c b = m ((c : Thread nD τ).loc b) :=
  (W2_keep m c b h1).trans (br_W1_launch m c b h0)
theorem br_W3_launch (b : Ref sig .tc) (h0 : b ∉ hostOps0_W)
    (h1 : b ∉ ([main_v1_0, main_v1_1, main_v1_2] : List (Ref sig .tc))) (h2 : b ∉ hostOps1_W) :
    W3 m c b = m ((c : Thread nD τ).loc b) :=
  (W3_keep m c b h2).trans (br_W2_launch m c b h0 h1)
theorem br_W4_launch (b : Ref sig .tc) (h0 : b ∉ hostOps0_W)
    (h1 : b ∉ ([main_v1_0, main_v1_1, main_v1_2] : List (Ref sig .tc))) (h2 : b ∉ hostOps1_W) (h3 : b ≠ main_v34) :
    W4 m c b = m ((c : Thread nD τ).loc b) :=
  (W4_keep m c b h3).trans (br_W3_launch m c b h0 h1 h2)
theorem br_W5_launch (b : Ref sig .tc) (h0 : b ∉ hostOps0_W)
    (h1 : b ∉ ([main_v1_0, main_v1_1, main_v1_2] : List (Ref sig .tc))) (h2 : b ∉ hostOps1_W) (h3 : b ≠ main_v34)
    (h4 : b ∉ hostOps2_W) : W5 m c b = m ((c : Thread nD τ).loc b) :=
  (W5_keep m c b h4).trans (br_W4_launch m c b h0 h1 h2 h3)
theorem br_W6_launch (b : Ref sig .tc) (h0 : b ∉ hostOps0_W)
    (h1 : b ∉ ([main_v1_0, main_v1_1, main_v1_2] : List (Ref sig .tc))) (h2 : b ∉ hostOps1_W) (h3 : b ≠ main_v34)
    (h4 : b ∉ hostOps2_W) (h5 : b ≠ main_v64) : W6 m c b = m ((c : Thread nD τ).loc b) :=
  (W6_keep m c b h5).trans (br_W5_launch m c b h0 h1 h2 h3 h4)

/-! ## Before the first call: the row indices as a column -/

/-- The row indices reshaped to a column are the row indices broadcast along the first axis. -/
theorem br_idx_col : (W1 m c (Proc.devRef .tc main_v0) : (⟨S262144x1, .i32⟩ : BufTy).Contents (Elt Ideal))
    = broadcastInDim S262144x1 ![0] Cert.ReferenceIdeal.Facts₀.bcast_S262144_S262144x1_0 (W1 m c (Proc.devRef .tc main_arg1)) := by
  rw [br_W1_launch m c main_arg1 (by decide)]
  show StableHlo.after hostOps0 (W0 m c) (Proc.devRef .tc main_v0) = _
  open StableHlo in after_results
  exact br_col_reshape 262144 (by decide) _ _ _

/-! ## The first call's three results -/

theorem br_sum (H : RegionValues) : (W2 m c (Proc.devRef .tc main_v1_0) : (⟨S256x256, .f32⟩ : BufTy).Contents (Elt Ideal))
    = Cert.ReferenceIdeal.Read.val_main_v45 (F := Ideal) (br_a0 m c) (br_a1 m c) := by
  refine (W2_arr m c 2).trans ((H.sum (E1 m) c (br_idx_col m c)).trans ?_)
  show Cert.ReferenceIdeal.Read.val_main_v45 (F := Ideal) (W1 m c (Proc.devRef .tc main_arg0)) (W1 m c (Proc.devRef .tc main_arg1)) = _
  rw [br_W1_launch m c main_arg0 (by decide), br_W1_launch m c main_arg1 (by decide)]

theorem br_cnt (H : RegionValues) : (W2 m c (Proc.devRef .tc main_v1_1) : (⟨S256x1, .f32⟩ : BufTy).Contents (Elt Ideal))
    = Cert.ReferenceIdeal.Read.val_main_v49 (F := Ideal) (br_a1 m c) := by
  refine (W2_arr m c 3).trans ((H.cnt (E1 m) c (br_idx_col m c)).trans ?_)
  show Cert.ReferenceIdeal.Read.val_main_v49 (F := Ideal) (W1 m c (Proc.devRef .tc main_arg1)) = _
  rw [br_W1_launch m c main_arg1 (by decide)]

theorem br_gsum (H : RegionValues) : (W2 m c (Proc.devRef .tc main_v1_2) : (⟨S1x256, .f32⟩ : BufTy).Contents (Elt Ideal))
    = Cert.ReferenceIdeal.Read.val_main_v83 (F := Ideal) (br_a0 m c) := by
  refine (W2_arr m c 4).trans ((H.gsum (E1 m) c).trans ?_)
  show Cert.ReferenceIdeal.Read.val_main_v83 (F := Ideal) (W1 m c (Proc.devRef .tc main_arg0)) = _
  rw [br_W1_launch m c main_arg0 (by decide)]

/-! ## Between the first and the second call -/

/-- The per-camera means. -/
theorem br_v5 (H : RegionValues) : (W3 m c (Proc.devRef .tc main_v5) : (⟨S256x256, .f32⟩ : BufTy).Contents (Elt Ideal))
    = Cert.ReferenceIdeal.Read.val_main_v53 (F := Ideal) (br_a0 m c) (br_a1 m c) := by
  show StableHlo.after hostOps1 (W2 m c) (Proc.devRef .tc main_v5) = _
  open StableHlo in after_results
  rw [br_sum m c H, br_cnt m c H]
  rfl

/-- The global mean row through its linear layer. -/
theorem br_v10 (H : RegionValues) : (W3 m c (Proc.devRef .tc main_v10) : (⟨S1x256, .f32⟩ : BufTy).Contents (Elt Ideal))
    = Cert.ReferenceIdeal.Read.val_main_v88 (F := Ideal) (br_a0 m c) (br_a5 m c) (br_a6 m c) := by
  show StableHlo.after hostOps1 (W2 m c) (Proc.devRef .tc main_v10) = _
  open StableHlo in after_results
  rw [br_gsum m c H, br_W2_launch m c main_arg5 (by decide) (by decide), br_W2_launch m c main_arg6 (by decide) (by decide)]
  rfl

/-- The queries. -/
theorem br_v25 : (W3 m c (Proc.devRef .tc main_v25) : (⟨S8192x256, .f32⟩ : BufTy).Contents (Elt Ideal))
    = Cert.ReferenceIdeal.Read.val_main_v18 (F := Ideal) (br_a0 m c) (br_a2 m c) (br_a11 m c) (br_a12 m c) := by
  show StableHlo.after hostOps1 (W2 m c) (Proc.devRef .tc main_v25) = _
  open StableHlo in after_results_simp
  rw [br_W2_launch m c main_arg0 (by decide) (by decide), br_W2_launch m c main_arg2 (by decide) (by decide), br_W2_launch m c main_arg11 (by decide) (by decide), br_W2_launch m c main_arg12 (by decide) (by decide)]
  rfl

/-- The keys. -/
theorem br_v29 : (W3 m c (Proc.devRef .tc main_v29) : (⟨S8192x256, .f32⟩ : BufTy).Contents (Elt Ideal))
    = Cert.ReferenceIdeal.Read.val_main_v22 (F := Ideal) (br_a0 m c) (br_a2 m c) (br_a9 m c) (br_a10 m c) := by
  show StableHlo.after hostOps1 (W2 m c) (Proc.devRef .tc main_v29) = _
  open StableHlo in after_results_simp
  rw [br_W2_launch m c main_arg0 (by decide) (by decide), br_W2_launch m c main_arg2 (by decide) (by decide), br_W2_launch m c main_arg9 (by decide) (by decide), br_W2_launch m c main_arg10 (by decide) (by decide)]
  rfl

/-- The values. -/
theorem br_v33 : (W3 m c (Proc.devRef .tc main_v33) : (⟨S8192x256, .f32⟩ : BufTy).Contents (Elt Ideal))
    = Cert.ReferenceIdeal.Read.val_main_v26 (F := Ideal) (br_a0 m c) (br_a2 m c) (br_a7 m c) (br_a8 m c) := by
  show StableHlo.after hostOps1 (W2 m c) (Proc.devRef .tc main_v33) = _
  open StableHlo in after_results_simp
  rw [br_W2_launch m c main_arg0 (by decide) (by decide), br_W2_launch m c main_arg2 (by decide) (by decide), br_W2_launch m c main_arg7 (by decide) (by decide), br_W2_launch m c main_arg8 (by decide) (by decide)]
  rfl

/-! ## The second call's result -/

theorem br_v34 (H : RegionValues) : (W4 m c (Proc.devRef .tc main_v34) : (⟨S8192x256, .f32⟩ : BufTy).Contents (Elt Ideal))
    = Cert.ReferenceIdeal.Read.val_main_v42 (F := Ideal) (br_a0 m c) (br_a2 m c) (br_a7 m c) (br_a8 m c) (br_a9 m c) (br_a10 m c) (br_a11 m c) (br_a12 m c) :=
  (W4_arr m c 3).trans (H.attn (E3 m) c (br_a0 m c) (br_a2 m c) (br_a7 m c) (br_a8 m c) (br_a9 m c) (br_a10 m c) (br_a11 m c) (br_a12 m c)
    (br_v25 m c) (br_v29 m c) (br_v33 m c))

/-! ## Between the second and the third call -/

/-- The per-camera means are still there after the second call. -/
theorem br_v5_4 (H : RegionValues) : (W4 m c (Proc.devRef .tc main_v5) : (⟨S256x256, .f32⟩ : BufTy).Contents (Elt Ideal))
    = Cert.ReferenceIdeal.Read.val_main_v53 (F := Ideal) (br_a0 m c) (br_a1 m c) :=
  (W4_keep m c main_v5 (by decide)).trans (br_v5 m c H)

/-- The small attention over the per-camera means. -/
theorem br_v62 (H : RegionValues) : (W5 m c (Proc.devRef .tc main_v62) : (⟨S256x256, .f32⟩ : BufTy).Contents (Elt Ideal))
    = Cert.ReferenceIdeal.Read.val_main_v81 (F := Ideal) (br_a0 m c) (br_a1 m c) (br_a13 m c) (br_a14 m c) (br_a15 m c) (br_a16 m c) (br_a17 m c) (br_a18 m c) := by
  show StableHlo.after hostOps2 (W4 m c) (Proc.devRef .tc main_v62) = _
  open StableHlo in after_results_simp
  rw [br_v5_4 m c H, br_W4_launch m c main_arg13 (by decide) (by decide) (by decide) (by decide), br_W4_launch m c main_arg14 (by decide) (by decide) (by decide) (by decide), br_W4_launch m c main_arg15 (by decide) (by decide) (by decide) (by decide), br_W4_launch m c main_arg16 (by decide) (by decide) (by decide) (by decide), br_W4_launch m c main_arg17 (by decide) (by decide) (by decide) (by decide), br_W4_launch m c main_arg18 (by decide) (by decide) (by decide) (by decide)]
  rfl

/-- The first bias row, reshaped to 1 × 256, is the bias broadcast along the second axis. -/
theorem br_v63 : (W5 m c (Proc.devRef .tc main_v63) : (⟨S1x256, .f32⟩ : BufTy).Contents (Elt Ideal))
    = Cert.ReferenceIdeal.Read.val_main_v1 (F := Ideal) (br_a4 m c) := by
  show StableHlo.after hostOps2 (W4 m c) (Proc.devRef .tc main_v63) = _
  open StableHlo in after_results
  rw [br_W4_launch m c main_arg4 (by decide) (by decide) (by decide) (by decide)]
  exact br_row_reshape 256 (by decide) _ _ _

/-- The global row is still there before the third call. -/
theorem br_v10_5 (H : RegionValues) : (W5 m c (Proc.devRef .tc main_v10) : (⟨S1x256, .f32⟩ : BufTy).Contents (Elt Ideal))
    = Cert.ReferenceIdeal.Read.val_main_v88 (F := Ideal) (br_a0 m c) (br_a5 m c) (br_a6 m c) :=
  (W5_keep m c main_v10 (by decide)).trans ((W4_keep m c main_v10 (by decide)).trans (br_v10 m c H))

/-! ## The third call's result -/

theorem br_v64 (H : RegionValues) : @Eq (FVec Ideal S262144x256 .f32) (W6 m c (Proc.devRef .tc main_v64))
    (addf (F := Ideal) (addf (F := Ideal) (Cert.ReferenceIdeal.Read.val_main_v0 (F := Ideal) (br_a0 m c) (br_a3 m c)) (Cert.ReferenceIdeal.Read.val_main_v2 (F := Ideal) (br_a4 m c)))
        (Cert.ReferenceIdeal.Read.val_main_v105 (F := Ideal) (br_a0 m c) (br_a5 m c) (br_a6 m c))) := by
  refine (W6_arr m c 4).trans ((H.comb (E5 m) c).trans ?_)
  dsimp only [E5]
  rw [br_W5_launch m c main_arg0 (by decide) (by decide) (by decide) (by decide) (by decide), br_W5_launch m c main_arg3 (by decide) (by decide) (by decide) (by decide) (by decide), br_v63 m c, br_v10_5 m c H]
  rfl

/-! ## After the third call: the result -/

theorem br_v34_6 (H : RegionValues) : (W6 m c (Proc.devRef .tc main_v34) : (⟨S8192x256, .f32⟩ : BufTy).Contents (Elt Ideal))
    = Cert.ReferenceIdeal.Read.val_main_v42 (F := Ideal) (br_a0 m c) (br_a2 m c) (br_a7 m c) (br_a8 m c) (br_a9 m c) (br_a10 m c) (br_a11 m c) (br_a12 m c) :=
  (W6_keep m c main_v34 (by decide)).trans ((W5_keep m c main_v34 (by decide)).trans (br_v34 m c H))

theorem br_v62_6 (H : RegionValues) : (W6 m c (Proc.devRef .tc main_v62) : (⟨S256x256, .f32⟩ : BufTy).Contents (Elt Ideal))
    = Cert.ReferenceIdeal.Read.val_main_v81 (F := Ideal) (br_a0 m c) (br_a1 m c) (br_a13 m c) (br_a14 m c) (br_a15 m c) (br_a16 m c) (br_a17 m c) (br_a18 m c) :=
  (W6_keep m c main_v62 (by decide)).trans (br_v62 m c H)

/-- The result buffer at the end is the reference's last stage of the launch arguments. -/
theorem br_result (H : RegionValues) : (W7 m c (Proc.devRef .tc main_v82) : (⟨S262144x256, .f32⟩ : BufTy).Contents (Elt Ideal))
    = Cert.ReferenceIdeal.Read.val_main_v108 (F := Ideal) (br_a0 m c) (br_a1 m c) (br_a2 m c) (br_a3 m c) (br_a4 m c) (br_a5 m c) (br_a6 m c) (br_a7 m c) (br_a8 m c) (br_a9 m c) (br_a10 m c) (br_a11 m c) (br_a12 m c) (br_a13 m c) (br_a14 m c) (br_a15 m c) (br_a16 m c) (br_a17 m c) (br_a18 m c) := by
  show StableHlo.after hostOps3 (W6 m c) (Proc.devRef .tc main_v82) = _
  open StableHlo in after_results_simp
  rw [br_v64 m c H, br_v34_6 m c H, br_v62_6 m c H, br_W6_launch m c main_arg1 (by decide) (by decide) (by decide) (by decide) (by decide) (by decide), br_W6_launch m c main_arg2 (by decide) (by decide) (by decide) (by decide) (by decide) (by decide)]
  rw [H.tail]
  rfl

/-- THE COMPARISON: the result buffer at the end holds the reference's result of the launch arguments. -/
theorem result_eq (H : RegionValues) (m : (ℓ : Loc nD τ sig) → Buf (Elt Ideal) ℓ) (c : Dev nD) :
    (W7 m c (Proc.devRef .tc main_v82) : (⟨S262144x256, .f32⟩ : BufTy).Contents (Elt Ideal))
      = Cert.ReferenceIdeal.Read.val_main_v108 (F := Ideal)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18)) :=
  br_result m c H

end Cert.KernelIdeal.Hand

end
-- ==== Proof.lean ====
/-
  The certificate of a graph-attention layer over camera–point observations: three pallas_calls (a statistics pass
  that accumulates per-camera sums, counts and column sums over 64 tiles by a one-hot matrix product; a dense
  softmax attention over the 8192 point means; a matrix product with two bias rows) among host operations, against
  the plain reference.

  Frames. Each of the two kernel programs is run as its seven items — four stretches of host operations and the
  three calls — over the contents of every unscoped buffer at each boundary; the calls' bodies are run at every grid
  point, the first one carrying its three accumulators from point to point. No item writes an argument array. The
  reference has no call; its frame is its run.

  Values, at the exact reals. The statistics pass's one-hot products summed over the tiles are the reference's
  segment sums by row index, its counts the segment sums of ones, its column sums the reference's column sums; the
  attention call computes, 256 rows at a time, the reference's softmax attention (a product with 1/16 is the
  quotient by 16, the row maximum is the same supremum); the third call's rows are the reference's matrix product
  plus bias, plus the broadcast row; every other host line is the same on both sides. The two results differ only
  in the place of one summand in a sum of five arrays, and addition of extended reals is commutative and
  associative: no finiteness is needed.
-/
import proofs.«427711_j70531952934916_2_alg».proof.Defs
import proofs.«427711_j70531952934916_2_alg».proof.Proof.Gen.Kernel
import proofs.«427711_j70531952934916_2_alg».proof.Proof.Gen.KernelIdeal
import proofs.«427711_j70531952934916_2_alg».proof.Proof.Gen.ReferenceIdeal
import proofs.«427711_j70531952934916_2_alg».proof.Proof.Gen.Pre_finite_inputs
import proofs.«427711_j70531952934916_2_alg».proof.Proof.Gen.ReferenceIdeal.Run
import proofs.«427711_j70531952934916_2_alg».proof.Proof.Gen.ReferenceIdeal.Read
import proofs.«427711_j70531952934916_2_alg».proof.Proof.K.Keep
import proofs.«427711_j70531952934916_2_alg».proof.Proof.KI.Keep
import proofs.«427711_j70531952934916_2_alg».proof.Proof.KI.Values
import proofs.«427711_j70531952934916_2_alg».proof.Proof.KI.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame_all (F := Bits) m ρ

theorem frame_ki : Cert.frame_KernelIdeal := fun m ρ _ => Cert.KernelIdeal.Hand.frame_all (F := Ideal) m ρ

theorem frame_r : Cert.frame_ReferenceIdeal := fun m ρ _ =>
  (θ_run Cert.ReferenceIdeal.defs _ _).mono (fun _ h c => (h c).2) (Cert.ReferenceIdeal.Value.run (F := Ideal) m ρ)

section
open Cert.KernelIdeal

/-- Both idealized programs end at one value: the kernel program's last boundary contents of its result buffer,
    which is the reference's last stage of the same arguments. -/
theorem algebraic : Cert.algebraic_KernelIdeal_ReferenceIdeal := by
  intro m ρ m' ρ' _ hagree
  refine ⟨fun c => Cert.KernelIdeal.Hand.W7 m c (Proc.devRef .tc main_v82), Cert.KernelIdeal.Hand.value_all (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v108_eq]
  obtain ⟨h0, h1, h2, h3, h4, h5, h6, h7, h8, h9, h10, h11, h12, h13, h14, h15, h16, h17, h18⟩ := hagree c
  rw [h0, h1, h2, h3, h4, h5, h6, h7, h8, h9, h10, h11, h12, h13, h14, h15, h16, h17, h18]
  exact (Cert.KernelIdeal.Hand.result_eq Cert.KernelIdeal.Hand.regionValues m c).symm

end

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
